-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S4096x1024 : Shape := ⟨2, ![4096, 1024]⟩
abbrev S1x1024 : Shape := ⟨2, ![1, 1024]⟩
abbrev S4x1x1024 : Shape := ⟨3, ![4, 1, 1024]⟩
abbrev S3 : Shape := ⟨1, ![3]⟩
abbrev S4 : Shape := ⟨1, ![4]⟩
abbrev S_ : Shape := ⟨0, ![]⟩
abbrev S1024 : Shape := ⟨1, ![1024]⟩
abbrev S1x1x1024 : Shape := ⟨3, ![1, 1, 1024]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .local _ .vmem, ⟨0, _⟩ => ⟨S4096x1024, .f32⟩
  | .local _ .vmem, ⟨1, _⟩ => ⟨S1x1024, .f32⟩
  | .local _ .vmem, ⟨2, _⟩ => ⟨S4x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_17 : BitVec 32 := 2#32
  let v23 : BitVec 32 := Scalar.addi v2 c2_i32_17
  let c4_i32_18 : BitVec 32 := 4#32
  let v24 : BitVec 32 := Scalar.remsi v23 c4_i32_18
  let c1_i32_23 : BitVec 32 := 1#32
  let v25 : BitVec 32 := Scalar.muli v24 c1_i32_23
  let v26 : BitVec 32 := Scalar.addi c0_i32_24 v25
  v26.toNat
def k0_dev5 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_29 : BitVec 32 := 1#32
  let v35 : BitVec 32 := Scalar.addi v2 c1_i32_29
  let c4_i32_30 : BitVec 32 := 4#32
  let v36 : BitVec 32 := Scalar.remsi v35 c4_i32_30
  let c1_i32_35 : BitVec 32 := 1#32
  let v37 : BitVec 32 := Scalar.muli v36 c1_i32_35
  let v38 : BitVec 32 := Scalar.addi c0_i32_36 v37
  v38.toNat
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_41 : BitVec 32 := 3#32
  let v47 : BitVec 32 := Scalar.addi v2 c3_i32_41
  let c4_i32_42 : BitVec 32 := 4#32
  let v48 : BitVec 32 := Scalar.remsi v47 c4_i32_42
  let c1_i32_47 : BitVec 32 := 1#32
  let v49 : BitVec 32 := Scalar.muli v48 c1_i32_47
  let v50 : BitVec 32 := Scalar.addi c0_i32_48 v49
  v50.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S4096x1024_S1024 : S4096x1024.Reduces [0] S1024
  shapeCasts_S1024_S1x1024 : S1024.ShapeCasts S1x1024
  inb_S4x1x1024_S1x1x1024_0_0_0 : ∀ a, (![0, 0, 0] : Fin 3 → Nat) a + S1x1x1024.size a ≤ S4x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  hamt_3 : (3#32 : BitVec 32).msb = false
  inb_S3_S1_1 : ∀ a, (![1] : Fin 1 → Nat) a + S1.size a ≤ S3.size a
  squeezes_S1_S_ : S1.Squeezes S_
  inb_S4_S1_2 : ∀ a, (![2] : Fin 1 → Nat) a + S1.size a ≤ S4.size a
  inb_S4x1x1024_S1x1x1024_2_0_0 : ∀ a, (![2, 0, 0] : Fin 3 → Nat) a + S1x1x1024.size a ≤ S4x1x1024.size a
  squeezes_S1x1x1024_S1x1024 : S1x1x1024.Squeezes S1x1024
  inb_S3_S1_0 : ∀ a, (![0] : Fin 1 → Nat) a + S1.size a ≤ S3.size a
  inb_S4_S1_3 : ∀ a, (![3] : Fin 1 → Nat) a + S1.size a ≤ S4.size a
  inb_S4x1x1024_S1x1x1024_3_0_0 : ∀ a, (![3, 0, 0] : Fin 3 → Nat) a + S1x1x1024.size a ≤ S4x1x1024.size a
  inb_S3_S1_2 : ∀ a, (![2] : Fin 1 → Nat) a + S1.size a ≤ S3.size a
  inb_S4_S1_1 : ∀ a, (![1] : Fin 1 → Nat) a + S1.size a ≤ S4.size a
  inb_S4x1x1024_S1x1x1024_1_0_0 : ∀ a, (![1, 0, 0] : Fin 3 → Nat) a + S1x1x1024.size a ≤ S4x1x1024.size a
  inb_S1x1024_S1x1024_0_0 : ∀ a, (![0, 0] : Fin 2 → Nat) a + S1x1024.size a ≤ S1x1024.size a
  h_S1x1024 : 0 < S1x1024.numel
  hcc0_scratch1 : 2 + S3.numel ≤ 9
  hcc0_scratch2 : 5 + S4.numel ≤ 9
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch1 : DmaSems sig S3 := SemArray.consecutive 2 S3 hcc0_scratch1
abbrev cc0_scratch2 : DmaSems sig S4 := SemArray.consecutive 5 S4 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S_, .f32⟩
  | .hbm, ⟨2, _⟩ => ⟨S1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S16384x1024_S1024_d0 : S16384x1024.ReducesTo [0] S1024
  h_S_ : 0 < S_.numel
  bcast_S1024_S1x1024_1 : S1024.BroadcastsInDim S1x1024 (![1] : Fin 1 → Fin S1x1024.rank)
  bcast_S_S1x1024 : S_.BroadcastsInDim S1x1024 (![] : Fin 0 → Fin S1x1024.rank)

variable [Facts₀]

class Facts : Prop extends Facts₀ where

variable [Facts]
-- ==== Proof.Common.lean ====
/-
  The mean over rows of an array cut into four row blocks, one per device: every device sums its own block's
  columns, tells its three peers that it has entered, waits for their three words, copies its partial sums into
  a landing row on each peer, and adds up its own row and the three rows that land.  This module fixes the
  vocabulary the rest of the proof shares: the mesh's rotation, the four rows of the scratch array, the eleven
  semaphore cells a device takes part in, the schedule of who pays which cell what, and the resources a device
  starts from and ends with.
-/
import proofs.«900951_g7700000000000952_dist_mean_ax0_shard0_i_m4096_n1024_v7x_i4_bf16_1_alg».proof.Proof.Gen.KernelIdeal
import proofs.«900951_g7700000000000952_dist_mean_ax0_shard0_i_m4096_n1024_v7x_i4_bf16_1_alg».proof.Proof.Gen.KernelIdeal.Skeleton
import proofs.«900951_g7700000000000952_dist_mean_ax0_shard0_i_m4096_n1024_v7x_i4_bf16_1_alg».proof.Proof.Gen.KernelIdeal.Launch
import proofs.«900951_g7700000000000952_dist_mean_ax0_shard0_i_m4096_n1024_v7x_i4_bf16_1_alg».proof.Proof.Gen.KernelIdeal.Points
import proofs.«900951_g7700000000000952_dist_mean_ax0_shard0_i_m4096_n1024_v7x_i4_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the rounds' copy with three duty names -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The mesh: four devices in a circle -/

/-- The device `k` places further round the circle. -/
def fwd (k : ℕ) (c : Dev nD) : Dev nD := ⟨(c.val + k) % 4, Nat.mod_lt _ (by decide)⟩

theorem fwd31 (c : Dev nD) : fwd 3 (fwd 1 c) = c := by revert c; decide
theorem fwd22 (c : Dev nD) : fwd 2 (fwd 2 c) = c := by revert c; decide
theorem fwd13 (c : Dev nD) : fwd 1 (fwd 3 c) = c := by revert c; decide

theorem dev1_eq (c : Dev nD) : (⟨k0_dev1 c, k0_dev1_lt c⟩ : Dev nD) = fwd 1 c := Fin.ext (k0_dev1_eq c)
theorem dev2_eq (c : Dev nD) : (⟨k0_dev2 c, k0_dev2_lt c⟩ : Dev nD) = fwd 2 c := Fin.ext (k0_dev2_eq c)
theorem dev3_eq (c : Dev nD) : (⟨k0_dev3 c, k0_dev3_lt c⟩ : Dev nD) = fwd 3 c := Fin.ext (k0_dev3_eq c)
theorem dev4_eq (c : Dev nD) : (⟨k0_dev4 c, k0_dev4_lt c⟩ : Dev nD) = fwd 2 c := Fin.ext (k0_dev4_eq c)
theorem dev5_eq (c : Dev nD) : (⟨k0_dev5 c, k0_dev5_lt c⟩ : Dev nD) = fwd 1 c := Fin.ext (k0_dev5_eq c)
theorem dev6_eq (c : Dev nD) : (⟨k0_dev6 c, k0_dev6_lt c⟩ : Dev nD) = fwd 3 c := Fin.ext (k0_dev6_eq c)

/-! ## The buffers: the block of rows, the result row, and the scratch array of four rows -/

abbrev xM : Memref sig .tc .vmem S4096x1024 .f32 := Memref.whole cc0_stg0_0
abbrev oM : Memref sig .tc .vmem S1x1024 .f32 := Memref.whole cc0_stg1_0
abbrev aM : Memref sig .tc .vmem S4x1x1024 .f32 := Memref.whole cc0_scratch0

/-- Row `k` of the scratch array as a rectangle of it. -/
abbrev row0 : Rect S4x1x1024 := Rect.unit (s := S4x1x1024) ![0, 0, 0] S1x1x1024.size inb_S4x1x1024_S1x1x1024_0_0_0
abbrev row1 : Rect S4x1x1024 := Rect.unit (s := S4x1x1024) ![1, 0, 0] S1x1x1024.size inb_S4x1x1024_S1x1x1024_1_0_0
abbrev row2 : Rect S4x1x1024 := Rect.unit (s := S4x1x1024) ![2, 0, 0] S1x1x1024.size inb_S4x1x1024_S1x1x1024_2_0_0
abbrev row3 : Rect S4x1x1024 := Rect.unit (s := S4x1x1024) ![3, 0, 0] S1x1x1024.size inb_S4x1x1024_S1x1x1024_3_0_0

/-- Row `k` as the memref a copy reads or writes: the slice, its leading unit axis dropped. -/
abbrev rowM0 : Memref sig .tc .vmem S1x1024 .f32 := (aM.slice row0 (fun _ => rfl)).squeeze S1x1024 squeezes_S1x1x1024_S1x1024
abbrev rowM1 : Memref sig .tc .vmem S1x1024 .f32 := (aM.slice row1 (fun _ => rfl)).squeeze S1x1024 squeezes_S1x1x1024_S1x1024
abbrev rowM2 : Memref sig .tc .vmem S1x1024 .f32 := (aM.slice row2 (fun _ => rfl)).squeeze S1x1024 squeezes_S1x1x1024_S1x1024
abbrev rowM3 : Memref sig .tc .vmem S1x1024 .f32 := (aM.slice row3 (fun _ => rfl)).squeeze S1x1024 squeezes_S1x1x1024_S1x1024

/-- The elements of the scratch array that lie in row `k`. -/
abbrev R0 : Finset (cc0_scratch0 : Ref sig .tc).ty.Idx := (rowM0 : Memref sig .tc .vmem S1x1024 .f32).view.set
abbrev R1 : Finset (cc0_scratch0 : Ref sig .tc).ty.Idx := (rowM1 : Memref sig .tc .vmem S1x1024 .f32).view.set
abbrev R2 : Finset (cc0_scratch0 : Ref sig .tc).ty.Idx := (rowM2 : Memref sig .tc .vmem S1x1024 .f32).view.set
abbrev R3 : Finset (cc0_scratch0 : Ref sig .tc).ty.Idx := (rowM3 : Memref sig .tc .vmem S1x1024 .f32).view.set

/-! ## The semaphores and cells -/

abbrev barS : Sem sig := (SemArray.scalar (sig.barrier 0 rfl) : Sems sig S_).sem
abbrev sd0 : DmaSem sig := ((cc0_scratch1.slice (Rect.unit (s := S3) ![0] S1.size inb_S3_S1_0)).squeeze S_ squeezes_S1_S_).sem
abbrev sd1 : DmaSem sig := ((cc0_scratch1.slice (Rect.unit (s := S3) ![1] S1.size inb_S3_S1_1)).squeeze S_ squeezes_S1_S_).sem
abbrev sd2 : DmaSem sig := ((cc0_scratch1.slice (Rect.unit (s := S3) ![2] S1.size inb_S3_S1_2)).squeeze S_ squeezes_S1_S_).sem
abbrev rv1 : DmaSem sig := ((cc0_scratch2.slice (Rect.unit (s := S4) ![1] S1.size inb_S4_S1_1)).squeeze S_ squeezes_S1_S_).sem
abbrev rv2 : DmaSem sig := ((cc0_scratch2.slice (Rect.unit (s := S4) ![2] S1.size inb_S4_S1_2)).squeeze S_ squeezes_S1_S_).sem
abbrev rv3 : DmaSem sig := ((cc0_scratch2.slice (Rect.unit (s := S4) ![3] S1.size inb_S4_S1_3)).squeeze S_ squeezes_S1_S_).sem
/-- The fourth receive semaphore, which the kernel allocates and never uses. -/
abbrev rv0 : DmaSem sig := 5

/-- The seven semaphores of a device that the protocol runs on: the barrier, three send, three receive. -/
abbrev csem : Fin 7 → SemLoc sig := fun
  | 0 => .reg barS | 1 => .dma sd0 | 2 => .dma sd1 | 3 => .dma sd2 | 4 => .dma rv1 | 5 => .dma rv2 | 6 => .dma rv3
abbrev kcell (ck : Dev nD × Fin 7) : GSem nD τ sig := ((ck.1 : Thread nD τ), csem ck.2)
abbrev cellAt (c : Dev nD) (k : Fin 7) : GSem nD τ sig := kcell (c, k)
abbrev barCell (c : Dev nD) : GSem nD τ sig := cellAt c 0

/-- The kernel's own (scoped) semaphores in the order the launch lists them. -/
abbrev osem : Fin 7 → SemLoc sig := fun
  | 0 => .dma sd0 | 1 => .dma sd1 | 2 => .dma sd2 | 3 => .dma rv0 | 4 => .dma rv1 | 5 => .dma rv2 | 6 => .dma rv3

/-- What one copy of a row credits its semaphores. -/
abbrev N : ℕ := (rowM1 : Memref sig .tc .vmem S1x1024 .f32).view.dmaCredit
theorem N_pos : 0 < N := View.dmaCredit_pos _ (by decide)

/-! ## Contents -/

/-- Device `c`'s block of rows as the kernel finds it staged. -/
def xstg (c : Dev nD) : (cc0_stg0_0 : Ref sig .tc).ty.Contents (Elt F) :=
  (win0_0.blk (0 : Fin 1)).view.read (Elt F) (m ((c : Thread nD τ).loc main_arg0))

/-- Device `c`'s partial sums: the column sums of its block, as the row it stores and sends. -/
def acc (c : Dev nD) : Vec F S1x1x1024 .f32 := k0_pay1 (xstg m c)

/-- The result row on device `c`: its own partial sums and those of the devices one, three and two places on, added in
    that order and scaled. -/
def outAt (c : Dev nD) : (cc0_stg1_0 : Ref sig .tc).ty.Contents (Elt F) :=
  k0_pay3 (k0_pay2 (acc m c) (acc m (fwd 1 c))) (acc m (fwd 3 c)) (acc m (fwd 2 c))

/-- The scratch array of device `c` once it has stored its partial sums in row 0 (the other rows as launched). -/
def scr0 (c : Dev nD) : Buf (Elt F) ((c : Thread nD τ).loc cc0_scratch0) :=
  ((aM : Memref sig .tc .vmem S4x1x1024 .f32).access row0).write (Elt F) (m ((c : Thread nD τ).loc cc0_scratch0)) (acc m c) Finset.univ

/-- The scratch array of device `c` held on the elements `R` at share `q`. -/
def scrOn (c : Dev nD) (R : Finset (cc0_scratch0 : Ref sig .tc).ty.Idx) (q : PosShare TreeShare)
    (f : Buf (Elt F) ((c : Thread nD τ).loc cc0_scratch0)) : sProp 𝕄 :=
  ((c : Thread nD τ).loc cc0_scratch0) ↦[R]{q} f

/-- A landing row that holds what device `d` sent: some contents whose row, read back, is `d`'s partial sums. -/
def landed1 (c d : Dev nD) : sProp 𝕄 :=
  iprop(∃ f, ⌜(aM : Memref sig .tc .vmem S4x1x1024 .f32).view.readAt (Elt F) row1.toLoadRect f = acc m d⌝ ∗ scrOn c R1 fullShare f)
def landed2 (c d : Dev nD) : sProp 𝕄 :=
  iprop(∃ f, ⌜(aM : Memref sig .tc .vmem S4x1x1024 .f32).view.readAt (Elt F) row2.toLoadRect f = acc m d⌝ ∗ scrOn c R2 fullShare f)
def landed3 (c d : Dev nD) : sProp 𝕄 :=
  iprop(∃ f, ⌜(aM : Memref sig .tc .vmem S4x1x1024 .f32).view.readAt (Elt F) row3.toLoadRect f = acc m d⌝ ∗ scrOn c R3 fullShare f)

/-- The four quarter shares of row 0: three lent to the copies in flight, one kept for the loads. -/
abbrev qA : PosShare TreeShare := fullShare.left.left
abbrev qB : PosShare TreeShare := fullShare.left.right
abbrev qC : PosShare TreeShare := fullShare.right.left
abbrev qD : PosShare TreeShare := fullShare.right.right

/-! ## The schedule: one round; who pays which cell, how much, and what the owner gets -/

/-- What the signal from the device `k + 1` places on hands the owner `c` of a barrier cell: that device's landing row
    for `c`'s copy, and that its receive cell for that row has reached round 0. -/
def barPay (c : Dev nD) (k : Fin 3) : sProp 𝕄 := match k with
  | 0 => iprop((∃ f, scrOn (fwd 1 c) R3 fullShare f) ∗ reached ER (cellAt (fwd 1 c) 6) 0)
  | 1 => iprop((∃ f, scrOn (fwd 2 c) R2 fullShare f) ∗ reached ER (cellAt (fwd 2 c) 5) 0)
  | 2 => iprop((∃ f, scrOn (fwd 3 c) R1 fullShare f) ∗ reached ER (cellAt (fwd 3 c) 4) 0)

/-- The payload of the one duty of a send or receive cell of device `c`, and of duty `d` of its barrier cell. -/
def payAt (c : Dev nD) (k : Fin 7) (d : Fin 3) : sProp 𝕄 := match k with
  | 0 => barPay c d
  | 1 => scrOn c R0 qA (scr0 m c)
  | 2 => scrOn c R0 qB (scr0 m c)
  | 3 => scrOn c R0 qC (scr0 m c)
  | 4 => landed1 m c (fwd 1 c)
  | 5 => landed2 m c (fwd 2 c)
  | 6 => landed3 m c (fwd 3 c)

abbrev IsBar (g : GSem nD τ sig) : Prop := g.1.2 = .tc ∧ g.2 = csem 0
abbrev IsXfer (g : GSem nD τ sig) : Prop := g.1.2 = .tc ∧ ∃ k : Fin 7, k ≠ 0 ∧ g.2 = csem k

def sched : Rounds.Schedule (GSem nD τ sig) (Fin 3) 𝕄 where
  duties g r := if r = 0 ∧ IsBar g then Finset.univ else if r = 0 ∧ IsXfer g then {0} else ∅
  unitless _ := False
  amount g _ _ := if g.2 = csem 0 then 1 else N
  payload g _ d :=
    if g.2 = csem 0 then payAt m g.1.1 0 d else if g.2 = csem 1 then payAt m g.1.1 1 d
    else if g.2 = csem 2 then payAt m g.1.1 2 d else if g.2 = csem 3 then payAt m g.1.1 3 d
    else if g.2 = csem 4 then payAt m g.1.1 4 d else if g.2 = csem 5 then payAt m g.1.1 5 d
    else if g.2 = csem 6 then payAt m g.1.1 6 d else iprop(emp)
  amount_pos g _ _ _ := by
    by_cases h : g.2 = csem 0
    · rw [if_pos h]; exact Nat.one_pos
    · rw [if_neg h]; exact N_pos

/-! ## What a device owes at launch, and the levels -/

/-- Device `c` owes each peer's barrier cell one unit and each peer's receive cell for its row one copy's credit; summed
    so that each signal and each copy, in program order, pays the last summand left. -/
def O₀ (c : Dev nD) : CellTallies nD τ sig Unit :=
  tallyAt (cellAt (fwd 3 c) 4) () N + tallyAt (cellAt (fwd 1 c) 6) () N + tallyAt (cellAt (fwd 2 c) 5) () N
    + tallyAt (barCell (fwd 3 c)) () 1 + tallyAt (barCell (fwd 2 c)) () 1 + tallyAt (barCell (fwd 1 c)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = csem 0 then 1 else if g.2 = csem 4 ∨ g.2 = csem 5 ∨ g.2 = csem 6 then 2 else 0

/-! ## The ghost state a device starts from -/

/-- The invariants device `c` opens: its own seven cells', its peers' barrier cells', and the receive cells its three
    copies land on. -/
def invs (K : Dev nD × Fin 7 → ℕ) (c : Dev nD) : sProp 𝕄 :=
  iprop(cellInv ER (sched m) (K (c, 0)) (cellAt c 0) ∗ cellInv ER (sched m) (K (c, 1)) (cellAt c 1) ∗ cellInv ER (sched m) (K (c, 2)) (cellAt c 2)
    ∗ cellInv ER (sched m) (K (c, 3)) (cellAt c 3) ∗ cellInv ER (sched m) (K (c, 4)) (cellAt c 4) ∗ cellInv ER (sched m) (K (c, 5)) (cellAt c 5)
    ∗ cellInv ER (sched m) (K (c, 6)) (cellAt c 6)
    ∗ cellInv ER (sched m) (K (fwd 1 c, 0)) (cellAt (fwd 1 c) 0) ∗ cellInv ER (sched m) (K (fwd 2 c, 0)) (cellAt (fwd 2 c) 0)
    ∗ cellInv ER (sched m) (K (fwd 3 c, 0)) (cellAt (fwd 3 c) 0)
    ∗ cellInv ER (sched m) (K (fwd 1 c, 6)) (cellAt (fwd 1 c) 6) ∗ cellInv ER (sched m) (K (fwd 2 c, 5)) (cellAt (fwd 2 c) 5)
    ∗ cellInv ER (sched m) (K (fwd 3 c, 4)) (cellAt (fwd 3 c) 4))

instance invs_persistent (K : Dev nD × Fin 7 → ℕ) (c : Dev nD) : BI.Persistent (invs m K c) := by unfold invs; infer_instance

/-- Its positions: round 0 of each of its own seven cells, nothing taken. -/
def poss (c : Dev nD) : sProp 𝕄 :=
  iprop(atPos ER (cellAt c 0) 0 ∅ 0 ∗ atPos ER (cellAt c 1) 0 ∅ 0 ∗ atPos ER (cellAt c 2) 0 ∅ 0 ∗ atPos ER (cellAt c 3) 0 ∅ 0
    ∗ atPos ER (cellAt c 4) 0 ∅ 0 ∗ atPos ER (cellAt c 5) 0 ∅ 0 ∗ atPos ER (cellAt c 6) 0 ∅ 0)

/-- That round 0 is reached: of its own send and receive cells, of its peers' barrier cells, of the receive cells it pays. -/
def rchs (c : Dev nD) : sProp 𝕄 :=
  iprop(reached ER (cellAt c 1) 0 ∗ reached ER (cellAt c 2) 0 ∗ reached ER (cellAt c 3) 0
    ∗ reached ER (cellAt c 4) 0 ∗ reached ER (cellAt c 5) 0 ∗ reached ER (cellAt c 6) 0
    ∗ reached ER (cellAt (fwd 1 c) 0) 0 ∗ reached ER (cellAt (fwd 2 c) 0) 0 ∗ reached ER (cellAt (fwd 3 c) 0) 0
    ∗ reached ER (cellAt (fwd 1 c) 6) 0 ∗ reached ER (cellAt (fwd 2 c) 5) 0 ∗ reached ER (cellAt (fwd 3 c) 4) 0)

instance rchs_persistent (c : Dev nD) : BI.Persistent (rchs (F := F) c) := by unfold rchs; infer_instance

/-- The tokens of the nine duties it pays: one of each peer's barrier cell, the receive cell of each peer's landing row
    for it, and its own three send cells'. -/
def toks (c : Dev nD) : sProp 𝕄 :=
  iprop(dutyTok ER (cellAt (fwd 1 c) 0) 0 2 ∗ dutyTok ER (cellAt (fwd 2 c) 0) 0 1 ∗ dutyTok ER (cellAt (fwd 3 c) 0) 0 0
    ∗ dutyTok ER (cellAt (fwd 1 c) 6) 0 0 ∗ dutyTok ER (cellAt (fwd 2 c) 5) 0 0 ∗ dutyTok ER (cellAt (fwd 3 c) 4) 0 0
    ∗ dutyTok ER (cellAt c 1) 0 0 ∗ dutyTok ER (cellAt c 2) 0 0 ∗ dutyTok ER (cellAt c 3) 0 0)

def ghost (K : Dev nD × Fin 7 → ℕ) (c : Dev nD) : sProp 𝕄 := iprop(invs m K c ∗ poss c ∗ rchs c ∗ toks c)

/-- The unused receive semaphore of device `c`, as a cell nobody pays. -/
abbrev idleCell (c : Dev nD) : GSem nD τ sig := ((c : Thread nD τ), .dma rv0)

/-- What the body starts from: the ghost state at some names, the credit its peers owe its barrier cell and its three
    receive cells, the levels, and the unused semaphore at zero. -/
def start (c : Dev nD) : sProp 𝕄 :=
  iprop((∃ K, ghost m K c) ∗ cred (tallyAt (cellAt c 0) () 3) ∗ cred (tallyAt (cellAt c 4) () N) ∗ cred (tallyAt (cellAt c 5) () N)
    ∗ cred (tallyAt (cellAt c 6) () N) ∗ levAts L lv ∗ semVal (idleCell c) 0)

def Φ₀ (c : Dev nD) : sProp 𝕄 := iprop(start m c ∗ ∃ f : Buf (Elt F) ((c : Thread nD τ).loc cc0_scratch0), ((c : Thread nD τ).loc cc0_scratch0) ↦{fullShare} f)
/-- After the body: the scratch array whole again, and the kernel's own seven semaphores at zero. -/
def Φ₁ (c : Dev nD) : sProp 𝕄 :=
  iprop((∃ f : Buf (Elt F) ((c : Thread nD τ).loc cc0_scratch0), ((c : Thread nD τ).loc cc0_scratch0) ↦{fullShare} f)
    ∗ semVal (cellAt c 1) 0 ∗ semVal (cellAt c 2) 0 ∗ semVal (cellAt c 3) 0 ∗ semVal (idleCell c) 0
    ∗ semVal (cellAt c 4) 0 ∗ semVal (cellAt c 5) 0 ∗ semVal (cellAt c 6) 0)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A staging buffer held whole at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is entered with and what it leaves. -/
def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

end Cert.KernelIdeal.Coll

end
-- ==== Proof.Sched.lean ====
/-
  The schedule read cell by cell: which duties a cell has at round 0 and none later, what each pays, what a whole round
  adds up to, and what the owner is handed; and that a device may wait on its barrier cell while it still owes its
  three copies, because receive cells sit above barrier cells.
-/
import proofs.«900951_g7700000000000952_dist_mean_ax0_shard0_i_m4096_n1024_v7x_i4_bf16_1_alg».proof.Proof.Common

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The seven semaphores are pairwise distinct -/

omit [FloatOps F] in
theorem csem_inj : ∀ i j : Fin 7, csem i = csem j → i = j := by decide

omit [FloatOps F] in
theorem csem_ne {i j : Fin 7} (h : i ≠ j) : csem i ≠ csem j := fun e => h (csem_inj i j e)

/-! ## Every payload can be stored in an invariant -/

omit [FloatOps F] in
instance barPay_storable (c : Dev nD) (d : Fin 3) : BI.Storable (upEmb : UEmb _ 𝕄) (barPay (F := F) c d) := by
  match d with
  | 0 => unfold barPay scrOn; infer_instance
  | 1 => unfold barPay scrOn; infer_instance
  | 2 => unfold barPay scrOn; infer_instance

instance payAt_storable (c : Dev nD) (k : Fin 7) (d : Fin 3) : BI.Storable (upEmb : UEmb _ 𝕄) (payAt (F := F) m c k d) := by
  match k with
  | 0 => exact barPay_storable c d
  | 1 => unfold payAt scrOn; infer_instance
  | 2 => unfold payAt scrOn; infer_instance
  | 3 => unfold payAt scrOn; infer_instance
  | 4 => unfold payAt landed1 scrOn; infer_instance
  | 5 => unfold payAt landed2 scrOn; infer_instance
  | 6 => unfold payAt landed3 scrOn; infer_instance

instance sched_payload_storable (g : GSem nD τ sig) (r : ℕ) (d : Fin 3) :
    BI.Storable (upEmb : UEmb _ 𝕄) ((sched (F := F) m).payload g r d) := by
  dsimp only [sched]
  (repeat' split) <;> infer_instance

section Sched
variable (c : Dev nD)

theorem duties_bar : (sched (F := F) m).duties (cellAt c 0) 0 = Finset.univ := by
  dsimp only [sched]; exact if_pos ⟨rfl, rfl, rfl⟩
theorem duties_xfer (k : Fin 7) (hk : k ≠ 0) : (sched (F := F) m).duties (cellAt c k) 0 = {0} := by
  dsimp only [sched]
  rw [if_neg (fun h => hk (csem_inj k 0 h.2.2))]
  exact if_pos ⟨rfl, rfl, k, hk, rfl⟩
theorem duties_later (g : GSem nD τ sig) : ∀ r, 1 ≤ r → (sched (F := F) m).duties g r = ∅ := by
  intro r hr
  dsimp only [sched]
  rw [if_neg (fun h => by omega), if_neg (fun h => by omega)]
theorem amount_bar (d : Fin 3) : (sched (F := F) m).amount (cellAt c 0) 0 d = 1 := by
  dsimp only [sched]; exact if_pos rfl
theorem amount_xfer (k : Fin 7) (hk : k ≠ 0) (d : Fin 3) : (sched (F := F) m).amount (cellAt c k) 0 d = N := by
  dsimp only [sched]; exact if_neg (csem_ne hk)
theorem expect_bar : (sched (F := F) m).expect (cellAt c 0) 0 = 3 := by
  unfold Schedule.expect Schedule.amountOf
  rw [duties_bar, Finset.sum_congr rfl fun d _ => amount_bar m c d, Finset.sum_const, Finset.card_univ, Fintype.card_fin, smul_eq_mul]
theorem expect_xfer (k : Fin 7) (hk : k ≠ 0) : (sched (F := F) m).expect (cellAt c k) 0 = N := by
  unfold Schedule.expect Schedule.amountOf
  rw [duties_xfer m c k hk, Finset.sum_singleton, amount_xfer m c k hk]
theorem payload_at (k : Fin 7) (d : Fin 3) : (sched (F := F) m).payload (cellAt c k) 0 d = payAt m c k d := by
  match k with
  | 0 => dsimp only [sched]; exact if_pos rfl
  | 1 => dsimp only [sched]; rw [if_neg (csem_ne (by decide)), if_pos rfl]
  | 2 => dsimp only [sched]; rw [if_neg (csem_ne (by decide)), if_neg (csem_ne (by decide)), if_pos rfl]
  | 3 => dsimp only [sched]; rw [if_neg (csem_ne (by decide)), if_neg (csem_ne (by decide)), if_neg (csem_ne (by decide)), if_pos rfl]
  | 4 =>
    dsimp only [sched]
    rw [if_neg (csem_ne (by decide)), if_neg (csem_ne (by decide)), if_neg (csem_ne (by decide)), if_neg (csem_ne (by decide)), if_pos rfl]
  | 5 =>
    dsimp only [sched]
    rw [if_neg (csem_ne (by decide)), if_neg (csem_ne (by decide)), if_neg (csem_ne (by decide)), if_neg (csem_ne (by decide)),
      if_neg (csem_ne (by decide)), if_pos rfl]
  | 6 =>
    dsimp only [sched]
    rw [if_neg (csem_ne (by decide)), if_neg (csem_ne (by decide)), if_neg (csem_ne (by decide)), if_neg (csem_ne (by decide)),
      if_neg (csem_ne (by decide)), if_neg (csem_ne (by decide)), if_pos rfl]
/-- The whole round of the barrier cell, nothing taken yet: the three peers' payloads. -/
theorem rest_bar : bigSep ((sched (F := F) m).duties (cellAt c 0) 0 \ ∅) (fun d => (sched (F := F) m).payload (cellAt c 0) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_at, payload_at, payload_at]
  rfl
/-- The whole round of a send or receive cell: its one payload. -/
theorem rest_xfer (k : Fin 7) (hk : k ≠ 0) : bigSep ((sched (F := F) m).duties (cellAt c k) 0 \ ∅) (fun d => (sched (F := F) m).payload (cellAt c k) 0 d)
    = payAt m c k 0 := by
  rw [Finset.sdiff_empty, duties_xfer m c k hk, bigSep_singleton, payload_at]

/-- What device `c` still owes when it waits on its barrier cell: the three copies. -/
def O₃ (c : Dev nD) : CellTallies nD τ sig Unit :=
  tallyAt (cellAt (fwd 3 c) 4) () N + tallyAt (cellAt (fwd 1 c) 6) () N + tallyAt (cellAt (fwd 2 c) 5) () N

omit [FloatOps F] in
/-- Every cell of a device carries the one level index. -/
theorem L_dev (d : Dev nD) (s : SemLoc sig) : L ((d : Thread nD τ), s) = {()} := if_pos rfl

omit [FloatOps F] in
/-- A barrier cell sits at level 1. -/
theorem lv_bar (d : Dev nD) (u : Unit) : lv (cellAt d 0) u = 1 := if_pos rfl

omit [FloatOps F] in
/-- A receive cell sits at level 2. -/
theorem lv_recv (d : Dev nD) (k : Fin 7) (hk : k = 4 ∨ k = 5 ∨ k = 6) (u : Unit) : lv (cellAt d k) u = 2 := by
  have h0 : k ≠ 0 := by rcases hk with rfl | rfl | rfl <;> decide
  unfold lv
  rw [if_neg (csem_ne h0)]
  exact if_pos (by rcases hk with rfl | rfl | rfl; exacts [.inl rfl, .inr (.inl rfl), .inr (.inr rfl)])

omit [FloatOps F] in
/-- Away from the three receive cells the copies land on, nothing is owed at the barrier wait. -/
theorem O₃_off {g : GSem nD τ sig} (h4 : g ≠ cellAt (fwd 3 c) 4) (h6 : g ≠ cellAt (fwd 1 c) 6) (h5 : g ≠ cellAt (fwd 2 c) 5) (u : Unit) :
    O₃ c g u = 0 := by
  unfold O₃
  rw [Pi.add_apply, Pi.add_apply, tallyAt_ne_cell h4, tallyAt_ne_cell h6, tallyAt_ne_cell h5]
  rfl

omit [FloatOps F] in
/-- So a cell at which something is owed is one of those three. -/
theorem O₃_on {g : GSem nD τ sig} {u : Unit} (h : 0 < O₃ c g u) :
    g = cellAt (fwd 3 c) 4 ∨ g = cellAt (fwd 1 c) 6 ∨ g = cellAt (fwd 2 c) 5 := by
  by_cases h4 : g = cellAt (fwd 3 c) 4
  · exact .inl h4
  by_cases h6 : g = cellAt (fwd 1 c) 6
  · exact .inr (.inl h6)
  by_cases h5 : g = cellAt (fwd 2 c) 5
  · exact .inr (.inr h5)
  rw [O₃_off c h4 h6 h5 u] at h
  exact absurd h (Nat.lt_irrefl 0)

theorem mayWait_bar : (levAts L lv : sProp 𝕄) ⊢ MayWait (c : Thread nD τ) (csem 0) () (O₃ c) := by
  refine MayOwe.of_cut (L := L) (lev := lv) 1 ?_ ?_ ?_ ?_
  · intro p hp
    rw [Finset.mem_singleton.mp hp, L_dev]
    exact Finset.mem_singleton_self _
  · intro g u hg
    rcases O₃_on c hg with rfl | rfl | rfl <;> (rw [L_dev]; exact Finset.mem_singleton_self _)
  · intro p hp
    rw [Finset.mem_singleton.mp hp]
    exact le_of_eq (lv_bar c ())
  · intro g u hg
    rcases O₃_on c hg with rfl | rfl | rfl
    · rw [lv_recv _ 4 (.inl rfl)]; decide
    · rw [lv_recv _ 6 (.inr (.inr rfl))]; decide
    · rw [lv_recv _ 5 (.inr (.inl rfl))]; decide

end Sched

end Cert.KernelIdeal.Coll

end
-- ==== Proof.Views.lean ====
/-
  The four rows of the scratch array as sets of its elements: they are disjoint and together are the whole array; a load
  or store of a row touches only that row; the row a device stores reads back as its partial sums; and a row copied from
  one device's row 0 to a landing row of another reads back there as it read at the source.
-/
import proofs.«900951_g7700000000000952_dist_mean_ax0_shard0_i_m4096_n1024_v7x_i4_bf16_1_alg».proof.Proof.Common

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The rows as element sets -/

/-- The elements of row `k` are the elements of its rectangle: dropping the unit axis keeps the element set. -/
theorem R0_eq : (R0) = row0.set := (View.set_reshape _ _).trans (View.set_slice_whole cc0_scratch0 row0)
theorem R1_eq : (R1) = row1.set := (View.set_reshape _ _).trans (View.set_slice_whole cc0_scratch0 row1)
theorem R2_eq : (R2) = row2.set := (View.set_reshape _ _).trans (View.set_slice_whole cc0_scratch0 row2)
theorem R3_eq : (R3) = row3.set := (View.set_reshape _ _).trans (View.set_slice_whole cc0_scratch0 row3)

/-- An element lies in row `k` exactly when its first coordinate is `k`: the other two axes are kept whole. -/
theorem mem_rowk {k : ℕ} {inb} (i : S4x1x1024.Idx) :
    i ∈ (Rect.unit (s := S4x1x1024) ![k, 0, 0] S1x1x1024.size inb).set ↔ (i 0 : ℕ) = k := by
  rw [Rect.mem_set_unit]
  have h1 : (i 1 : ℕ) < 1 := (i 1).isLt
  have h2 : (i 2 : ℕ) < 1024 := (i 2).isLt
  constructor
  · intro h; have := h 0; simp at this; omega
  · intro h a; fin_cases a <;> simp <;> omega

theorem R01 : Disjoint (R0) (R1) := by
  rw [R0_eq, R1_eq]; exact Rect.unit_disjoint 0 (Or.inl (by decide))
theorem R02 : Disjoint (R0) (R2) := by
  rw [R0_eq, R2_eq]; exact Rect.unit_disjoint 0 (Or.inl (by decide))
theorem R03 : Disjoint (R0) (R3) := by
  rw [R0_eq, R3_eq]; exact Rect.unit_disjoint 0 (Or.inl (by decide))
theorem R12 : Disjoint (R1) (R2) := by
  rw [R1_eq, R2_eq]; exact Rect.unit_disjoint 0 (Or.inl (by decide))
theorem R13 : Disjoint (R1) (R3) := by
  rw [R1_eq, R3_eq]; exact Rect.unit_disjoint 0 (Or.inl (by decide))
theorem R23 : Disjoint (R2) (R3) := by
  rw [R2_eq, R3_eq]; exact Rect.unit_disjoint 0 (Or.inl (by decide))
/-- Taking rows 1, 2 and 3 off the whole array leaves row 0. -/
theorem R_rest : ((Finset.univ \ R1) \ R2) \ R3 = R0 := by
  rw [R0_eq, R1_eq, R2_eq, R3_eq]
  refine Finset.ext fun (i : S4x1x1024.Idx) => ?_
  have h0 : (i 0 : ℕ) < 4 := (i 0).isLt
  have e0 := mem_rowk (inb := inb_S4x1x1024_S1x1x1024_0_0_0) i
  have e1 := mem_rowk (inb := inb_S4x1x1024_S1x1x1024_1_0_0) i
  have e2 := mem_rowk (inb := inb_S4x1x1024_S1x1x1024_2_0_0) i
  have e3 := mem_rowk (inb := inb_S4x1x1024_S1x1x1024_3_0_0) i
  simp only [Finset.mem_sdiff, Finset.mem_univ, true_and]
  constructor
  · rintro ⟨⟨n1, n2⟩, n3⟩
    have := mt e1.mpr n1; have := mt e2.mpr n2; have := mt e3.mpr n3
    exact e0.mpr (by omega)
  · intro h
    have := e0.mp h
    exact ⟨⟨fun h' => by have := e1.mp h'; omega, fun h' => by have := e2.mp h'; omega⟩, fun h' => by have := e3.mp h'; omega⟩

/-! ## A load or store of a row touches only that row -/

theorem load_row0 : (aM : Memref sig .tc .vmem S4x1x1024 .f32).view.setOn row0.toLoadRect.set ⊆ R0 := by
  rw [R0_eq]; exact (Finset.map_refl (s := row0.toLoadRect.set)).le
theorem load_row1 : (aM : Memref sig .tc .vmem S4x1x1024 .f32).view.setOn row1.toLoadRect.set ⊆ R1 := by
  rw [R1_eq]; exact (Finset.map_refl (s := row1.toLoadRect.set)).le
theorem load_row2 : (aM : Memref sig .tc .vmem S4x1x1024 .f32).view.setOn row2.toLoadRect.set ⊆ R2 := by
  rw [R2_eq]; exact (Finset.map_refl (s := row2.toLoadRect.set)).le
theorem load_row3 : (aM : Memref sig .tc .vmem S4x1x1024 .f32).view.setOn row3.toLoadRect.set ⊆ R3 := by
  rw [R3_eq]; exact (Finset.map_refl (s := row3.toLoadRect.set)).le
theorem store_row0 : ((aM : Memref sig .tc .vmem S4x1x1024 .f32).access row0).setOn Finset.univ ⊆ R0 := by
  rw [R0_eq]; exact (View.set_slice_whole cc0_scratch0 row0).le

/-! ## Contents -/

section Reshape
variable {κ : Kind} {sp : Space} {s s' : Shape} {e : EltTy} {Val : EltTy → Type}

/-- Reading a view back after a write through a re-indexing of it gives the payload, re-indexed. -/
theorem read_write_reshape (v : View sig κ sp s e) (h : s'.numel = s.numel) (f : v.ty.Contents Val)
    (w : s'.Idx → Val e) :
    v.read Val ((v.reshape s' h).write Val f w Finset.univ) = fun x => w ((Shape.reshapeEquiv h).symm x) := by
  funext x
  have hx : v.emb x = (v.reshape s' h).emb ((Shape.reshapeEquiv h).symm x) := by
    simp only [View.emb_reshape, Function.Embedding.trans_apply, Equiv.coe_toEmbedding, Equiv.apply_symm_apply]
  rw [View.read_apply, hx, View.write_emb_of_mem _ _ (Finset.mem_univ _), cast_cast, cast_eq]

/-- A re-indexed view reads what the view reads at the matched index. -/
theorem read_reshape (v : View sig κ sp s e) (h : s'.numel = s.numel) (f : v.ty.Contents Val) (y : s'.Idx) :
    (v.reshape s' h).read Val f y = v.read Val f (Shape.reshapeEquiv h y) := rfl

end Reshape

/-- Row 0 of the array a device has stored its partial sums in reads back as those sums. -/
theorem read_scr0 (c : Dev nD) :
    (aM : Memref sig .tc .vmem S4x1x1024 .f32).view.readAt (Elt F) row0.toLoadRect (scr0 m c) = acc m c := by
  unfold scr0
  exact View.read_write_univ (v := (aM : Memref sig .tc .vmem S4x1x1024 .f32).access row0) _ _

/-- On row 0 the stored array does not depend on what the array held before. -/
theorem store_scr0 (c : Dev nD) (f0 : Buf (Elt F) ((c : Thread nD τ).loc cc0_scratch0)) :
    ∀ i ∈ R0, ((aM : Memref sig .tc .vmem S4x1x1024 .f32).access row0).write (Elt F) f0 (acc m c) Finset.univ i = scr0 m c i := by
  intro i hi
  have hi' : i ∈ ((aM : Memref sig .tc .vmem S4x1x1024 .f32).access row0).setOn Finset.univ := by
    rw [R0_eq, ← View.set_slice_whole cc0_scratch0 row0] at hi; exact hi
  unfold scr0
  exact View.write_congr (fun _ _ _ => rfl) (fun hn => absurd hi' hn)

/-- A copy of row 0 of `fs` onto row `k` of `fd`: row `k` of the result reads as row 0 of `fs` read. -/
theorem land1 (c c' : Dev nD) (fd : Buf (Elt F) ((c' : Thread nD τ).loc cc0_scratch0)) (fs : Buf (Elt F) ((c : Thread nD τ).loc cc0_scratch0)) :
    (aM : Memref sig .tc .vmem S4x1x1024 .f32).view.readAt (Elt F) row1.toLoadRect
        ((rowM1 : Memref sig .tc .vmem S1x1024 .f32).view.write (Elt F) fd ((rowM0 : Memref sig .tc .vmem S1x1024 .f32).view.read (Elt F) fs) Finset.univ)
      = (aM : Memref sig .tc .vmem S4x1x1024 .f32).view.readAt (Elt F) row0.toLoadRect fs := by
  refine (read_write_reshape (Val := Elt F) ((aM : Memref sig .tc .vmem S4x1x1024 .f32).view.slice row1)
    squeezes_S1x1x1024_S1x1024.numel_eq fd ((rowM0 : Memref sig .tc .vmem S1x1024 .f32).view.read (Elt F) fs)).trans ?_
  funext x
  exact (read_reshape ((aM : Memref sig .tc .vmem S4x1x1024 .f32).view.slice row0) squeezes_S1x1x1024_S1x1024.numel_eq fs _).trans
    (congrArg _ (Equiv.apply_symm_apply _ x))
theorem land2 (c c' : Dev nD) (fd : Buf (Elt F) ((c' : Thread nD τ).loc cc0_scratch0)) (fs : Buf (Elt F) ((c : Thread nD τ).loc cc0_scratch0)) :
    (aM : Memref sig .tc .vmem S4x1x1024 .f32).view.readAt (Elt F) row2.toLoadRect
        ((rowM2 : Memref sig .tc .vmem S1x1024 .f32).view.write (Elt F) fd ((rowM0 : Memref sig .tc .vmem S1x1024 .f32).view.read (Elt F) fs) Finset.univ)
      = (aM : Memref sig .tc .vmem S4x1x1024 .f32).view.readAt (Elt F) row0.toLoadRect fs := by
  refine (read_write_reshape (Val := Elt F) ((aM : Memref sig .tc .vmem S4x1x1024 .f32).view.slice row2)
    squeezes_S1x1x1024_S1x1024.numel_eq fd ((rowM0 : Memref sig .tc .vmem S1x1024 .f32).view.read (Elt F) fs)).trans ?_
  funext x
  exact (read_reshape ((aM : Memref sig .tc .vmem S4x1x1024 .f32).view.slice row0) squeezes_S1x1x1024_S1x1024.numel_eq fs _).trans
    (congrArg _ (Equiv.apply_symm_apply _ x))
theorem land3 (c c' : Dev nD) (fd : Buf (Elt F) ((c' : Thread nD τ).loc cc0_scratch0)) (fs : Buf (Elt F) ((c : Thread nD τ).loc cc0_scratch0)) :
    (aM : Memref sig .tc .vmem S4x1x1024 .f32).view.readAt (Elt F) row3.toLoadRect
        ((rowM3 : Memref sig .tc .vmem S1x1024 .f32).view.write (Elt F) fd ((rowM0 : Memref sig .tc .vmem S1x1024 .f32).view.read (Elt F) fs) Finset.univ)
      = (aM : Memref sig .tc .vmem S4x1x1024 .f32).view.readAt (Elt F) row0.toLoadRect fs := by
  refine (read_write_reshape (Val := Elt F) ((aM : Memref sig .tc .vmem S4x1x1024 .f32).view.slice row3)
    squeezes_S1x1x1024_S1x1024.numel_eq fd ((rowM0 : Memref sig .tc .vmem S1x1024 .f32).view.read (Elt F) fs)).trans ?_
  funext x
  exact (read_reshape ((aM : Memref sig .tc .vmem S4x1x1024 .f32).view.slice row0) squeezes_S1x1x1024_S1x1024.numel_eq fs _).trans
    (congrArg _ (Equiv.apply_symm_apply _ x))

end Cert.KernelIdeal.Coll

end
-- ==== Proof.Body.lean ====
/-
  One device's body, operation by operation.  The scratch array is cut into its four rows: rows 1, 2 and 3 go to the three
  peers with the barrier signals, as the landing rows of their copies; row 0 receives the device's partial sums, is lent
  in three quarter shares to the three copies out, and is read at the fourth.  After the barrier wait the device holds a
  landing row on each peer, the copies hand those rows on to their owners' receive cells, and each receive wait returns a
  row holding a peer's partial sums.  At the end the shares and rows are put together again and the cells are closed.
-/
import proofs.«900951_g7700000000000952_dist_mean_ax0_shard0_i_m4096_n1024_v7x_i4_bf16_1_alg».proof.Proof.Common
import proofs.«900951_g7700000000000952_dist_mean_ax0_shard0_i_m4096_n1024_v7x_i4_bf16_1_alg».proof.Proof.Sched
import proofs.«900951_g7700000000000952_dist_mean_ax0_shard0_i_m4096_n1024_v7x_i4_bf16_1_alg».proof.Proof.Views

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 7 → ℕ)

/-- What device `c` still owes after each of its first five payments. -/
def O₅ (c : Dev nD) : CellTallies nD τ sig Unit :=
  tallyAt (cellAt (fwd 3 c) 4) () N + tallyAt (cellAt (fwd 1 c) 6) () N + tallyAt (cellAt (fwd 2 c) 5) () N
    + tallyAt (barCell (fwd 3 c)) () 1 + tallyAt (barCell (fwd 2 c)) () 1
def O₄ (c : Dev nD) : CellTallies nD τ sig Unit :=
  tallyAt (cellAt (fwd 3 c) 4) () N + tallyAt (cellAt (fwd 1 c) 6) () N + tallyAt (cellAt (fwd 2 c) 5) () N
    + tallyAt (barCell (fwd 3 c)) () 1
def O₂ (c : Dev nD) : CellTallies nD τ sig Unit := tallyAt (cellAt (fwd 3 c) 4) () N + tallyAt (cellAt (fwd 1 c) 6) () N
def O₁ (c : Dev nD) : CellTallies nD τ sig Unit := tallyAt (cellAt (fwd 3 c) 4) () N

def bodyPreK (c : Dev nD) : sProp 𝕄 :=
  iprop((ghost m K c ∗ cred (tallyAt (cellAt c 0) () 3) ∗ cred (tallyAt (cellAt c 4) () N) ∗ cred (tallyAt (cellAt c 5) () N)
      ∗ cred (tallyAt (cellAt c 6) () N) ∗ levAts L lv ∗ semVal (idleCell c) 0
      ∗ ∃ f : Buf (Elt F) ((c : Thread nD τ).loc cc0_scratch0), ((c : Thread nD τ).loc cc0_scratch0) ↦{fullShare} f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

theorem fetch_0 (t : Fin cfg0.N) : (cfg0.win (0 : Fin 2)).fetch t = true := by rw [fin_N t]; rfl

abbrev rx : Rect S4096x1024 := Rect.unit (s := S4096x1024) ![0, 0] S4096x1024.size inb_S4096x1024_S4096x1024_0_0
abbrev ro : Rect S1x1024 := Rect.unit (s := S1x1024) ![0, 0] S1x1024.size inb_S1x1024_S1x1024_0_0

theorem hz2 : (![0, 0] : Fin 2 → Nat) = fun _ => 0 := funext fun a => by fin_cases a <;> rfl
theorem read_x (f : (cc0_stg0_0 : Ref sig .tc).ty.Contents (Elt F)) : (xM : Memref sig .tc .vmem S4096x1024 .f32).view.readAt (Elt F) rx.toLoadRect f = f :=
  Memref.readAt_unit_zero (Elt F) cc0_stg0_0 hz2 _ f
theorem write_out (f w : (cc0_stg1_0 : Ref sig .tc).ty.Contents (Elt F)) :
    ((oM : Memref sig .tc .vmem S1x1024 .f32).access ro : View sig .tc _ _ _).write (Elt F) f w Finset.univ = w :=
  Memref.write_access_unit_zero_univ (Elt F) cc0_stg1_0 hz2 _ f w

theorem R2_sub : R2 ⊆ Finset.univ \ R1 := Finset.subset_sdiff.mpr ⟨Finset.subset_univ _, R12.symm⟩
theorem R3_sub : R3 ⊆ (Finset.univ \ R1) \ R2 :=
  Finset.subset_sdiff.mpr ⟨Finset.subset_sdiff.mpr ⟨Finset.subset_univ _, R13.symm⟩, R23.symm⟩

/-! ## The payloads at the cells this device pays and owns -/

theorem pay_bar1 (c : Dev nD) : (sched (F := F) m).payload (cellAt (fwd 1 c) 0) 0 2 = iprop((∃ f, scrOn c R1 fullShare f) ∗ reached ER (cellAt c 4) 0) := by
  rw [payload_at]
  show iprop((∃ f, scrOn (fwd 3 (fwd 1 c)) R1 fullShare f) ∗ reached ER (cellAt (fwd 3 (fwd 1 c)) 4) 0) = _
  rw [fwd31]
theorem pay_bar2 (c : Dev nD) : (sched (F := F) m).payload (cellAt (fwd 2 c) 0) 0 1 = iprop((∃ f, scrOn c R2 fullShare f) ∗ reached ER (cellAt c 5) 0) := by
  rw [payload_at]
  show iprop((∃ f, scrOn (fwd 2 (fwd 2 c)) R2 fullShare f) ∗ reached ER (cellAt (fwd 2 (fwd 2 c)) 5) 0) = _
  rw [fwd22]
theorem pay_bar3 (c : Dev nD) : (sched (F := F) m).payload (cellAt (fwd 3 c) 0) 0 0 = iprop((∃ f, scrOn c R3 fullShare f) ∗ reached ER (cellAt c 6) 0) := by
  rw [payload_at]
  show iprop((∃ f, scrOn (fwd 1 (fwd 3 c)) R3 fullShare f) ∗ reached ER (cellAt (fwd 1 (fwd 3 c)) 6) 0) = _
  rw [fwd13]
theorem pay_sendA (c : Dev nD) : (sched (F := F) m).payload (cellAt c 1) 0 0 = scrOn c R0 qA (scr0 m c) := by rw [payload_at]; rfl
theorem pay_sendB (c : Dev nD) : (sched (F := F) m).payload (cellAt c 2) 0 0 = scrOn c R0 qB (scr0 m c) := by rw [payload_at]; rfl
theorem pay_sendC (c : Dev nD) : (sched (F := F) m).payload (cellAt c 3) 0 0 = scrOn c R0 qC (scr0 m c) := by rw [payload_at]; rfl
theorem pay_recv1 (c : Dev nD) : (sched (F := F) m).payload (cellAt (fwd 3 c) 4) 0 0 = landed1 m (fwd 3 c) c := by
  rw [payload_at]; show landed1 m (fwd 3 c) (fwd 1 (fwd 3 c)) = _; rw [fwd13]
theorem pay_recv2 (c : Dev nD) : (sched (F := F) m).payload (cellAt (fwd 2 c) 5) 0 0 = landed2 m (fwd 2 c) c := by
  rw [payload_at]; show landed2 m (fwd 2 c) (fwd 2 (fwd 2 c)) = _; rw [fwd22]
theorem pay_recv3 (c : Dev nD) : (sched (F := F) m).payload (cellAt (fwd 1 c) 6) 0 0 = landed3 m (fwd 1 c) c := by
  rw [payload_at]; show landed3 m (fwd 1 c) (fwd 3 (fwd 1 c)) = _; rw [fwd31]

/-! ## The three copies -/

theorem amtB : (rowM2 : Memref sig .tc .vmem S1x1024 .f32).view.amount (.dma rv2) = N := rfl
theorem hOB (c : Dev nD) : O₃ c = O₂ c + tallyAt (cellAt (fwd 2 c) 5) () N := rfl
theorem paySrcB (c : Dev nD) :
    ((rowM0 : Memref sig .tc .vmem S1x1024 .f32).view.loc (c : Thread nD τ) ↦[(rowM0 : Memref sig .tc .vmem S1x1024 .f32).view.set]{qB} scr0 m c : sProp 𝕄)
      ⊢ (sched m).payload (cellAt c 2) 0 0 := Entails.of_eq (pay_sendB m c).symm
theorem payDstB (c : Dev nD) (fd : Buf (Elt F) ((rowM2 : Memref sig .tc .vmem S1x1024 .f32).view.loc (Dev.tc (fwd 2 c) : Thread nD τ))) :
    ((rowM2 : Memref sig .tc .vmem S1x1024 .f32).view.loc (Dev.tc (fwd 2 c) : Thread nD τ) ↦[(rowM2 : Memref sig .tc .vmem S1x1024 .f32).view.set]{fullShare}
        ((rowM2 : Memref sig .tc .vmem S1x1024 .f32).view.write (Elt F) fd ((rowM0 : Memref sig .tc .vmem S1x1024 .f32).view.read (Elt F) (scr0 m c)) Finset.univ) : sProp 𝕄)
      ⊢ (sched m).payload (cellAt (fwd 2 c) 5) 0 0 := by
  refine BIBase.Entails.trans ?_ (Entails.of_eq (pay_recv2 m c).symm)
  unfold landed2 scrOn
  iintro H; iexists _
  isplitr; · ipureintro; rw [land2 c (fwd 2 c) fd (scr0 m c), read_scr0]
  iexact H

/-- The copy of row 0 to the device 2 places on, into its row 2: the rule for an addressed copy at this program's cells. -/
theorem wp_sendB (c : Dev nD)
    {hsc : (rowM2 : Memref sig (Dev.tc (fwd 2 c) : Thread nD τ).2.kind .vmem S1x1024 .f32).view.ref.isScScratch = false}
    {hsrc : (rowM0 : Memref sig .tc .vmem S1x1024 .f32).view.WordExact} {hdst : (rowM2 : Memref sig .tc .vmem S1x1024 .f32).view.WordExact}
    {hsem : DmaTarget.Typed .vmem (.dma rv2) (.remote (Dev.tc (fwd 2 c) : Thread nD τ) (rowM2 : Memref sig .tc .vmem S1x1024 .f32) (.dma sd1) hsc)}
    {α : Type} {Q : α → sProp 𝕄} {k : PUnit → Prog (TpuEff nD τ sig (Elt F) Λ₀ .tc) α}
    (fd : Buf (Elt F) ((rowM2 : Memref sig .tc .vmem S1x1024 .f32).view.loc (Dev.tc (fwd 2 c) : Thread nD τ))) (W : Waits sig Unit) :
    iprop(cellInv ER (sched m) (K (c, 2)) (cellAt c 2) ∗ cellInv ER (sched m) (K (fwd 2 c, 5)) (cellAt (fwd 2 c) 5)
        ∗ ((rowM0 : Memref sig .tc .vmem S1x1024 .f32).view.loc (c : Thread nD τ) ↦[(rowM0 : Memref sig .tc .vmem S1x1024 .f32).view.set]{qB} scr0 m c)
        ∗ ((rowM2 : Memref sig .tc .vmem S1x1024 .f32).view.loc (Dev.tc (fwd 2 c) : Thread nD τ) ↦[(rowM2 : Memref sig .tc .vmem S1x1024 .f32).view.set]{fullShare} fd)
        ∗ owes (c : Thread nD τ) (O₃ c) W
        ∗ dutyTok ER (cellAt c 2) 0 0 ∗ reached ER (cellAt c 2) 0
        ∗ dutyTok ER (cellAt (fwd 2 c) 5) 0 0 ∗ reached ER (cellAt (fwd 2 c) 5) 0)
      ⊢ iprop(((cred (tallyAt (cellAt c 2) () N) ∗ owes (c : Thread nD τ) (O₂ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rowM0 (.remote (Dev.tc (fwd 2 c) : Thread nD τ) rowM2 (.dma sd1) hsc) (.dma rv2) hsrc hdst hsem) k) Q) :=
  Rounds.wp_send_pointsTo 𝒱₀ ER (sched m) (c : Thread nD τ) none (c' := (Dev.tc (fwd 2 c) : Thread nD τ)) (src := rowM0) (dst := rowM2) (hsc := hsc)
    (sS := .dma sd1) (sem := .dma rv2) (hsrc := hsrc) (hdst := hdst) (hsem := hsem) (k := k) (q := qB) (fs := scr0 m c) (fd := fd) (Q := Q)
    (κ₁ := K (c, 2)) (κ₂ := K (fwd 2 c, 5)) (r₁ := 0) (r₂ := 0) (d₁ := 0) (d₂ := 0)
    (by rw [duties_xfer m c 2 (by decide)]; exact Finset.mem_singleton_self _)
    (by rw [duties_xfer m (fwd 2 c) 5 (by decide)]; exact Finset.mem_singleton_self _)
    () () N amtB (amount_xfer m c 2 (by decide) 0) (amount_xfer m (fwd 2 c) 5 (by decide) 0) (O₂ c) (hOB c) (W := W)
    (paySrcB m c) (payDstB m c fd)

theorem amtA : (rowM3 : Memref sig .tc .vmem S1x1024 .f32).view.amount (.dma rv3) = N := rfl
theorem hOA (c : Dev nD) : O₂ c = O₁ c + tallyAt (cellAt (fwd 1 c) 6) () N := rfl
theorem paySrcA (c : Dev nD) :
    ((rowM0 : Memref sig .tc .vmem S1x1024 .f32).view.loc (c : Thread nD τ) ↦[(rowM0 : Memref sig .tc .vmem S1x1024 .f32).view.set]{qA} scr0 m c : sProp 𝕄)
      ⊢ (sched m).payload (cellAt c 1) 0 0 := Entails.of_eq (pay_sendA m c).symm
theorem payDstA (c : Dev nD) (fd : Buf (Elt F) ((rowM3 : Memref sig .tc .vmem S1x1024 .f32).view.loc (Dev.tc (fwd 1 c) : Thread nD τ))) :
    ((rowM3 : Memref sig .tc .vmem S1x1024 .f32).view.loc (Dev.tc (fwd 1 c) : Thread nD τ) ↦[(rowM3 : Memref sig .tc .vmem S1x1024 .f32).view.set]{fullShare}
        ((rowM3 : Memref sig .tc .vmem S1x1024 .f32).view.write (Elt F) fd ((rowM0 : Memref sig .tc .vmem S1x1024 .f32).view.read (Elt F) (scr0 m c)) Finset.univ) : sProp 𝕄)
      ⊢ (sched m).payload (cellAt (fwd 1 c) 6) 0 0 := by
  refine BIBase.Entails.trans ?_ (Entails.of_eq (pay_recv3 m c).symm)
  unfold landed3 scrOn
  iintro H; iexists _
  isplitr; · ipureintro; rw [land3 c (fwd 1 c) fd (scr0 m c), read_scr0]
  iexact H

/-- The copy of row 0 to the device 1 place on, into its row 3: the rule for an addressed copy at this program's cells. -/
theorem wp_sendA (c : Dev nD)
    {hsc : (rowM3 : Memref sig (Dev.tc (fwd 1 c) : Thread nD τ).2.kind .vmem S1x1024 .f32).view.ref.isScScratch = false}
    {hsrc : (rowM0 : Memref sig .tc .vmem S1x1024 .f32).view.WordExact} {hdst : (rowM3 : Memref sig .tc .vmem S1x1024 .f32).view.WordExact}
    {hsem : DmaTarget.Typed .vmem (.dma rv3) (.remote (Dev.tc (fwd 1 c) : Thread nD τ) (rowM3 : Memref sig .tc .vmem S1x1024 .f32) (.dma sd0) hsc)}
    {α : Type} {Q : α → sProp 𝕄} {k : PUnit → Prog (TpuEff nD τ sig (Elt F) Λ₀ .tc) α}
    (fd : Buf (Elt F) ((rowM3 : Memref sig .tc .vmem S1x1024 .f32).view.loc (Dev.tc (fwd 1 c) : Thread nD τ))) (W : Waits sig Unit) :
    iprop(cellInv ER (sched m) (K (c, 1)) (cellAt c 1) ∗ cellInv ER (sched m) (K (fwd 1 c, 6)) (cellAt (fwd 1 c) 6)
        ∗ ((rowM0 : Memref sig .tc .vmem S1x1024 .f32).view.loc (c : Thread nD τ) ↦[(rowM0 : Memref sig .tc .vmem S1x1024 .f32).view.set]{qA} scr0 m c)
        ∗ ((rowM3 : Memref sig .tc .vmem S1x1024 .f32).view.loc (Dev.tc (fwd 1 c) : Thread nD τ) ↦[(rowM3 : Memref sig .tc .vmem S1x1024 .f32).view.set]{fullShare} fd)
        ∗ owes (c : Thread nD τ) (O₂ c) W
        ∗ dutyTok ER (cellAt c 1) 0 0 ∗ reached ER (cellAt c 1) 0
        ∗ dutyTok ER (cellAt (fwd 1 c) 6) 0 0 ∗ reached ER (cellAt (fwd 1 c) 6) 0)
      ⊢ iprop(((cred (tallyAt (cellAt c 1) () N) ∗ owes (c : Thread nD τ) (O₁ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rowM0 (.remote (Dev.tc (fwd 1 c) : Thread nD τ) rowM3 (.dma sd0) hsc) (.dma rv3) hsrc hdst hsem) k) Q) :=
  Rounds.wp_send_pointsTo 𝒱₀ ER (sched m) (c : Thread nD τ) none (c' := (Dev.tc (fwd 1 c) : Thread nD τ)) (src := rowM0) (dst := rowM3) (hsc := hsc)
    (sS := .dma sd0) (sem := .dma rv3) (hsrc := hsrc) (hdst := hdst) (hsem := hsem) (k := k) (q := qA) (fs := scr0 m c) (fd := fd) (Q := Q)
    (κ₁ := K (c, 1)) (κ₂ := K (fwd 1 c, 6)) (r₁ := 0) (r₂ := 0) (d₁ := 0) (d₂ := 0)
    (by rw [duties_xfer m c 1 (by decide)]; exact Finset.mem_singleton_self _)
    (by rw [duties_xfer m (fwd 1 c) 6 (by decide)]; exact Finset.mem_singleton_self _)
    () () N amtA (amount_xfer m c 1 (by decide) 0) (amount_xfer m (fwd 1 c) 6 (by decide) 0) (O₁ c) (hOA c) (W := W)
    (paySrcA m c) (payDstA m c fd)

theorem amtC : (rowM1 : Memref sig .tc .vmem S1x1024 .f32).view.amount (.dma rv1) = N := rfl
theorem hOC (c : Dev nD) : O₁ c = 0 + tallyAt (cellAt (fwd 3 c) 4) () N := by unfold O₁; rw [zero_add]
theorem paySrcC (c : Dev nD) :
    ((rowM0 : Memref sig .tc .vmem S1x1024 .f32).view.loc (c : Thread nD τ) ↦[(rowM0 : Memref sig .tc .vmem S1x1024 .f32).view.set]{qC} scr0 m c : sProp 𝕄)
      ⊢ (sched m).payload (cellAt c 3) 0 0 := Entails.of_eq (pay_sendC m c).symm
theorem payDstC (c : Dev nD) (fd : Buf (Elt F) ((rowM1 : Memref sig .tc .vmem S1x1024 .f32).view.loc (Dev.tc (fwd 3 c) : Thread nD τ))) :
    ((rowM1 : Memref sig .tc .vmem S1x1024 .f32).view.loc (Dev.tc (fwd 3 c) : Thread nD τ) ↦[(rowM1 : Memref sig .tc .vmem S1x1024 .f32).view.set]{fullShare}
        ((rowM1 : Memref sig .tc .vmem S1x1024 .f32).view.write (Elt F) fd ((rowM0 : Memref sig .tc .vmem S1x1024 .f32).view.read (Elt F) (scr0 m c)) Finset.univ) : sProp 𝕄)
      ⊢ (sched m).payload (cellAt (fwd 3 c) 4) 0 0 := by
  refine BIBase.Entails.trans ?_ (Entails.of_eq (pay_recv1 m c).symm)
  unfold landed1 scrOn
  iintro H; iexists _
  isplitr; · ipureintro; rw [land1 c (fwd 3 c) fd (scr0 m c), read_scr0]
  iexact H

/-- The copy of row 0 to the device 3 places on, into its row 1: the rule for an addressed copy at this program's cells. -/
theorem wp_sendC (c : Dev nD)
    {hsc : (rowM1 : Memref sig (Dev.tc (fwd 3 c) : Thread nD τ).2.kind .vmem S1x1024 .f32).view.ref.isScScratch = false}
    {hsrc : (rowM0 : Memref sig .tc .vmem S1x1024 .f32).view.WordExact} {hdst : (rowM1 : Memref sig .tc .vmem S1x1024 .f32).view.WordExact}
    {hsem : DmaTarget.Typed .vmem (.dma rv1) (.remote (Dev.tc (fwd 3 c) : Thread nD τ) (rowM1 : Memref sig .tc .vmem S1x1024 .f32) (.dma sd2) hsc)}
    {α : Type} {Q : α → sProp 𝕄} {k : PUnit → Prog (TpuEff nD τ sig (Elt F) Λ₀ .tc) α}
    (fd : Buf (Elt F) ((rowM1 : Memref sig .tc .vmem S1x1024 .f32).view.loc (Dev.tc (fwd 3 c) : Thread nD τ))) (W : Waits sig Unit) :
    iprop(cellInv ER (sched m) (K (c, 3)) (cellAt c 3) ∗ cellInv ER (sched m) (K (fwd 3 c, 4)) (cellAt (fwd 3 c) 4)
        ∗ ((rowM0 : Memref sig .tc .vmem S1x1024 .f32).view.loc (c : Thread nD τ) ↦[(rowM0 : Memref sig .tc .vmem S1x1024 .f32).view.set]{qC} scr0 m c)
        ∗ ((rowM1 : Memref sig .tc .vmem S1x1024 .f32).view.loc (Dev.tc (fwd 3 c) : Thread nD τ) ↦[(rowM1 : Memref sig .tc .vmem S1x1024 .f32).view.set]{fullShare} fd)
        ∗ owes (c : Thread nD τ) (O₁ c) W
        ∗ dutyTok ER (cellAt c 3) 0 0 ∗ reached ER (cellAt c 3) 0
        ∗ dutyTok ER (cellAt (fwd 3 c) 4) 0 0 ∗ reached ER (cellAt (fwd 3 c) 4) 0)
      ⊢ iprop(((cred (tallyAt (cellAt c 3) () N) ∗ owes (c : Thread nD τ) (0) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rowM0 (.remote (Dev.tc (fwd 3 c) : Thread nD τ) rowM1 (.dma sd2) hsc) (.dma rv1) hsrc hdst hsem) k) Q) :=
  Rounds.wp_send_pointsTo 𝒱₀ ER (sched m) (c : Thread nD τ) none (c' := (Dev.tc (fwd 3 c) : Thread nD τ)) (src := rowM0) (dst := rowM1) (hsc := hsc)
    (sS := .dma sd2) (sem := .dma rv1) (hsrc := hsrc) (hdst := hdst) (hsem := hsem) (k := k) (q := qC) (fs := scr0 m c) (fd := fd) (Q := Q)
    (κ₁ := K (c, 3)) (κ₂ := K (fwd 3 c, 4)) (r₁ := 0) (r₂ := 0) (d₁ := 0) (d₂ := 0)
    (by rw [duties_xfer m c 3 (by decide)]; exact Finset.mem_singleton_self _)
    (by rw [duties_xfer m (fwd 3 c) 4 (by decide)]; exact Finset.mem_singleton_self _)
    () () N amtC (amount_xfer m c 3 (by decide) 0) (amount_xfer m (fwd 3 c) 4 (by decide) 0) (0) (hOC c) (W := W)
    (paySrcC m c) (payDstC m c fd)

/-- The same, the addressed device given by the printed chain that computes it. -/
theorem wp_sendB_at (c n : Dev nD) (hn : n = fwd 2 c)
    {hsc : (rowM2 : Memref sig (Dev.tc n : Thread nD τ).2.kind .vmem S1x1024 .f32).view.ref.isScScratch = false}
    {hsrc : (rowM0 : Memref sig .tc .vmem S1x1024 .f32).view.WordExact} {hdst : (rowM2 : Memref sig .tc .vmem S1x1024 .f32).view.WordExact}
    {hsem : DmaTarget.Typed .vmem (.dma rv2) (.remote (Dev.tc n : Thread nD τ) (rowM2 : Memref sig .tc .vmem S1x1024 .f32) (.dma sd1) hsc)}
    {α : Type} {Q : α → sProp 𝕄} {k : PUnit → Prog (TpuEff nD τ sig (Elt F) Λ₀ .tc) α}
    (fd : Buf (Elt F) ((rowM2 : Memref sig .tc .vmem S1x1024 .f32).view.loc (Dev.tc (fwd 2 c) : Thread nD τ))) (W : Waits sig Unit) :
    iprop(cellInv ER (sched m) (K (c, 2)) (cellAt c 2) ∗ cellInv ER (sched m) (K (fwd 2 c, 5)) (cellAt (fwd 2 c) 5)
        ∗ ((rowM0 : Memref sig .tc .vmem S1x1024 .f32).view.loc (c : Thread nD τ) ↦[(rowM0 : Memref sig .tc .vmem S1x1024 .f32).view.set]{qB} scr0 m c)
        ∗ ((rowM2 : Memref sig .tc .vmem S1x1024 .f32).view.loc (Dev.tc (fwd 2 c) : Thread nD τ) ↦[(rowM2 : Memref sig .tc .vmem S1x1024 .f32).view.set]{fullShare} fd)
        ∗ owes (c : Thread nD τ) (O₃ c) W
        ∗ dutyTok ER (cellAt c 2) 0 0 ∗ reached ER (cellAt c 2) 0
        ∗ dutyTok ER (cellAt (fwd 2 c) 5) 0 0 ∗ reached ER (cellAt (fwd 2 c) 5) 0)
      ⊢ iprop(((cred (tallyAt (cellAt c 2) () N) ∗ owes (c : Thread nD τ) (O₂ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rowM0 (.remote (Dev.tc n : Thread nD τ) rowM2 (.dma sd1) hsc) (.dma rv2) hsrc hdst hsem) k) Q) := by
  subst hn
  exact wp_sendB m K c fd W

/-- The same, the addressed device given by the printed chain that computes it. -/
theorem wp_sendA_at (c n : Dev nD) (hn : n = fwd 1 c)
    {hsc : (rowM3 : Memref sig (Dev.tc n : Thread nD τ).2.kind .vmem S1x1024 .f32).view.ref.isScScratch = false}
    {hsrc : (rowM0 : Memref sig .tc .vmem S1x1024 .f32).view.WordExact} {hdst : (rowM3 : Memref sig .tc .vmem S1x1024 .f32).view.WordExact}
    {hsem : DmaTarget.Typed .vmem (.dma rv3) (.remote (Dev.tc n : Thread nD τ) (rowM3 : Memref sig .tc .vmem S1x1024 .f32) (.dma sd0) hsc)}
    {α : Type} {Q : α → sProp 𝕄} {k : PUnit → Prog (TpuEff nD τ sig (Elt F) Λ₀ .tc) α}
    (fd : Buf (Elt F) ((rowM3 : Memref sig .tc .vmem S1x1024 .f32).view.loc (Dev.tc (fwd 1 c) : Thread nD τ))) (W : Waits sig Unit) :
    iprop(cellInv ER (sched m) (K (c, 1)) (cellAt c 1) ∗ cellInv ER (sched m) (K (fwd 1 c, 6)) (cellAt (fwd 1 c) 6)
        ∗ ((rowM0 : Memref sig .tc .vmem S1x1024 .f32).view.loc (c : Thread nD τ) ↦[(rowM0 : Memref sig .tc .vmem S1x1024 .f32).view.set]{qA} scr0 m c)
        ∗ ((rowM3 : Memref sig .tc .vmem S1x1024 .f32).view.loc (Dev.tc (fwd 1 c) : Thread nD τ) ↦[(rowM3 : Memref sig .tc .vmem S1x1024 .f32).view.set]{fullShare} fd)
        ∗ owes (c : Thread nD τ) (O₂ c) W
        ∗ dutyTok ER (cellAt c 1) 0 0 ∗ reached ER (cellAt c 1) 0
        ∗ dutyTok ER (cellAt (fwd 1 c) 6) 0 0 ∗ reached ER (cellAt (fwd 1 c) 6) 0)
      ⊢ iprop(((cred (tallyAt (cellAt c 1) () N) ∗ owes (c : Thread nD τ) (O₁ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rowM0 (.remote (Dev.tc n : Thread nD τ) rowM3 (.dma sd0) hsc) (.dma rv3) hsrc hdst hsem) k) Q) := by
  subst hn
  exact wp_sendA m K c fd W

/-- The same, the addressed device given by the printed chain that computes it. -/
theorem wp_sendC_at (c n : Dev nD) (hn : n = fwd 3 c)
    {hsc : (rowM1 : Memref sig (Dev.tc n : Thread nD τ).2.kind .vmem S1x1024 .f32).view.ref.isScScratch = false}
    {hsrc : (rowM0 : Memref sig .tc .vmem S1x1024 .f32).view.WordExact} {hdst : (rowM1 : Memref sig .tc .vmem S1x1024 .f32).view.WordExact}
    {hsem : DmaTarget.Typed .vmem (.dma rv1) (.remote (Dev.tc n : Thread nD τ) (rowM1 : Memref sig .tc .vmem S1x1024 .f32) (.dma sd2) hsc)}
    {α : Type} {Q : α → sProp 𝕄} {k : PUnit → Prog (TpuEff nD τ sig (Elt F) Λ₀ .tc) α}
    (fd : Buf (Elt F) ((rowM1 : Memref sig .tc .vmem S1x1024 .f32).view.loc (Dev.tc (fwd 3 c) : Thread nD τ))) (W : Waits sig Unit) :
    iprop(cellInv ER (sched m) (K (c, 3)) (cellAt c 3) ∗ cellInv ER (sched m) (K (fwd 3 c, 4)) (cellAt (fwd 3 c) 4)
        ∗ ((rowM0 : Memref sig .tc .vmem S1x1024 .f32).view.loc (c : Thread nD τ) ↦[(rowM0 : Memref sig .tc .vmem S1x1024 .f32).view.set]{qC} scr0 m c)
        ∗ ((rowM1 : Memref sig .tc .vmem S1x1024 .f32).view.loc (Dev.tc (fwd 3 c) : Thread nD τ) ↦[(rowM1 : Memref sig .tc .vmem S1x1024 .f32).view.set]{fullShare} fd)
        ∗ owes (c : Thread nD τ) (O₁ c) W
        ∗ dutyTok ER (cellAt c 3) 0 0 ∗ reached ER (cellAt c 3) 0
        ∗ dutyTok ER (cellAt (fwd 3 c) 4) 0 0 ∗ reached ER (cellAt (fwd 3 c) 4) 0)
      ⊢ iprop(((cred (tallyAt (cellAt c 3) () N) ∗ owes (c : Thread nD τ) (0) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rowM0 (.remote (Dev.tc n : Thread nD τ) rowM1 (.dma sd2) hsc) (.dma rv1) hsrc hdst hsem) k) Q) := by
  subst hn
  exact wp_sendC m K c fd W

/-! ## The barrier payloads spelt through the rows' views, as the stepping of the signals reads them -/

theorem payV_bar1 (c : Dev nD) : (sched (F := F) m).payload (cellAt (fwd 1 c) 0) 0 2
    = iprop((∃ f, ((rowM1 : Memref sig .tc .vmem S1x1024 .f32).view.loc (c : Thread nD τ) ↦[(rowM1 : Memref sig .tc .vmem S1x1024 .f32).view.set]{fullShare} f : sProp 𝕄)) ∗ reached ER (cellAt c 4) 0) := pay_bar1 m c
theorem payV_bar2 (c : Dev nD) : (sched (F := F) m).payload (cellAt (fwd 2 c) 0) 0 1
    = iprop((∃ f, ((rowM2 : Memref sig .tc .vmem S1x1024 .f32).view.loc (c : Thread nD τ) ↦[(rowM2 : Memref sig .tc .vmem S1x1024 .f32).view.set]{fullShare} f : sProp 𝕄)) ∗ reached ER (cellAt c 5) 0) := pay_bar2 m c
theorem payV_bar3 (c : Dev nD) : (sched (F := F) m).payload (cellAt (fwd 3 c) 0) 0 0
    = iprop((∃ f, ((rowM3 : Memref sig .tc .vmem S1x1024 .f32).view.loc (c : Thread nD τ) ↦[(rowM3 : Memref sig .tc .vmem S1x1024 .f32).view.set]{fullShare} f : sProp 𝕄)) ∗ reached ER (cellAt c 6) 0) := pay_bar3 m c

/-- The barrier cell's whole round as the three peers' payloads. -/
theorem bar_round (c : Dev nD) : bigSep (Finset.univ : Finset (Fin 3)) (fun d => (sched (F := F) m).payload (cellAt c 0) 0 d)
    = iprop(barPay c 0 ∗ barPay c 1 ∗ barPay c 2) := by
  rw [← rest_bar m c, Finset.sdiff_empty, duties_bar]

attribute [local sl_rounds] duties_bar duties_xfer amount_bar amount_xfer expect_bar expect_xfer payV_bar1 payV_bar2 payV_bar3
attribute [local sl_canon] dev1_eq dev2_eq dev3_eq dev4_eq dev5_eq dev6_eq

/-! ## The payloads of the device's own receive and send cells spelt through the rows' views -/

theorem payV_recv1 (c : Dev nD) : (sched (F := F) m).payload (cellAt c 4) 0 0
    = iprop(∃ f, ⌜(aM : Memref sig .tc .vmem S4x1x1024 .f32).view.readAt (Elt F) row1.toLoadRect f = acc m (fwd 1 c)⌝ ∗ ((rowM1 : Memref sig .tc .vmem S1x1024 .f32).view.loc (c : Thread nD τ) ↦[(rowM1 : Memref sig .tc .vmem S1x1024 .f32).view.set]{fullShare} f : sProp 𝕄)) := by
  rw [payload_at]; rfl
theorem payV_recv2 (c : Dev nD) : (sched (F := F) m).payload (cellAt c 5) 0 0
    = iprop(∃ f, ⌜(aM : Memref sig .tc .vmem S4x1x1024 .f32).view.readAt (Elt F) row2.toLoadRect f = acc m (fwd 2 c)⌝ ∗ ((rowM2 : Memref sig .tc .vmem S1x1024 .f32).view.loc (c : Thread nD τ) ↦[(rowM2 : Memref sig .tc .vmem S1x1024 .f32).view.set]{fullShare} f : sProp 𝕄)) := by
  rw [payload_at]; rfl
theorem payV_recv3 (c : Dev nD) : (sched (F := F) m).payload (cellAt c 6) 0 0
    = iprop(∃ f, ⌜(aM : Memref sig .tc .vmem S4x1x1024 .f32).view.readAt (Elt F) row3.toLoadRect f = acc m (fwd 3 c)⌝ ∗ ((rowM3 : Memref sig .tc .vmem S1x1024 .f32).view.loc (c : Thread nD τ) ↦[(rowM3 : Memref sig .tc .vmem S1x1024 .f32).view.set]{fullShare} f : sProp 𝕄)) := by
  rw [payload_at]; rfl
theorem payV_sendA (c : Dev nD) : (sched (F := F) m).payload (cellAt c 1) 0 0
    = ((rowM0 : Memref sig .tc .vmem S1x1024 .f32).view.loc (c : Thread nD τ) ↦[(rowM0 : Memref sig .tc .vmem S1x1024 .f32).view.set]{qA} scr0 m c : sProp 𝕄) := pay_sendA m c
theorem payV_sendB (c : Dev nD) : (sched (F := F) m).payload (cellAt c 2) 0 0
    = ((rowM0 : Memref sig .tc .vmem S1x1024 .f32).view.loc (c : Thread nD τ) ↦[(rowM0 : Memref sig .tc .vmem S1x1024 .f32).view.set]{qB} scr0 m c : sProp 𝕄) := pay_sendB m c
theorem payV_sendC (c : Dev nD) : (sched (F := F) m).payload (cellAt c 3) 0 0
    = ((rowM0 : Memref sig .tc .vmem S1x1024 .f32).view.loc (c : Thread nD τ) ↦[(rowM0 : Memref sig .tc .vmem S1x1024 .f32).view.set]{qC} scr0 m c : sProp 𝕄) := pay_sendC m c

attribute [local sl_rounds] payV_recv1 payV_recv2 payV_recv3 payV_sendA payV_sendB payV_sendC

set_option maxHeartbeats 1600000 in
set_option maxRecDepth 65536 in
theorem sound_body (c : Dev nD) (Kt : PUnit → sProp 𝕄) :
    iprop(bodyPreK m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPreK ghost invs poss rchs toks
  iintro ⟨⟨⟨⟨⟨#I0, #I1, #I2, #I3, #I4, #I5, #I6, #IB1, #IB2, #IB3, #IR1, #IR2, #IR3⟩, ⟨P0, P1, P2, P3, P4, P5, P6⟩,
      ⟨#r1, #r2, #r3, #r4, #r5, #r6, #rB1, #rB2, #rB3, #rR1, #rR2, #rR3⟩, tB1, tB2, tB3, tR1, tR2, tR3, tS1, tS2, tS3⟩,
      HcB, Hc4, Hc5, Hc6, #Hlev, Hidle, ⟨%f0, Hscr⟩⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  simp only [dev1_eq c, dev2_eq c, dev3_eq c, dev4_eq c, dev5_eq c, dev6_eq c]
  -- the scratch array cut into its rows
  ihave H1 := (pointsTo_split_subset (I := R1) (Finset.subset_univ _)).1 $$ Hscr
  icases H1 with ⟨Hr1, Hrest⟩
  ihave H2 := (pointsTo_split_subset (I := R2) R2_sub).1 $$ Hrest
  icases H2 with ⟨Hr2, Hrest⟩
  ihave H3 := (pointsTo_split_subset (I := R3) R3_sub).1 $$ Hrest
  icases H3 with ⟨Hr3, Hr0⟩
  rw [R_rest]
  -- the buffers restated through their memrefs' views
  ihave Hr1 := (Entails.of_eq (show ((((c : Thread nD τ).loc cc0_scratch0) ↦[R1]{fullShare} f0 : sProp 𝕄)) = ((rowM1 : Memref sig .tc .vmem S1x1024 .f32).view.loc (c : Thread nD τ) ↦[(rowM1 : Memref sig .tc .vmem S1x1024 .f32).view.set]{fullShare} f0) from rfl)) $$ Hr1
  ihave Hr2 := (Entails.of_eq (show ((((c : Thread nD τ).loc cc0_scratch0) ↦[R2]{fullShare} f0 : sProp 𝕄)) = ((rowM2 : Memref sig .tc .vmem S1x1024 .f32).view.loc (c : Thread nD τ) ↦[(rowM2 : Memref sig .tc .vmem S1x1024 .f32).view.set]{fullShare} f0) from rfl)) $$ Hr2
  ihave Hr3 := (Entails.of_eq (show ((((c : Thread nD τ).loc cc0_scratch0) ↦[R3]{fullShare} f0 : sProp 𝕄)) = ((rowM3 : Memref sig .tc .vmem S1x1024 .f32).view.loc (c : Thread nD τ) ↦[(rowM3 : Memref sig .tc .vmem S1x1024 .f32).view.set]{fullShare} f0) from rfl)) $$ Hr3
  ihave Hr0 := (Entails.of_eq (show ((((c : Thread nD τ).loc cc0_scratch0) ↦[R0]{fullShare} f0 : sProp 𝕄)) = ((rowM0 : Memref sig .tc .vmem S1x1024 .f32).view.loc (c : Thread nD τ) ↦[(rowM0 : Memref sig .tc .vmem S1x1024 .f32).view.set]{fullShare} f0) from rfl)) $$ Hr0
  ihave Hx := (Entails.of_eq (show ((((c : Thread nD τ).loc cc0_stg0_0) ↦{fullShare} xstg m c : sProp 𝕄)) = ((xM : Memref sig .tc .vmem S4096x1024 .f32).view.loc (c : Thread nD τ) ↦{fullShare} xstg m c) from rfl)) $$ Hx
  ihave Hout := (Entails.of_eq (show ((((c : Thread nD τ).loc cc0_stg1_0) ↦{fullShare} g1 : sProp 𝕄)) = ((oM : Memref sig .tc .vmem S1x1024 .f32).view.loc (c : Thread nD τ) ↦{fullShare} g1) from rfl)) $$ Hout
  unfold O₀
  have hMW := mayWait_bar (F := F) c
  -- the three words to the peers (rows 1, 2, 3 go with them), the block of rows read and its column sums stored in row 0,
  -- and the wait for the three peers' words
  sl_exec
  -- row 0 holds the stored sums whatever it held before
  have hw0 : ∀ i ∈ R0, sound_body.sl.Hr0_w1 m c f0 i = scr0 m c i := by
    intro i hi
    have hn : sound_body.sl.Hr0_w1 m c f0 = ((aM : Memref sig .tc .vmem S4x1x1024 .f32).access row0).write (Elt F) f0 (acc m c) Finset.univ := by
      unfold sound_body.sl.Hr0_w1; rw [read_x]; rfl
    rw [hn]; exact store_scr0 m c f0 i hi
  ihave Hr0 := (Entails.of_eq (pointsTo_congr hw0)) $$ Hr0
  -- row 0 in quarter shares
  ihave HLR := (pointsTo_share (PosShare.mem_left_op_right fullShare)).1 $$ Hr0
  icases HLR with ⟨HL, HR⟩
  ihave HAB := (pointsTo_share (PosShare.mem_left_op_right fullShare.left)).1 $$ HL
  icases HAB with ⟨HqA, HqB⟩
  ihave HCD := (pointsTo_share (PosShare.mem_left_op_right fullShare.right)).1 $$ HR
  icases HCD with ⟨HqC, HqD⟩
  -- with the three words came the landing rows on the peers
  ihave Hp := (Entails.of_eq (bar_round m c)) $$ P0_pay1
  unfold barPay scrOn
  icases Hp with ⟨⟨⟨%fa, Ha⟩, -⟩, ⟨⟨%fb, Hb⟩, -⟩, ⟨%fc, Hc⟩, -⟩
  -- the three copies of row 0: two places on into row 2, one place on into row 3, three places on into row 1
  iapply (wp_sendB_at m K c _ (dev4_eq c) fb (insert (csem 0, ()) W)) $$ [HqB Hb HO tS2 tR2]
  · isplitr; · iexact I2
    isplitr; · iexact IR2
    isplitl [HqB]; · iexact HqB
    isplitl [Hb]; · iexact Hb
    isplitl [HO]; · iexact HO
    isplitl [tS2]; · iexact tS2
    isplitr; · iexact r2
    isplitl [tR2]; · iexact tR2
    iexact rR2
  iintro ⟨HcS2, HO⟩
  iapply (wp_sendA_at m K c _ (dev5_eq c) fa (insert (csem 0, ()) W)) $$ [HqA Ha HO tS1 tR1]
  · isplitr; · iexact I1
    isplitr; · iexact IR1
    isplitl [HqA]; · iexact HqA
    isplitl [Ha]; · iexact Ha
    isplitl [HO]; · iexact HO
    isplitl [tS1]; · iexact tS1
    isplitr; · iexact r1
    isplitl [tR1]; · iexact tR1
    iexact rR1
  iintro ⟨HcS1, HO⟩
  iapply (wp_sendC_at m K c _ (dev6_eq c) fc (insert (csem 0, ()) W)) $$ [HqC Hc HO tS3 tR3]
  · isplitr; · iexact I3
    isplitr; · iexact IR3
    isplitl [HqC]; · iexact HqC
    isplitl [Hc]; · iexact Hc
    isplitl [HO]; · iexact HO
    isplitl [tS3]; · iexact tS3
    isplitr; · iexact r3
    isplitl [tR3]; · iexact tR3
    iexact rR3
  iintro ⟨HcS3, HO⟩
  -- row 1 lands (the partial sums of the device one place on) and rows 0 and 1 are read; row 3 lands and is read; row 2
  -- lands and is read; the four rows are added and scaled and stored as the result row; the three copies out are done and
  -- the quarter shares of row 0 come back
  sl_exec
  icases P4_pay1 with ⟨%hf1, Hl1⟩
  sl_exec
  icases P6_pay1 with ⟨%hf3, Hl3⟩
  sl_exec
  icases P5_pay1 with ⟨%hf2, Hl2⟩
  sl_exec
  irename P1_pay1 => HqA
  irename P2_pay1 => HqB
  irename P3_pay1 => HqC
  have hout : (oM : Memref sig .tc .vmem S1x1024 .f32).view.writes (Elt F) g1 [⟨ro, outAt m c⟩] = outAt m c := by
    rw [View.writes_singleton]; exact write_out g1 (outAt m c)
  -- the six cells of the copies are done with: their counters are at zero again
  imod (Rounds.cell_close ER (sched m) (Set.mem_univ (K (c, 1))) (fun h => h) (R := 0 + 1) (duties_later m (cellAt c 1))) $$ [P1] with Hz1
  · isplitr; · iexact I1
    iexact P1
  imod (Rounds.cell_close ER (sched m) (Set.mem_univ (K (c, 2))) (fun h => h) (R := 0 + 1) (duties_later m (cellAt c 2))) $$ [P2] with Hz2
  · isplitr; · iexact I2
    iexact P2
  imod (Rounds.cell_close ER (sched m) (Set.mem_univ (K (c, 3))) (fun h => h) (R := 0 + 1) (duties_later m (cellAt c 3))) $$ [P3] with Hz3
  · isplitr; · iexact I3
    iexact P3
  imod (Rounds.cell_close ER (sched m) (Set.mem_univ (K (c, 4))) (fun h => h) (R := 0 + 1) (duties_later m (cellAt c 4))) $$ [P4] with Hz4
  · isplitr; · iexact I4
    iexact P4
  imod (Rounds.cell_close ER (sched m) (Set.mem_univ (K (c, 5))) (fun h => h) (R := 0 + 1) (duties_later m (cellAt c 5))) $$ [P5] with Hz5
  · isplitr; · iexact I5
    iexact P5
  imod (Rounds.cell_close ER (sched m) (Set.mem_univ (K (c, 6))) (fun h => h) (R := 0 + 1) (duties_later m (cellAt c 6))) $$ [P6] with Hz6
  · isplitr; · iexact I6
    iexact P6
  -- row 0 whole again, then the four rows the whole array again
  ihave HL := (pointsTo_share (ℓ := (c : Thread nD τ).loc cc0_scratch0) (I := R0) (f := scr0 m c) (PosShare.mem_left_op_right fullShare.left)).2 $$ [HqA HqB]
  · isplitl [HqA]; · iexact HqA
    iexact HqB
  ihave HR := (pointsTo_share (ℓ := (c : Thread nD τ).loc cc0_scratch0) (I := R0) (f := scr0 m c) (PosShare.mem_left_op_right fullShare.right)).2 $$ [HqC HqD]
  · isplitl [HqC]; · iexact HqC
    iexact HqD
  ihave Hr0 := (pointsTo_share (ℓ := (c : Thread nD τ).loc cc0_scratch0) (I := R0) (f := scr0 m c) (PosShare.mem_left_op_right fullShare)).2 $$ [HL HR]
  · isplitl [HL]; · iexact HL
    iexact HR
  ihave Hr0 := (Entails.of_eq (congrArg (fun S => ((((c : Thread nD τ).loc cc0_scratch0) ↦[S]{fullShare} scr0 m c : sProp 𝕄))) (R_rest).symm)) $$ Hr0
  ihave H3 := (pointsTo_join_subset (ℓ := (c : Thread nD τ).loc cc0_scratch0) (q := fullShare) (g := P6_pay1_v) (f := scr0 m c) R3_sub) $$ [Hl3 Hr0]
  · isplitl [Hl3]; · iexact Hl3
    iexact Hr0
  ihave H2 := (pointsTo_join_subset (ℓ := (c : Thread nD τ).loc cc0_scratch0) (q := fullShare) (g := P5_pay1_v) (f := (R3).piecewise P6_pay1_v (scr0 m c)) R2_sub) $$ [Hl2 H3]
  · isplitl [Hl2]; · iexact Hl2
    iexact H3
  ihave H1 := (pointsTo_join_subset (ℓ := (c : Thread nD τ).loc cc0_scratch0) (q := fullShare) (g := P4_pay1_v) (f := (R2).piecewise P5_pay1_v ((R3).piecewise P6_pay1_v (scr0 m c))) (Finset.subset_univ (R1))) $$ [Hl1 H2]
  · isplitl [Hl1]; · iexact Hl1
    iexact H2
  rw [wp_ret]; imodintro
  iapply Hk
  unfold bodyPost Φ₁ Dat.owesAt Pipeline.owesWithin
  rw [show (dats m 0 c).owed t₀.succ = 0 from rfl]
  isplitl [H1 Hz1 Hz2 Hz3 Hidle Hz4 Hz5 Hz6]
  · isplitl [H1]; · iexists _; iexact H1
    isplitl [Hz1]; · iexact Hz1
    isplitl [Hz2]; · iexact Hz2
    isplitl [Hz3]; · iexact Hz3
    isplitl [Hidle]; · iexact Hidle
    isplitl [Hz4]; · iexact Hz4
    isplitl [Hz5]; · iexact Hz5
    iexact Hz6
  isplitl [HO]
  · iexists (insert (csem 3, ()) (insert (csem 1, ()) (insert (csem 2, ()) (insert (csem 5, ()) (insert (csem 6, ()) (insert (csem 4, ()) (insert (csem 0, ()) W)))))))
    isplitr; · ipureintro; exact fun _ _ => Or.inl trivial
    iexact HO
  isplitl [Hx]
  · iexists _; isplitr; · (ipureintro; rfl)
    iexact Hx
  iexists _; isplitr; · (ipureintro; exact hout)
  iexact Hout

/-! ## The body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 8000 in
/-- Device `c`'s body takes what the pipeline enters it with to what the pipeline expects after it. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre Φ₀ start
  iintro ⟨⟨⟨⟨%K, Hg⟩, Hrest⟩, Hscr⟩, Ho, Hx, Hout⟩
  iapply (sound_body m K c fun _ => bodyPost m c)
  unfold bodyPreK
  isplitr []
  · isplitl [Hg Hrest Hscr]
    · isplitl [Hg]; · iexact Hg
      icases Hrest with ⟨H1, H2, H3, H4, H5, H6⟩
      isplitl [H1]; · iexact H1
      isplitl [H2]; · iexact H2
      isplitl [H3]; · iexact H3
      isplitl [H4]; · iexact H4
      isplitl [H5]; · iexact H5
      isplitl [H6]; · iexact H6
      iexact Hscr
    isplitl [Ho]; · iexact Ho
    isplitl [Hx] <;> iassumption
  · iintro H; iexact H

/-- info: 'Cert.KernelIdeal.Coll.body_obligation' depends on axioms: [propext, Classical.choice, Quot.sound] -/
#guard_msgs in #print axioms body_obligation

end Cert.KernelIdeal.Coll

end
-- ==== Proof.Launch.lean ====
/-
  The launch: the cells' ghost state is made for all devices at once, every device is dealt the tokens of the duties it
  pays and the credit its peers owe it, and from each device's body the whole mesh's run follows: it ends, the blocks of
  rows unchanged, every device's result array holding its result row.
-/
import proofs.«900951_g7700000000000952_dist_mean_ax0_shard0_i_m4096_n1024_v7x_i4_bf16_1_alg».proof.Proof.Common
import proofs.«900951_g7700000000000952_dist_mean_ax0_shard0_i_m4096_n1024_v7x_i4_bf16_1_alg».proof.Proof.Sched

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The layout facts -/

theorem ownSemFacts : Pipeline.OwnSemFacts cfg0.spec osem := by decide

theorem share_eq (c : Dev nD) (w : Fin cfg0.W) : (dats (F := F) m 0 c).share w = fullShare := by unfold Dat.share; split <;> rfl

theorem csem_injective : Function.Injective csem := by
  intro k k' h
  fin_cases k <;> fin_cases k' <;> first | rfl | exact absurd h (by decide)

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The cells of the protocol: seven a device. -/
def ringCells : Finset (GSem nD τ sig) := Finset.univ.map ⟨kcell, kcell_injective⟩

/-- The nine duties of a device's own cells: the barrier cell's three, then the one of each send and receive cell. -/
abbrev tokK : Fin 9 → Fin 7 × Fin 3 := fun
  | 0 => (0, 0) | 1 => (0, 1) | 2 => (0, 2) | 3 => (1, 0) | 4 => (2, 0) | 5 => (3, 0) | 6 => (4, 0) | 7 => (5, 0) | 8 => (6, 0)
theorem tokK_injective : Function.Injective tokK := by decide
abbrev tokOf (cj : Dev nD × Fin 9) : GSem nD τ sig × ℕ × Fin 3 := (kcell (cj.1, (tokK cj.2).1), 0, (tokK cj.2).2)
theorem tokOf_injective : Function.Injective (tokOf : Dev nD × Fin 9 → GSem nD τ sig × ℕ × Fin 3) := by
  rintro ⟨c, j⟩ ⟨c', j'⟩ h
  have h1 := kcell_injective (congrArg (fun x : GSem nD τ sig × ℕ × Fin 3 => x.1) h)
  have h2 : (tokK j).2 = (tokK j').2 := congrArg (fun x : GSem nD τ sig × ℕ × Fin 3 => x.2.2) h
  have h3 : c = c' := congrArg Prod.fst h1
  have h4 : (tokK j).1 = (tokK j').1 := congrArg Prod.snd h1
  have h5 : j = j' := tokK_injective (Prod.ext h4 h2)
  rw [h3, h5]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device c's own cells, as made. -/
def minted (c : Dev nD) : sProp 𝕄 :=
  iprop(dutyTok ER (cellAt c 0) 0 0 ∗ dutyTok ER (cellAt c 0) 0 1 ∗ dutyTok ER (cellAt c 0) 0 2
    ∗ dutyTok ER (cellAt c 1) 0 0 ∗ dutyTok ER (cellAt c 2) 0 0 ∗ dutyTok ER (cellAt c 3) 0 0
    ∗ dutyTok ER (cellAt c 4) 0 0 ∗ dutyTok ER (cellAt c 5) 0 0 ∗ dutyTok ER (cellAt c 6) 0 0)

/-- What the launch element deals device c. -/
def G (c : Dev nD) : sProp 𝕄 :=
  iprop((bigSep Finset.univ fun k : Fin 7 => roundState ER (sched m) (kcell (c, k)) 0)
    ∗ (bigSep Finset.univ fun k : Fin 7 => iprop(atPos ER (kcell (c, k)) 0 ∅ 0 ∗ reached ER (kcell (c, k)) 0)) ∗ minted c)

/-- What the global step makes of it. -/
def G' (c : Dev nD) : sProp 𝕄 := iprop((∃ K, ghost m K c) ∗ semVal (idleCell c) 0)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => minted c := by
    unfold ringToks; rw [bigSep_map, bigSep_univ_prod]
    exact bigSep_congr fun c _ => by unfold minted; rw [bigSep_fin9]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own seven semaphores, listed; -/
theorem ownSems0_eq (c : Dev nD) : (Pipeline.ownSems0 (Ix := Unit) (Name := ℕ) (U := UU) (Lvl := ℕ) (Val := Elt F) (τ := τ) osem c : sProp 𝕄)
    = iprop(semVal (cellAt c 1) 0 ∗ semVal (cellAt c 2) 0 ∗ semVal (cellAt c 3) 0 ∗ semVal (idleCell c) 0
        ∗ semVal (cellAt c 4) 0 ∗ semVal (cellAt c 5) 0 ∗ semVal (cellAt c 6) 0) := by
  rw [Pipeline.ownSems0_eq_of_list c osem [0, 1, 2, 3, 4, 5, 6] (by decide) (by decide)]; rfl
/-- the barrier semaphore the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 7 => semVal (kcell (c, k)) 0) ∗ semVal (idleCell c) 0 : sProp 𝕄) := by
  rw [ownSems0_eq, unscopedSems0_eq, bigSep_fin7]
  iintro ⟨⟨H1, H2, H3, Hz, H4, H5, H6⟩, HB⟩
  isplitr [Hz]
  · isplitl [HB]; · iexact HB
    isplitl [H1]; · iexact H1
    isplitl [H2]; · iexact H2
    isplitl [H3]; · iexact H3
    isplitl [H4]; · iexact H4
    isplitl [H5]; · iexact H5
    iexact H6
  · iexact Hz

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Fin 7 => iprop(atPos ER (kcell (c, k)) 0 ∅ 0 ∗ reached ER (kcell (c, k)) 0)) ∗ minted c ∗ semVal (idleCell c) 0) := by
  unfold G
  iintro ⟨Hos, Hus, Hst, Hat, Htok⟩
  ihave Hv := (sems0_eq (F := F) c) $$ [Hos Hus]
  · isplitl [Hos] <;> iassumption
  icases Hv with ⟨Hv, Hz⟩
  imod (show iprop((bigSep Finset.univ fun k : Fin 7 => semVal (kcell (c, k)) 0) ∗ bigSep Finset.univ fun k : Fin 7 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hz

def records (K : Dev nD × Fin 7 → ℕ) : sProp 𝕄 :=
  iprop((bigSep Finset.univ fun ck : Dev nD × Fin 7 => cellInv ER (sched m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (sched m) (K ck) (kcell ck) : sProp 𝕄)) ⊢ cellInv ER (sched m) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device c: its positions, the tokens of the duties it pays, and its idle semaphore. -/
def linear (c : Dev nD) : sProp 𝕄 := iprop(poss c ∗ toks c ∗ semVal (idleCell c) 0)

theorem ghost_intro (K : Dev nD × Fin 7 → ℕ) (c : Dev nD) : iprop(records m K ∗ linear c) ⊢ G' m c := by
  unfold records linear G' ghost invs rchs
  iintro ⟨⟨#HI, #HR⟩, Hp, Ht, Hz⟩
  isplitr [Hz]
  · iexists K
    isplitr
    · isplitr; · iapply (inv_at m K (c, 0)); iexact HI
      isplitr; · iapply (inv_at m K (c, 1)); iexact HI
      isplitr; · iapply (inv_at m K (c, 2)); iexact HI
      isplitr; · iapply (inv_at m K (c, 3)); iexact HI
      isplitr; · iapply (inv_at m K (c, 4)); iexact HI
      isplitr; · iapply (inv_at m K (c, 5)); iexact HI
      isplitr; · iapply (inv_at m K (c, 6)); iexact HI
      isplitr; · iapply (inv_at m K (fwd 1 c, 0)); iexact HI
      isplitr; · iapply (inv_at m K (fwd 2 c, 0)); iexact HI
      isplitr; · iapply (inv_at m K (fwd 3 c, 0)); iexact HI
      isplitr; · iapply (inv_at m K (fwd 1 c, 6)); iexact HI
      isplitr; · iapply (inv_at m K (fwd 2 c, 5)); iexact HI
      iapply (inv_at m K (fwd 3 c, 4)); iexact HI
    isplitl [Hp]; · iexact Hp
    isplitr
    · isplitr; · iapply (reached_at (F := F) (c, 1)); iexact HR
      isplitr; · iapply (reached_at (F := F) (c, 2)); iexact HR
      isplitr; · iapply (reached_at (F := F) (c, 3)); iexact HR
      isplitr; · iapply (reached_at (F := F) (c, 4)); iexact HR
      isplitr; · iapply (reached_at (F := F) (c, 5)); iexact HR
      isplitr; · iapply (reached_at (F := F) (c, 6)); iexact HR
      isplitr; · iapply (reached_at (F := F) (fwd 1 c, 0)); iexact HR
      isplitr; · iapply (reached_at (F := F) (fwd 2 c, 0)); iexact HR
      isplitr; · iapply (reached_at (F := F) (fwd 3 c, 0)); iexact HR
      isplitr; · iapply (reached_at (F := F) (fwd 1 c, 6)); iexact HR
      isplitr; · iapply (reached_at (F := F) (fwd 2 c, 5)); iexact HR
      iapply (reached_at (F := F) (fwd 3 c, 4)); iexact HR
    iexact Ht
  · iexact Hz

/-- The three rotations of the circle. -/
def rot1 : Dev nD ≃ Dev nD := ⟨fwd 1, fwd 3, fwd31, fwd13⟩
def rot2 : Dev nD ≃ Dev nD := ⟨fwd 2, fwd 2, fwd22, fwd22⟩
def rot3 : Dev nD ≃ Dev nD := ⟨fwd 3, fwd 1, fwd13, fwd31⟩

/-- The tokens dealt round the circle: each device gets, of the device k places on, the barrier token of the duty it
    pays there and the token of its landing row's receive cell; its own send cells' tokens stay. -/
theorem toks_around : (bigSep Finset.univ fun c : Dev nD => (minted c : sProp 𝕄)) ⊢ bigSep Finset.univ fun c : Dev nD => toks c := by
  unfold minted toks
  rw [bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep',
    bigSep_univ_equiv rot3 (fun c : Dev nD => (dutyTok ER (cellAt c 0) 0 0 : sProp 𝕄)),
    bigSep_univ_equiv rot2 (fun c : Dev nD => (dutyTok ER (cellAt c 0) 0 1 : sProp 𝕄)),
    bigSep_univ_equiv rot1 (fun c : Dev nD => (dutyTok ER (cellAt c 0) 0 2 : sProp 𝕄)),
    bigSep_univ_equiv rot3 (fun c : Dev nD => (dutyTok ER (cellAt c 4) 0 0 : sProp 𝕄)),
    bigSep_univ_equiv rot2 (fun c : Dev nD => (dutyTok ER (cellAt c 5) 0 0 : sProp 𝕄)),
    bigSep_univ_equiv rot1 (fun c : Dev nD => (dutyTok ER (cellAt c 6) 0 0 : sProp 𝕄))]
  iintro ⟨Hb0, Hb1, Hb2, Hs1, Hs2, Hs3, Hr4, Hr5, Hr6⟩
  isplitl [Hb2]; · iexact Hb2
  isplitl [Hb1]; · iexact Hb1
  isplitl [Hb0]; · iexact Hb0
  isplitl [Hr6]; · iexact Hr6
  isplitl [Hr5]; · iexact Hr5
  isplitl [Hr4]; · iexact Hr4
  isplitl [Hs1]; · iexact Hs1
  isplitl [Hs2]; · iexact Hs2
  iexact Hs3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k : Fin 7 => iprop(atPos ER (kcell (c, k)) 0 ∅ 0 ∗ reached ER (kcell (c, k)) 0)) ∗ minted c ∗ semVal (idleCell c) 0) : sProp 𝕄)
      ⊢ bigSep Finset.univ (G' m) := by
  rw [bigSep_sep', bigSep_sep', bigSep_sep', ← bigSep_univ_prod (fun ck : Dev nD × Fin 7 => iprop(∃ κ : ℕ, cellInv ER (sched m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hz⟩
  ihave HK := (BI.bigSep_exists_pi Finset.univ (fun (ck : Dev nD × Fin 7) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · unfold linear
    rw [bigSep_sep', bigSep_sep']
    isplitl [Hat]
    · iapply (Entails.of_eq (bigSep_congr (s := Finset.univ) fun (c : Dev nD) _ => show (bigSep Finset.univ fun k : Fin 7 => (atPos ER (kcell (c, k)) 0 ∅ 0 : sProp 𝕄)) = poss c from by unfold poss; rw [bigSep_fin7]))
      iexact Hat
    isplitl [Htk]; · iexact Htk
    iexact Hz

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar3 (c : Dev nD) : iprop(cred (tallyAt (cellAt c 0) () 1) ∗ cred (tallyAt (cellAt c 0) () 1) ∗ cred (tallyAt (cellAt c 0) () 1))
    ⊢ (cred (tallyAt (cellAt c 0) () 3) : sProp 𝕄) := by
  rw [show (tallyAt (cellAt c 0) () 3 : CellTallies nD τ sig Unit) = tallyAt (cellAt c 0) () 1 + (tallyAt (cellAt c 0) () 1 + tallyAt (cellAt c 0) () 1) from by
    rw [tallyAt_add, tallyAt_add]]
  exact (sep_mono_right (cred_add _ _).2).trans (cred_add _ _).2

/-- The credit device c starts with: its three peers each owe its barrier cell a unit, and the device k places back owes
    the receive cell of the row it lands in one copy's credit. -/
theorem creds (c : Dev nD) :
    (Pipeline.launchCred O₀ c : sProp 𝕄) ⊢ iprop(cred (tallyAt (cellAt c 0) () 3) ∗ cred (tallyAt (cellAt c 4) () N) ∗ cred (tallyAt (cellAt c 5) () N)
      ∗ cred (tallyAt (cellAt c 6) () N)) := by
  rw [show (O₀ : Dev nD → CellTallies nD τ sig Unit) = fun d => tallyAt (cellAt (fwd 3 d) 4) () N + tallyAt (cellAt (fwd 1 d) 6) () N + tallyAt (cellAt (fwd 2 d) 5) () N
      + tallyAt (barCell (fwd 3 d)) () 1 + tallyAt (barCell (fwd 2 d)) () 1 + tallyAt (barCell (fwd 1 d)) () 1 from rfl,
    Pipeline.launchCred_add, Pipeline.launchCred_add, Pipeline.launchCred_add, Pipeline.launchCred_add, Pipeline.launchCred_add]
  iintro ⟨⟨⟨⟨⟨H4, H6⟩, H5⟩, Hb3⟩, Hb2⟩, Hb1⟩
  ihave C4 := (Pipeline.launchCred_tallyAt (csem 4) (fwd 3) (fwd 1) fwd31 fwd13 () N c) $$ H4
  ihave C6 := (Pipeline.launchCred_tallyAt (csem 6) (fwd 1) (fwd 3) fwd13 fwd31 () N c) $$ H6
  ihave C5 := (Pipeline.launchCred_tallyAt (csem 5) (fwd 2) (fwd 2) fwd22 fwd22 () N c) $$ H5
  ihave B3 := (Pipeline.launchCred_tallyAt (csem 0) (fwd 3) (fwd 1) fwd31 fwd13 () 1 c) $$ Hb3
  ihave B2 := (Pipeline.launchCred_tallyAt (csem 0) (fwd 2) (fwd 2) fwd22 fwd22 () 1 c) $$ Hb2
  ihave B1 := (Pipeline.launchCred_tallyAt (csem 0) (fwd 1) (fwd 3) fwd13 fwd31 () 1 c) $$ Hb1
  isplitl [B1 B2 B3]
  · iapply (bar3 (F := F) c)
    isplitl [B1]; · iexact B1
    isplitl [B2] <;> iassumption
  isplitl [C4]; · iexact C4
  isplitl [C5] <;> iassumption

/-! ## The theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H0, H4, H5, H6⟩
  imodintro
  unfold start G'
  icases HG with ⟨HG, Hz⟩
  isplitl
  · isplitl [HG]; · iexact HG
    isplitl [H0]; · iexact H0
    isplitl [H4]; · iexact H4
    isplitl [H5]; · iexact H5
    isplitl [H6]; · iexact H6
    isplitl [Hlev]; · iexact Hlev
    iexact Hz
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨Hr, Hz⟩
  isplitr; · iempintro
  isplitl [Hz]; · iexact Hz
  iexact Hr

/-! ## The levels: staging cells below everything a device owes -/

theorem L_of_ne (g : GSem nD τ sig) (h : g.1.2 ≠ .tc) : L g = ∅ := if_neg h
theorem L_tc (c : Dev nD) (sm : SemLoc sig) : L ((c : Thread nD τ), sm) = {()} := if_pos rfl

theorem lv_r4 (d : Dev nD) (u : Unit) : lv (cellAt d 4) u = 2 := by
  unfold lv; rw [if_neg (show csem 4 ≠ csem 0 from by decide), if_pos (Or.inl rfl)]
theorem lv_r5 (d : Dev nD) (u : Unit) : lv (cellAt d 5) u = 2 := by
  unfold lv; rw [if_neg (show csem 5 ≠ csem 0 from by decide), if_pos (Or.inr (Or.inl rfl))]
theorem lv_r6 (d : Dev nD) (u : Unit) : lv (cellAt d 6) u = 2 := by
  unfold lv; rw [if_neg (show csem 6 ≠ csem 0 from by decide), if_pos (Or.inr (Or.inr rfl))]

theorem O₀_pos {c : Dev nD} {g : GSem nD τ sig} {u : Unit} (h : 0 < O₀ c g u) :
    g = cellAt (fwd 3 c) 4 ∨ g = cellAt (fwd 1 c) 6 ∨ g = cellAt (fwd 2 c) 5 ∨ g = barCell (fwd 3 c) ∨ g = barCell (fwd 2 c) ∨ g = barCell (fwd 1 c) := by
  unfold O₀ at h
  rcases Pipeline.add_pos_cases h with h | h
  · rcases Pipeline.add_pos_cases h with h | h
    · rcases Pipeline.add_pos_cases h with h | h
      · rcases Pipeline.add_pos_cases h with h | h
        · rcases Pipeline.add_pos_cases h with h | h
          · exact Or.inl (Pipeline.tallyAt_pos h).1
          · exact Or.inr (Or.inl (Pipeline.tallyAt_pos h).1)
        · exact Or.inr (Or.inr (Or.inl (Pipeline.tallyAt_pos h).1))
      · exact Or.inr (Or.inr (Or.inr (Or.inl (Pipeline.tallyAt_pos h).1)))
    · exact Or.inr (Or.inr (Or.inr (Or.inr (Or.inl (Pipeline.tallyAt_pos h).1))))
  · exact Or.inr (Or.inr (Or.inr (Or.inr (Or.inr (Pipeline.tallyAt_pos h).1))))

theorem mayWait_stage (c : Dev nD) (q : DmaSem sig) (hq : SemLoc.dma q ≠ csem 4 ∧ SemLoc.dma q ≠ csem 5 ∧ SemLoc.dma q ≠ csem 6)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl | rfl | rfl <;> exact Finset.mem_singleton_self _)
      (fun p hp => by
        rw [Finset.mem_singleton.mp hp]; dsimp only [lv]
        rw [if_neg (fun h => by cases h), if_neg (fun h => by rcases h with h | h | h; exacts [hq.1 h, hq.2.1 h, hq.2.2 h])])
      (fun g u hg => by
        rcases O₀_pos hg with rfl | rfl | rfl | rfl | rfl | rfl
        · rw [lv_r4]; decide
        · rw [lv_r6]; decide
        · rw [lv_r5]; decide
        · rw [lv_bar]; decide
        · rw [lv_bar]; decide
        · rw [lv_bar]; decide)
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The arrays after the run -/

/-- The block of rows is never written back. -/
theorem final_arg0 (c : Dev nD) : (dats (F := F) m 0 c).arrAt (0 : Fin 2) cfg0.N = m ((c : Thread nD τ).loc main_arg0) :=
  (dats (F := F) m 0 c).arrAt_in (0 : Fin 2) rfl _

/-- The result array holds what the body left in its staging buffer at the one point: the result row. -/
theorem final_v1 (c : Dev nD) : (dats (F := F) m 0 c).arrAt (1 : Fin 2) cfg0.N = outAt m c := by
  have h1 : ((cfg0.win (1 : Fin 2)).blk t₀).view.read (Elt F) ((dats (F := F) m 0 c).arrAt (1 : Fin 2) cfg0.N)
      = (dats (F := F) m 0 c).flushed (1 : Fin 2) t₀ := by
    rw [show cfg0.N = (t₀ : Fin cfg0.N).val + 1 from rfl, (dats (F := F) m 0 c).arrAt_succ (1 : Fin 2) t₀]
    rw [flush0_1 t₀, if_pos rfl]
    exact View.read_write_univ _ _
  have hz : (fun a => (win0_1.index t₀) a * main_v1.ty.shape.size a) = fun _ => 0 := funext fun a => by fin_cases a <;> decide
  have hr := fun f => Memref.read_access_unit_zero (Elt F) main_v1 hz (fun a => by fin_cases a <;> decide) f
  rw [hr] at h1
  rw [h1]
  rfl

set_option maxRecDepth 8000 in
/-- From every device's body: the run of the mesh. -/
theorem run_main (ρ : Dev nD → PrngReg) (hbody : ∀ c, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 1).trans (final_v1 m c), ((h c).1 0).trans (final_arg0 m c)⟩)

/-- info: 'Cert.KernelIdeal.Coll.run_main' depends on axioms: [propext, Classical.choice, Quot.sound] -/
#guard_msgs in #print axioms run_main

end Cert.KernelIdeal.Coll

end
-- ==== Proof.Value.lean ====
/-
  The reference computes the column means of the whole array on one device; this module relates the result row of
  every device of the mesh to it: the four devices' partial column sums add up to the whole array's column sums in any
  order, and scaling by the reciprocal of the row count is dividing by it.
-/
import proofs.«900951_g7700000000000952_dist_mean_ax0_shard0_i_m4096_n1024_v7x_i4_bf16_1_alg».proof.Proof.Common
import proofs.«900951_g7700000000000952_dist_mean_ax0_shard0_i_m4096_n1024_v7x_i4_bf16_1_alg».proof.Proof.Gen.ReferenceIdeal.Run
import proofs.«900951_g7700000000000952_dist_mean_ax0_shard0_i_m4096_n1024_v7x_i4_bf16_1_alg».proof.Proof.Gen.ReferenceIdeal.Read
import Idealize.ShloMosaic.Lib.Layout
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

/-- The reference's result row as a function of the whole array: the column sums divided by the number of rows. -/
def refVal (X : (⟨Cert.ReferenceIdeal.S16384x1024, .f32⟩ : BufTy).Contents (Elt Ideal)) : (⟨Cert.ReferenceIdeal.S1x1024, .f32⟩ : BufTy).Contents (Elt Ideal) :=
  Host.divf (F := Ideal)
    (broadcastInDim Cert.ReferenceIdeal.S1x1024 ![1] Cert.ReferenceIdeal.Facts₀.bcast_S1024_S1x1024_1
      (Host.reduceAdd (F := Ideal) X (constant (F := Ideal) Cert.ReferenceIdeal.S_ .f32 0x00000000#32) Cert.ReferenceIdeal.Facts₀.reducesTo_S16384x1024_S1024_d0 Cert.ReferenceIdeal.Facts₀.h_S_))
    (broadcastInDim Cert.ReferenceIdeal.S1x1024 ![] Cert.ReferenceIdeal.Facts₀.bcast_S_S1x1024 (constant (F := Ideal) Cert.ReferenceIdeal.S_ .f32 0x46800000#32))

/-! ## The kernel's side, one element at a time -/

/-- The window of the argument is the whole array, so the staged block is the device's argument as launched. -/
theorem xstg_eq (m : (ℓ : Loc nD τ sig) → Buf (Elt Ideal) ℓ) (d : Dev nD) :
    xstg (F := Ideal) m d = m ((d : Thread nD τ).loc main_arg0) := by
  unfold xstg
  exact Memref.read_access_unit_zero (Elt Ideal) main_arg0
    (show (fun a => (win0_0.index (0 : Fin 1)) a * main_arg0.ty.shape.size a) = fun _ => 0 from
      funext fun a => Nat.zero_mul _) (fun a => by fin_cases a <;> decide) _

/-- The sum over the rows of a block at column `j`, from the zero word. -/
theorem colsum_at (v : FVec Ideal S4096x1024 .f32) (hφ : FKind.Formats .f32)
    (hacc : (0x00000000#32 : BitVec 32) = 0x00000000#32) (j : Fin 1024) :
    multiReduction .add [0] S1024 v 0x00000000#32 reduces_S4096x1024_S1024 hφ hacc (ix1 j)
      = ∑ r : Fin 4096, (show EReal from v (ix2 r j)) := by
  refine (Ideal.multiReduction_add_single v 0x00000000#32 reduces_S4096x1024_S1024 hφ hacc (ix1 j)).trans ?_
  refine Finset.sum_congr rfl fun r _ => ?_
  exact congrArg v (funext fun a => Fin.ext (by match a with | ⟨0, _⟩ => rfl | ⟨1, _⟩ => rfl))

/-- A device's row of partial sums at column `j`: the sum of its block's column `j`. -/
theorem pay1_at (v : FVec Ideal S4096x1024 .f32) (j : Fin 1024) :
    (k0_pay1 (F := Ideal) v) (ix3 (0 : Fin 1) (0 : Fin 1) j) = ∑ r : Fin 4096, (show EReal from v (ix2 r j)) := by
  unfold k0_pay1
  rw [shapeCast_ab_1ab_apply, shapeCast_a_1a_apply]
  refine (colsum_at _ _ _ j).trans ?_
  rw [shapeCast_self]

/-- The first addition at column `j`. -/
theorem pay2_at (a b : FVec Ideal S1x1x1024 .f32) (j : Fin 1024) :
    (k0_pay2 (F := Ideal) a b) (ix2 (0 : Fin 1) j)
      = (show EReal from a (ix3 (0 : Fin 1) (0 : Fin 1) j)) + (show EReal from b (ix3 (0 : Fin 1) (0 : Fin 1) j)) := by
  unfold k0_pay2
  rw [addf_apply, shapeCast_1ab_ab_apply, shapeCast_1ab_ab_apply]

/-- The two further additions and the scaling at column `j`. -/
theorem pay3_at (s : FVec Ideal S1x1024 .f32) (a b : FVec Ideal S1x1x1024 .f32) (j : Fin 1024) :
    (k0_pay3 (F := Ideal) s a b) (ix2 (0 : Fin 1) j)
      = ((show EReal from s (ix2 (0 : Fin 1) j)) + (show EReal from a (ix3 (0 : Fin 1) (0 : Fin 1) j))
          + (show EReal from b (ix3 (0 : Fin 1) (0 : Fin 1) j))) * Ideal.ofBits .f32 0x38800000#32 := by
  unfold k0_pay3
  rw [mulf_apply, addf_apply, addf_apply, shapeCast_1ab_ab_apply, shapeCast_1ab_ab_apply, broadcast_apply]
  rfl

/-! ## The two constants -/

/-- The word the kernel scales by denotes the reciprocal of the number of rows. -/
theorem ofBits_inv_rows : Ideal.ofBits .f32 0x38800000#32 = ((1 / 16384 : ℝ) : EReal) := by
  simp [Ideal.ofBits, Ideal.ieee, -EReal.coe_mul]; norm_num

/-- The word the reference divides by denotes the number of rows. -/
theorem ofBits_rows : Ideal.ofBits .f32 0x46800000#32 = ((16384 : ℝ) : EReal) := by
  simp [Ideal.ofBits, Ideal.ieee, -EReal.coe_mul]; norm_num

/-! ## The reference's side at an element -/

/-- The reference at column `j`: the sum of the whole array's column `j` from zero, divided by the number of rows. -/
theorem refVal_at (X : (⟨Cert.ReferenceIdeal.S16384x1024, .f32⟩ : BufTy).Contents (Elt Ideal)) (j : Fin 1024) :
    refVal X (ix2 (0 : Fin 1) j)
      = Ideal.div (0 + ∑ k : Fin 16384, (show EReal from X (ix2 k j))) ((16384 : ℝ) : EReal) := by
  show Cert.ReferenceIdeal.Read.val_main_v3 (F := Ideal) X (ix2 (0 : Fin 1) j) = _
  rw [Cert.ReferenceIdeal.Read.val_main_v3_apply, Cert.ReferenceIdeal.Read.val_main_v1_apply,
    Cert.ReferenceIdeal.Read.val_main_v0_apply, Cert.ReferenceIdeal.Read.val_main_v2_apply,
    Cert.ReferenceIdeal.Read.val_main_cst_0_apply, Cert.ReferenceIdeal.Read.val_main_cst_apply]
  rw [Ideal.hostDivf_def, Ideal.ofBits_def, Ideal.ofBits_def, Ideal.ofBits_zero_f32, ofBits_rows]
  refine congrArg (fun z => Ideal.div (0 + z) ((16384 : ℝ) : EReal)) (Finset.sum_congr rfl fun k _ => ?_)
  exact congrArg X (funext fun a => Fin.ext (by match a with | ⟨0, _⟩ => rfl | ⟨1, _⟩ => rfl))

/-! ## From the blocks to the whole array -/

/-- Row `r` of block `d` as a row of the whole array. -/
abbrev rowOf (d : Fin 4) (r : Fin 4096) : Fin 16384 := ⟨4096 * d.val + r.val, by have := d.isLt; have := r.isLt; omega⟩

/-- The sum of column `j` over block `d`'s rows of the whole array. -/
def blkSum (X : (⟨Cert.ReferenceIdeal.S16384x1024, .f32⟩ : BufTy).Contents (Elt Ideal)) (j : Fin 1024) (d : Fin 4) : EReal :=
  ∑ r : Fin 4096, (show EReal from X (ix2 (rowOf d r) j))

/-- An element of block `d` is the whole array's, `4096 d` rows down. -/
theorem block_at (X : (⟨Cert.ReferenceIdeal.S16384x1024, .f32⟩ : BufTy).Contents (Elt Ideal)) (d : Fin 4) (r : Fin 4096) (j : Fin 1024) :
    (Layout.block ⟨2, ![4096, 1024]⟩ ⟨2, ![16384, 1024]⟩ 0 4 d X) (ix2 r j) = X (ix2 (rowOf d r) j) := by
  rw [Layout.block_apply]
  refine congrArg X (funext fun a => Fin.ext ?_)
  match a with
  | ⟨0, _⟩ => show d.val * 4096 + r.val = 4096 * d.val + r.val; omega
  | ⟨1, _⟩ => rfl

/-- The rows of the whole array are the rows of the four blocks. -/
def rowEquiv : Fin 4 × Fin 4096 ≃ Fin 16384 where
  toFun p := rowOf p.1 p.2
  invFun k := (⟨k.val / 4096, by have := k.isLt; omega⟩, ⟨k.val % 4096, Nat.mod_lt _ (by decide)⟩)
  left_inv p := by
    have h1 := p.1.isLt; have h2 := p.2.isLt
    refine Prod.ext (Fin.ext ?_) (Fin.ext ?_)
    · show (4096 * p.1.val + p.2.val) / 4096 = p.1.val; omega
    · show (4096 * p.1.val + p.2.val) % 4096 = p.2.val; omega
  right_inv k := by
    refine Fin.ext ?_
    show 4096 * (k.val / 4096) + k.val % 4096 = k.val; omega

/-- A sum over the rows of the whole array is the sum of the four blocks' sums. -/
theorem sum_rows (f : Fin 16384 → EReal) :
    ∑ k : Fin 16384, f k = ∑ d : Fin 4, ∑ r : Fin 4096, f (rowOf d r) := by
  rw [← Equiv.sum_comp rowEquiv f, Fintype.sum_prod_type]
  rfl

/-- The four devices' sums, taken from any device round the circle in the kernel's order, are the four blocks' sums. -/
theorem four_round (A : Fin 4 → EReal) (c : Dev nD) :
    A c + A (fwd 1 c) + A (fwd 3 c) + A (fwd 2 c) = A 0 + A 1 + A 2 + A 3 := by
  have h : ∀ c : Dev nD,
      (c = 0 ∧ fwd 1 c = 1 ∧ fwd 3 c = 3 ∧ fwd 2 c = 2) ∨ (c = 1 ∧ fwd 1 c = 2 ∧ fwd 3 c = 0 ∧ fwd 2 c = 3)
      ∨ (c = 2 ∧ fwd 1 c = 3 ∧ fwd 3 c = 1 ∧ fwd 2 c = 0) ∨ (c = 3 ∧ fwd 1 c = 0 ∧ fwd 3 c = 2 ∧ fwd 2 c = 1) := by decide
  rcases h c with ⟨h0, h1, h3, h2⟩ | ⟨h0, h1, h3, h2⟩ | ⟨h0, h1, h3, h2⟩ | ⟨h0, h1, h3, h2⟩ <;>
    rw [h1, h3, h2, h0] <;> ac_rfl

/-- Every device's result row is the reference's, when each device's block is its block of the whole array. -/
theorem outAt_eq_ref (m : (ℓ : Loc nD τ sig) → Buf (Elt Ideal) ℓ)
    (X : (⟨Cert.ReferenceIdeal.S16384x1024, .f32⟩ : BufTy).Contents (Elt Ideal))
    (hagree : ∀ c : Dev nD, m ((c.tc : Thread nD τ).loc main_arg0) = Layout.block ⟨2, ![4096, 1024]⟩ ⟨2, ![16384, 1024]⟩ 0 4 c X)
    (c : Dev nD) : outAt (F := Ideal) m c = refVal X := by
  funext i
  obtain ⟨u, j, rfl⟩ : ∃ (u : Fin 1) (j : Fin 1024), i = ix2 u j := ⟨i 0, i 1, eq_ix2 i⟩
  obtain rfl : u = 0 := Fin.ext (by omega)
  have hacc : ∀ d : Dev nD, acc (F := Ideal) m d (ix3 (0 : Fin 1) (0 : Fin 1) j) = blkSum X j d := fun d => by
    unfold acc
    rw [xstg_eq, pay1_at, hagree d]
    exact Finset.sum_congr rfl fun r _ => block_at X d r j
  unfold outAt
  rw [pay3_at, pay2_at, hacc, hacc, hacc, hacc, refVal_at, ofBits_inv_rows, Ideal.div_coe (by norm_num), zero_add,
    sum_rows, Fin.sum_univ_four]
  exact congrArg (· * ((1 / 16384 : ℝ) : EReal)) (four_round (blkSum X j) c)

end Cert.KernelIdeal.Coll

end
-- ==== Proof.CommonK.lean ====
/-
  The mean over rows of an array cut into four row blocks, one per device: every device sums its own block's
  columns, tells its three peers that it has entered, waits for their three words, copies its partial sums into
  a landing row on each peer, and adds up its own row and the three rows that land.  This module fixes the
  vocabulary the rest of the proof shares: the mesh's rotation, the four rows of the scratch array, the eleven
  semaphore cells a device takes part in, the schedule of who pays which cell what, and the resources a device
  starts from and ends with.
-/
import proofs.«900951_g7700000000000952_dist_mean_ax0_shard0_i_m4096_n1024_v7x_i4_bf16_1_alg».proof.Proof.Gen.Kernel
import proofs.«900951_g7700000000000952_dist_mean_ax0_shard0_i_m4096_n1024_v7x_i4_bf16_1_alg».proof.Proof.Gen.Kernel.Skeleton
import proofs.«900951_g7700000000000952_dist_mean_ax0_shard0_i_m4096_n1024_v7x_i4_bf16_1_alg».proof.Proof.Gen.Kernel.Launch
import proofs.«900951_g7700000000000952_dist_mean_ax0_shard0_i_m4096_n1024_v7x_i4_bf16_1_alg».proof.Proof.Gen.Kernel.Points
import proofs.«900951_g7700000000000952_dist_mean_ax0_shard0_i_m4096_n1024_v7x_i4_bf16_1_alg».proof.Proof.Gen.Kernel.Frame
import Idealize.ShloMosaic.Lib.Pipeline.Launch
import Idealize.ShloMosaic.Lib.Pipeline.Kit
import Idealize.ShloMosaic.Lib.Tactic

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the rounds' copy with three duty names -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The mesh: four devices in a circle -/

/-- The device `k` places further round the circle. -/
def fwd (k : ℕ) (c : Dev nD) : Dev nD := ⟨(c.val + k) % 4, Nat.mod_lt _ (by decide)⟩

theorem fwd31 (c : Dev nD) : fwd 3 (fwd 1 c) = c := by revert c; decide
theorem fwd22 (c : Dev nD) : fwd 2 (fwd 2 c) = c := by revert c; decide
theorem fwd13 (c : Dev nD) : fwd 1 (fwd 3 c) = c := by revert c; decide

theorem dev1_eq (c : Dev nD) : (⟨k0_dev1 c, k0_dev1_lt c⟩ : Dev nD) = fwd 1 c := Fin.ext (k0_dev1_eq c)
theorem dev2_eq (c : Dev nD) : (⟨k0_dev2 c, k0_dev2_lt c⟩ : Dev nD) = fwd 2 c := Fin.ext (k0_dev2_eq c)
theorem dev3_eq (c : Dev nD) : (⟨k0_dev3 c, k0_dev3_lt c⟩ : Dev nD) = fwd 3 c := Fin.ext (k0_dev3_eq c)
theorem dev4_eq (c : Dev nD) : (⟨k0_dev4 c, k0_dev4_lt c⟩ : Dev nD) = fwd 2 c := Fin.ext (k0_dev4_eq c)
theorem dev5_eq (c : Dev nD) : (⟨k0_dev5 c, k0_dev5_lt c⟩ : Dev nD) = fwd 1 c := Fin.ext (k0_dev5_eq c)
theorem dev6_eq (c : Dev nD) : (⟨k0_dev6 c, k0_dev6_lt c⟩ : Dev nD) = fwd 3 c := Fin.ext (k0_dev6_eq c)

/-! ## The buffers: the block of rows, the result row, and the scratch array of four rows -/

abbrev xM : Memref sig .tc .vmem S4096x1024 .f32 := Memref.whole cc0_stg0_0
abbrev oM : Memref sig .tc .vmem S1x1024 .f32 := Memref.whole cc0_stg1_0
abbrev aM : Memref sig .tc .vmem S4x1x1024 .f32 := Memref.whole cc0_scratch0

/-- Row `k` of the scratch array as a rectangle of it. -/
abbrev row0 : Rect S4x1x1024 := Rect.unit (s := S4x1x1024) ![0, 0, 0] S1x1x1024.size inb_S4x1x1024_S1x1x1024_0_0_0
abbrev row1 : Rect S4x1x1024 := Rect.unit (s := S4x1x1024) ![1, 0, 0] S1x1x1024.size inb_S4x1x1024_S1x1x1024_1_0_0
abbrev row2 : Rect S4x1x1024 := Rect.unit (s := S4x1x1024) ![2, 0, 0] S1x1x1024.size inb_S4x1x1024_S1x1x1024_2_0_0
abbrev row3 : Rect S4x1x1024 := Rect.unit (s := S4x1x1024) ![3, 0, 0] S1x1x1024.size inb_S4x1x1024_S1x1x1024_3_0_0

/-- Row `k` as the memref a copy reads or writes: the slice, its leading unit axis dropped. -/
abbrev rowM0 : Memref sig .tc .vmem S1x1024 .f32 := (aM.slice row0 (fun _ => rfl)).squeeze S1x1024 squeezes_S1x1x1024_S1x1024
abbrev rowM1 : Memref sig .tc .vmem S1x1024 .f32 := (aM.slice row1 (fun _ => rfl)).squeeze S1x1024 squeezes_S1x1x1024_S1x1024
abbrev rowM2 : Memref sig .tc .vmem S1x1024 .f32 := (aM.slice row2 (fun _ => rfl)).squeeze S1x1024 squeezes_S1x1x1024_S1x1024
abbrev rowM3 : Memref sig .tc .vmem S1x1024 .f32 := (aM.slice row3 (fun _ => rfl)).squeeze S1x1024 squeezes_S1x1x1024_S1x1024

/-- The elements of the scratch array that lie in row `k`. -/
abbrev R0 : Finset (cc0_scratch0 : Ref sig .tc).ty.Idx := (rowM0 : Memref sig .tc .vmem S1x1024 .f32).view.set
abbrev R1 : Finset (cc0_scratch0 : Ref sig .tc).ty.Idx := (rowM1 : Memref sig .tc .vmem S1x1024 .f32).view.set
abbrev R2 : Finset (cc0_scratch0 : Ref sig .tc).ty.Idx := (rowM2 : Memref sig .tc .vmem S1x1024 .f32).view.set
abbrev R3 : Finset (cc0_scratch0 : Ref sig .tc).ty.Idx := (rowM3 : Memref sig .tc .vmem S1x1024 .f32).view.set

/-! ## The semaphores and cells -/

abbrev barS : Sem sig := (SemArray.scalar (sig.barrier 0 rfl) : Sems sig S_).sem
abbrev sd0 : DmaSem sig := ((cc0_scratch1.slice (Rect.unit (s := S3) ![0] S1.size inb_S3_S1_0)).squeeze S_ squeezes_S1_S_).sem
abbrev sd1 : DmaSem sig := ((cc0_scratch1.slice (Rect.unit (s := S3) ![1] S1.size inb_S3_S1_1)).squeeze S_ squeezes_S1_S_).sem
abbrev sd2 : DmaSem sig := ((cc0_scratch1.slice (Rect.unit (s := S3) ![2] S1.size inb_S3_S1_2)).squeeze S_ squeezes_S1_S_).sem
abbrev rv1 : DmaSem sig := ((cc0_scratch2.slice (Rect.unit (s := S4) ![1] S1.size inb_S4_S1_1)).squeeze S_ squeezes_S1_S_).sem
abbrev rv2 : DmaSem sig := ((cc0_scratch2.slice (Rect.unit (s := S4) ![2] S1.size inb_S4_S1_2)).squeeze S_ squeezes_S1_S_).sem
abbrev rv3 : DmaSem sig := ((cc0_scratch2.slice (Rect.unit (s := S4) ![3] S1.size inb_S4_S1_3)).squeeze S_ squeezes_S1_S_).sem
/-- The fourth receive semaphore, which the kernel allocates and never uses. -/
abbrev rv0 : DmaSem sig := 5

/-- The seven semaphores of a device that the protocol runs on: the barrier, three send, three receive. -/
abbrev csem : Fin 7 → SemLoc sig := fun
  | 0 => .reg barS | 1 => .dma sd0 | 2 => .dma sd1 | 3 => .dma sd2 | 4 => .dma rv1 | 5 => .dma rv2 | 6 => .dma rv3
abbrev kcell (ck : Dev nD × Fin 7) : GSem nD τ sig := ((ck.1 : Thread nD τ), csem ck.2)
abbrev cellAt (c : Dev nD) (k : Fin 7) : GSem nD τ sig := kcell (c, k)
abbrev barCell (c : Dev nD) : GSem nD τ sig := cellAt c 0

/-- The kernel's own (scoped) semaphores in the order the launch lists them. -/
abbrev osem : Fin 7 → SemLoc sig := fun
  | 0 => .dma sd0 | 1 => .dma sd1 | 2 => .dma sd2 | 3 => .dma rv0 | 4 => .dma rv1 | 5 => .dma rv2 | 6 => .dma rv3

/-- What one copy of a row credits its semaphores. -/
abbrev N : ℕ := (rowM1 : Memref sig .tc .vmem S1x1024 .f32).view.dmaCredit
theorem N_pos : 0 < N := View.dmaCredit_pos _ (by decide)

/-! ## Contents -/

/-- Device `c`'s block of rows as the kernel finds it staged. -/
def xstg (c : Dev nD) : (cc0_stg0_0 : Ref sig .tc).ty.Contents (Elt F) :=
  (win0_0.blk (0 : Fin 1)).view.read (Elt F) (m ((c : Thread nD τ).loc main_arg0))

/-- Device `c`'s partial sums: the column sums of its block, as the row it stores and sends. -/
def acc (c : Dev nD) : Vec F S1x1x1024 .f32 := k0_pay1 (xstg m c)

/-- The result row on device `c`: its own partial sums and those of the devices one, three and two places on, added in
    that order and scaled. -/
def outAt (c : Dev nD) : (cc0_stg1_0 : Ref sig .tc).ty.Contents (Elt F) :=
  k0_pay3 (k0_pay2 (acc m c) (acc m (fwd 1 c))) (acc m (fwd 3 c)) (acc m (fwd 2 c))

/-- The scratch array of device `c` once it has stored its partial sums in row 0 (the other rows as launched). -/
def scr0 (c : Dev nD) : Buf (Elt F) ((c : Thread nD τ).loc cc0_scratch0) :=
  ((aM : Memref sig .tc .vmem S4x1x1024 .f32).access row0).write (Elt F) (m ((c : Thread nD τ).loc cc0_scratch0)) (acc m c) Finset.univ

/-- The scratch array of device `c` held on the elements `R` at share `q`. -/
def scrOn (c : Dev nD) (R : Finset (cc0_scratch0 : Ref sig .tc).ty.Idx) (q : PosShare TreeShare)
    (f : Buf (Elt F) ((c : Thread nD τ).loc cc0_scratch0)) : sProp 𝕄 :=
  ((c : Thread nD τ).loc cc0_scratch0) ↦[R]{q} f

/-- A landing row that holds what device `d` sent: some contents whose row, read back, is `d`'s partial sums. -/
def landed1 (c d : Dev nD) : sProp 𝕄 :=
  iprop(∃ f, ⌜(aM : Memref sig .tc .vmem S4x1x1024 .f32).view.readAt (Elt F) row1.toLoadRect f = acc m d⌝ ∗ scrOn c R1 fullShare f)
def landed2 (c d : Dev nD) : sProp 𝕄 :=
  iprop(∃ f, ⌜(aM : Memref sig .tc .vmem S4x1x1024 .f32).view.readAt (Elt F) row2.toLoadRect f = acc m d⌝ ∗ scrOn c R2 fullShare f)
def landed3 (c d : Dev nD) : sProp 𝕄 :=
  iprop(∃ f, ⌜(aM : Memref sig .tc .vmem S4x1x1024 .f32).view.readAt (Elt F) row3.toLoadRect f = acc m d⌝ ∗ scrOn c R3 fullShare f)

/-- The four quarter shares of row 0: three lent to the copies in flight, one kept for the loads. -/
abbrev qA : PosShare TreeShare := fullShare.left.left
abbrev qB : PosShare TreeShare := fullShare.left.right
abbrev qC : PosShare TreeShare := fullShare.right.left
abbrev qD : PosShare TreeShare := fullShare.right.right

/-! ## The schedule: one round; who pays which cell, how much, and what the owner gets -/

/-- What the signal from the device `k + 1` places on hands the owner `c` of a barrier cell: that device's landing row
    for `c`'s copy, and that its receive cell for that row has reached round 0. -/
def barPay (c : Dev nD) (k : Fin 3) : sProp 𝕄 := match k with
  | 0 => iprop((∃ f, scrOn (fwd 1 c) R3 fullShare f) ∗ reached ER (cellAt (fwd 1 c) 6) 0)
  | 1 => iprop((∃ f, scrOn (fwd 2 c) R2 fullShare f) ∗ reached ER (cellAt (fwd 2 c) 5) 0)
  | 2 => iprop((∃ f, scrOn (fwd 3 c) R1 fullShare f) ∗ reached ER (cellAt (fwd 3 c) 4) 0)

/-- The payload of the one duty of a send or receive cell of device `c`, and of duty `d` of its barrier cell. -/
def payAt (c : Dev nD) (k : Fin 7) (d : Fin 3) : sProp 𝕄 := match k with
  | 0 => barPay c d
  | 1 => scrOn c R0 qA (scr0 m c)
  | 2 => scrOn c R0 qB (scr0 m c)
  | 3 => scrOn c R0 qC (scr0 m c)
  | 4 => landed1 m c (fwd 1 c)
  | 5 => landed2 m c (fwd 2 c)
  | 6 => landed3 m c (fwd 3 c)

abbrev IsBar (g : GSem nD τ sig) : Prop := g.1.2 = .tc ∧ g.2 = csem 0
abbrev IsXfer (g : GSem nD τ sig) : Prop := g.1.2 = .tc ∧ ∃ k : Fin 7, k ≠ 0 ∧ g.2 = csem k

def sched : Rounds.Schedule (GSem nD τ sig) (Fin 3) 𝕄 where
  duties g r := if r = 0 ∧ IsBar g then Finset.univ else if r = 0 ∧ IsXfer g then {0} else ∅
  unitless _ := False
  amount g _ _ := if g.2 = csem 0 then 1 else N
  payload g _ d :=
    if g.2 = csem 0 then payAt m g.1.1 0 d else if g.2 = csem 1 then payAt m g.1.1 1 d
    else if g.2 = csem 2 then payAt m g.1.1 2 d else if g.2 = csem 3 then payAt m g.1.1 3 d
    else if g.2 = csem 4 then payAt m g.1.1 4 d else if g.2 = csem 5 then payAt m g.1.1 5 d
    else if g.2 = csem 6 then payAt m g.1.1 6 d else iprop(emp)
  amount_pos g _ _ _ := by
    by_cases h : g.2 = csem 0
    · rw [if_pos h]; exact Nat.one_pos
    · rw [if_neg h]; exact N_pos

/-! ## What a device owes at launch, and the levels -/

/-- Device `c` owes each peer's barrier cell one unit and each peer's receive cell for its row one copy's credit; summed
    so that each signal and each copy, in program order, pays the last summand left. -/
def O₀ (c : Dev nD) : CellTallies nD τ sig Unit :=
  tallyAt (cellAt (fwd 3 c) 4) () N + tallyAt (cellAt (fwd 1 c) 6) () N + tallyAt (cellAt (fwd 2 c) 5) () N
    + tallyAt (barCell (fwd 3 c)) () 1 + tallyAt (barCell (fwd 2 c)) () 1 + tallyAt (barCell (fwd 1 c)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = csem 0 then 1 else if g.2 = csem 4 ∨ g.2 = csem 5 ∨ g.2 = csem 6 then 2 else 0

/-! ## The ghost state a device starts from -/

/-- The invariants device `c` opens: its own seven cells', its peers' barrier cells', and the receive cells its three
    copies land on. -/
def invs (K : Dev nD × Fin 7 → ℕ) (c : Dev nD) : sProp 𝕄 :=
  iprop(cellInv ER (sched m) (K (c, 0)) (cellAt c 0) ∗ cellInv ER (sched m) (K (c, 1)) (cellAt c 1) ∗ cellInv ER (sched m) (K (c, 2)) (cellAt c 2)
    ∗ cellInv ER (sched m) (K (c, 3)) (cellAt c 3) ∗ cellInv ER (sched m) (K (c, 4)) (cellAt c 4) ∗ cellInv ER (sched m) (K (c, 5)) (cellAt c 5)
    ∗ cellInv ER (sched m) (K (c, 6)) (cellAt c 6)
    ∗ cellInv ER (sched m) (K (fwd 1 c, 0)) (cellAt (fwd 1 c) 0) ∗ cellInv ER (sched m) (K (fwd 2 c, 0)) (cellAt (fwd 2 c) 0)
    ∗ cellInv ER (sched m) (K (fwd 3 c, 0)) (cellAt (fwd 3 c) 0)
    ∗ cellInv ER (sched m) (K (fwd 1 c, 6)) (cellAt (fwd 1 c) 6) ∗ cellInv ER (sched m) (K (fwd 2 c, 5)) (cellAt (fwd 2 c) 5)
    ∗ cellInv ER (sched m) (K (fwd 3 c, 4)) (cellAt (fwd 3 c) 4))

instance invs_persistent (K : Dev nD × Fin 7 → ℕ) (c : Dev nD) : BI.Persistent (invs m K c) := by unfold invs; infer_instance

/-- Its positions: round 0 of each of its own seven cells, nothing taken. -/
def poss (c : Dev nD) : sProp 𝕄 :=
  iprop(atPos ER (cellAt c 0) 0 ∅ 0 ∗ atPos ER (cellAt c 1) 0 ∅ 0 ∗ atPos ER (cellAt c 2) 0 ∅ 0 ∗ atPos ER (cellAt c 3) 0 ∅ 0
    ∗ atPos ER (cellAt c 4) 0 ∅ 0 ∗ atPos ER (cellAt c 5) 0 ∅ 0 ∗ atPos ER (cellAt c 6) 0 ∅ 0)

/-- That round 0 is reached: of its own send and receive cells, of its peers' barrier cells, of the receive cells it pays. -/
def rchs (c : Dev nD) : sProp 𝕄 :=
  iprop(reached ER (cellAt c 1) 0 ∗ reached ER (cellAt c 2) 0 ∗ reached ER (cellAt c 3) 0
    ∗ reached ER (cellAt c 4) 0 ∗ reached ER (cellAt c 5) 0 ∗ reached ER (cellAt c 6) 0
    ∗ reached ER (cellAt (fwd 1 c) 0) 0 ∗ reached ER (cellAt (fwd 2 c) 0) 0 ∗ reached ER (cellAt (fwd 3 c) 0) 0
    ∗ reached ER (cellAt (fwd 1 c) 6) 0 ∗ reached ER (cellAt (fwd 2 c) 5) 0 ∗ reached ER (cellAt (fwd 3 c) 4) 0)

instance rchs_persistent (c : Dev nD) : BI.Persistent (rchs (F := F) c) := by unfold rchs; infer_instance

/-- The tokens of the nine duties it pays: one of each peer's barrier cell, the receive cell of each peer's landing row
    for it, and its own three send cells'. -/
def toks (c : Dev nD) : sProp 𝕄 :=
  iprop(dutyTok ER (cellAt (fwd 1 c) 0) 0 2 ∗ dutyTok ER (cellAt (fwd 2 c) 0) 0 1 ∗ dutyTok ER (cellAt (fwd 3 c) 0) 0 0
    ∗ dutyTok ER (cellAt (fwd 1 c) 6) 0 0 ∗ dutyTok ER (cellAt (fwd 2 c) 5) 0 0 ∗ dutyTok ER (cellAt (fwd 3 c) 4) 0 0
    ∗ dutyTok ER (cellAt c 1) 0 0 ∗ dutyTok ER (cellAt c 2) 0 0 ∗ dutyTok ER (cellAt c 3) 0 0)

def ghost (K : Dev nD × Fin 7 → ℕ) (c : Dev nD) : sProp 𝕄 := iprop(invs m K c ∗ poss c ∗ rchs c ∗ toks c)

/-- The unused receive semaphore of device `c`, as a cell nobody pays. -/
abbrev idleCell (c : Dev nD) : GSem nD τ sig := ((c : Thread nD τ), .dma rv0)

/-- What the body starts from: the ghost state at some names, the credit its peers owe its barrier cell and its three
    receive cells, the levels, and the unused semaphore at zero. -/
def start (c : Dev nD) : sProp 𝕄 :=
  iprop((∃ K, ghost m K c) ∗ cred (tallyAt (cellAt c 0) () 3) ∗ cred (tallyAt (cellAt c 4) () N) ∗ cred (tallyAt (cellAt c 5) () N)
    ∗ cred (tallyAt (cellAt c 6) () N) ∗ levAts L lv ∗ semVal (idleCell c) 0)

def Φ₀ (c : Dev nD) : sProp 𝕄 := iprop(start m c ∗ ∃ f : Buf (Elt F) ((c : Thread nD τ).loc cc0_scratch0), ((c : Thread nD τ).loc cc0_scratch0) ↦{fullShare} f)
/-- After the body: the scratch array whole again, and the kernel's own seven semaphores at zero. -/
def Φ₁ (c : Dev nD) : sProp 𝕄 :=
  iprop((∃ f : Buf (Elt F) ((c : Thread nD τ).loc cc0_scratch0), ((c : Thread nD τ).loc cc0_scratch0) ↦{fullShare} f)
    ∗ semVal (cellAt c 1) 0 ∗ semVal (cellAt c 2) 0 ∗ semVal (cellAt c 3) 0 ∗ semVal (idleCell c) 0
    ∗ semVal (cellAt c 4) 0 ∗ semVal (cellAt c 5) 0 ∗ semVal (cellAt c 6) 0)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A staging buffer held whole at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is entered with and what it leaves. -/
def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

end Cert.Kernel.Coll

end
-- ==== Proof.SchedK.lean ====
/-
  The schedule read cell by cell: which duties a cell has at round 0 and none later, what each pays, what a whole round
  adds up to, and what the owner is handed; and that a device may wait on its barrier cell while it still owes its
  three copies, because receive cells sit above barrier cells.
-/
import proofs.«900951_g7700000000000952_dist_mean_ax0_shard0_i_m4096_n1024_v7x_i4_bf16_1_alg».proof.Proof.CommonK

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The seven semaphores are pairwise distinct -/

omit [FloatOps F] in
theorem csem_inj : ∀ i j : Fin 7, csem i = csem j → i = j := by decide

omit [FloatOps F] in
theorem csem_ne {i j : Fin 7} (h : i ≠ j) : csem i ≠ csem j := fun e => h (csem_inj i j e)

/-! ## Every payload can be stored in an invariant -/

omit [FloatOps F] in
instance barPay_storable (c : Dev nD) (d : Fin 3) : BI.Storable (upEmb : UEmb _ 𝕄) (barPay (F := F) c d) := by
  match d with
  | 0 => unfold barPay scrOn; infer_instance
  | 1 => unfold barPay scrOn; infer_instance
  | 2 => unfold barPay scrOn; infer_instance

instance payAt_storable (c : Dev nD) (k : Fin 7) (d : Fin 3) : BI.Storable (upEmb : UEmb _ 𝕄) (payAt (F := F) m c k d) := by
  match k with
  | 0 => exact barPay_storable c d
  | 1 => unfold payAt scrOn; infer_instance
  | 2 => unfold payAt scrOn; infer_instance
  | 3 => unfold payAt scrOn; infer_instance
  | 4 => unfold payAt landed1 scrOn; infer_instance
  | 5 => unfold payAt landed2 scrOn; infer_instance
  | 6 => unfold payAt landed3 scrOn; infer_instance

instance sched_payload_storable (g : GSem nD τ sig) (r : ℕ) (d : Fin 3) :
    BI.Storable (upEmb : UEmb _ 𝕄) ((sched (F := F) m).payload g r d) := by
  dsimp only [sched]
  (repeat' split) <;> infer_instance

section Sched
variable (c : Dev nD)

theorem duties_bar : (sched (F := F) m).duties (cellAt c 0) 0 = Finset.univ := by
  dsimp only [sched]; exact if_pos ⟨rfl, rfl, rfl⟩
theorem duties_xfer (k : Fin 7) (hk : k ≠ 0) : (sched (F := F) m).duties (cellAt c k) 0 = {0} := by
  dsimp only [sched]
  rw [if_neg (fun h => hk (csem_inj k 0 h.2.2))]
  exact if_pos ⟨rfl, rfl, k, hk, rfl⟩
theorem duties_later (g : GSem nD τ sig) : ∀ r, 1 ≤ r → (sched (F := F) m).duties g r = ∅ := by
  intro r hr
  dsimp only [sched]
  rw [if_neg (fun h => by omega), if_neg (fun h => by omega)]
theorem amount_bar (d : Fin 3) : (sched (F := F) m).amount (cellAt c 0) 0 d = 1 := by
  dsimp only [sched]; exact if_pos rfl
theorem amount_xfer (k : Fin 7) (hk : k ≠ 0) (d : Fin 3) : (sched (F := F) m).amount (cellAt c k) 0 d = N := by
  dsimp only [sched]; exact if_neg (csem_ne hk)
theorem expect_bar : (sched (F := F) m).expect (cellAt c 0) 0 = 3 := by
  unfold Schedule.expect Schedule.amountOf
  rw [duties_bar, Finset.sum_congr rfl fun d _ => amount_bar m c d, Finset.sum_const, Finset.card_univ, Fintype.card_fin, smul_eq_mul]
theorem expect_xfer (k : Fin 7) (hk : k ≠ 0) : (sched (F := F) m).expect (cellAt c k) 0 = N := by
  unfold Schedule.expect Schedule.amountOf
  rw [duties_xfer m c k hk, Finset.sum_singleton, amount_xfer m c k hk]
theorem payload_at (k : Fin 7) (d : Fin 3) : (sched (F := F) m).payload (cellAt c k) 0 d = payAt m c k d := by
  match k with
  | 0 => dsimp only [sched]; exact if_pos rfl
  | 1 => dsimp only [sched]; rw [if_neg (csem_ne (by decide)), if_pos rfl]
  | 2 => dsimp only [sched]; rw [if_neg (csem_ne (by decide)), if_neg (csem_ne (by decide)), if_pos rfl]
  | 3 => dsimp only [sched]; rw [if_neg (csem_ne (by decide)), if_neg (csem_ne (by decide)), if_neg (csem_ne (by decide)), if_pos rfl]
  | 4 =>
    dsimp only [sched]
    rw [if_neg (csem_ne (by decide)), if_neg (csem_ne (by decide)), if_neg (csem_ne (by decide)), if_neg (csem_ne (by decide)), if_pos rfl]
  | 5 =>
    dsimp only [sched]
    rw [if_neg (csem_ne (by decide)), if_neg (csem_ne (by decide)), if_neg (csem_ne (by decide)), if_neg (csem_ne (by decide)),
      if_neg (csem_ne (by decide)), if_pos rfl]
  | 6 =>
    dsimp only [sched]
    rw [if_neg (csem_ne (by decide)), if_neg (csem_ne (by decide)), if_neg (csem_ne (by decide)), if_neg (csem_ne (by decide)),
      if_neg (csem_ne (by decide)), if_neg (csem_ne (by decide)), if_pos rfl]
/-- The whole round of the barrier cell, nothing taken yet: the three peers' payloads. -/
theorem rest_bar : bigSep ((sched (F := F) m).duties (cellAt c 0) 0 \ ∅) (fun d => (sched (F := F) m).payload (cellAt c 0) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_at, payload_at, payload_at]
  rfl
/-- The whole round of a send or receive cell: its one payload. -/
theorem rest_xfer (k : Fin 7) (hk : k ≠ 0) : bigSep ((sched (F := F) m).duties (cellAt c k) 0 \ ∅) (fun d => (sched (F := F) m).payload (cellAt c k) 0 d)
    = payAt m c k 0 := by
  rw [Finset.sdiff_empty, duties_xfer m c k hk, bigSep_singleton, payload_at]

/-- What device `c` still owes when it waits on its barrier cell: the three copies. -/
def O₃ (c : Dev nD) : CellTallies nD τ sig Unit :=
  tallyAt (cellAt (fwd 3 c) 4) () N + tallyAt (cellAt (fwd 1 c) 6) () N + tallyAt (cellAt (fwd 2 c) 5) () N

omit [FloatOps F] in
/-- Every cell of a device carries the one level index. -/
theorem L_dev (d : Dev nD) (s : SemLoc sig) : L ((d : Thread nD τ), s) = {()} := if_pos rfl

omit [FloatOps F] in
/-- A barrier cell sits at level 1. -/
theorem lv_bar (d : Dev nD) (u : Unit) : lv (cellAt d 0) u = 1 := if_pos rfl

omit [FloatOps F] in
/-- A receive cell sits at level 2. -/
theorem lv_recv (d : Dev nD) (k : Fin 7) (hk : k = 4 ∨ k = 5 ∨ k = 6) (u : Unit) : lv (cellAt d k) u = 2 := by
  have h0 : k ≠ 0 := by rcases hk with rfl | rfl | rfl <;> decide
  unfold lv
  rw [if_neg (csem_ne h0)]
  exact if_pos (by rcases hk with rfl | rfl | rfl; exacts [.inl rfl, .inr (.inl rfl), .inr (.inr rfl)])

omit [FloatOps F] in
/-- Away from the three receive cells the copies land on, nothing is owed at the barrier wait. -/
theorem O₃_off {g : GSem nD τ sig} (h4 : g ≠ cellAt (fwd 3 c) 4) (h6 : g ≠ cellAt (fwd 1 c) 6) (h5 : g ≠ cellAt (fwd 2 c) 5) (u : Unit) :
    O₃ c g u = 0 := by
  unfold O₃
  rw [Pi.add_apply, Pi.add_apply, tallyAt_ne_cell h4, tallyAt_ne_cell h6, tallyAt_ne_cell h5]
  rfl

omit [FloatOps F] in
/-- So a cell at which something is owed is one of those three. -/
theorem O₃_on {g : GSem nD τ sig} {u : Unit} (h : 0 < O₃ c g u) :
    g = cellAt (fwd 3 c) 4 ∨ g = cellAt (fwd 1 c) 6 ∨ g = cellAt (fwd 2 c) 5 := by
  by_cases h4 : g = cellAt (fwd 3 c) 4
  · exact .inl h4
  by_cases h6 : g = cellAt (fwd 1 c) 6
  · exact .inr (.inl h6)
  by_cases h5 : g = cellAt (fwd 2 c) 5
  · exact .inr (.inr h5)
  rw [O₃_off c h4 h6 h5 u] at h
  exact absurd h (Nat.lt_irrefl 0)

theorem mayWait_bar : (levAts L lv : sProp 𝕄) ⊢ MayWait (c : Thread nD τ) (csem 0) () (O₃ c) := by
  refine MayOwe.of_cut (L := L) (lev := lv) 1 ?_ ?_ ?_ ?_
  · intro p hp
    rw [Finset.mem_singleton.mp hp, L_dev]
    exact Finset.mem_singleton_self _
  · intro g u hg
    rcases O₃_on c hg with rfl | rfl | rfl <;> (rw [L_dev]; exact Finset.mem_singleton_self _)
  · intro p hp
    rw [Finset.mem_singleton.mp hp]
    exact le_of_eq (lv_bar c ())
  · intro g u hg
    rcases O₃_on c hg with rfl | rfl | rfl
    · rw [lv_recv _ 4 (.inl rfl)]; decide
    · rw [lv_recv _ 6 (.inr (.inr rfl))]; decide
    · rw [lv_recv _ 5 (.inr (.inl rfl))]; decide

end Sched

end Cert.Kernel.Coll

end
-- ==== Proof.ViewsK.lean ====
/-
  The four rows of the scratch array as sets of its elements: they are disjoint and together are the whole array; a load
  or store of a row touches only that row; the row a device stores reads back as its partial sums; and a row copied from
  one device's row 0 to a landing row of another reads back there as it read at the source.
-/
import proofs.«900951_g7700000000000952_dist_mean_ax0_shard0_i_m4096_n1024_v7x_i4_bf16_1_alg».proof.Proof.CommonK

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The rows as element sets -/

/-- The elements of row `k` are the elements of its rectangle: dropping the unit axis keeps the element set. -/
theorem R0_eq : (R0) = row0.set := (View.set_reshape _ _).trans (View.set_slice_whole cc0_scratch0 row0)
theorem R1_eq : (R1) = row1.set := (View.set_reshape _ _).trans (View.set_slice_whole cc0_scratch0 row1)
theorem R2_eq : (R2) = row2.set := (View.set_reshape _ _).trans (View.set_slice_whole cc0_scratch0 row2)
theorem R3_eq : (R3) = row3.set := (View.set_reshape _ _).trans (View.set_slice_whole cc0_scratch0 row3)

/-- An element lies in row `k` exactly when its first coordinate is `k`: the other two axes are kept whole. -/
theorem mem_rowk {k : ℕ} {inb} (i : S4x1x1024.Idx) :
    i ∈ (Rect.unit (s := S4x1x1024) ![k, 0, 0] S1x1x1024.size inb).set ↔ (i 0 : ℕ) = k := by
  rw [Rect.mem_set_unit]
  have h1 : (i 1 : ℕ) < 1 := (i 1).isLt
  have h2 : (i 2 : ℕ) < 1024 := (i 2).isLt
  constructor
  · intro h; have := h 0; simp at this; omega
  · intro h a; fin_cases a <;> simp <;> omega

theorem R01 : Disjoint (R0) (R1) := by
  rw [R0_eq, R1_eq]; exact Rect.unit_disjoint 0 (Or.inl (by decide))
theorem R02 : Disjoint (R0) (R2) := by
  rw [R0_eq, R2_eq]; exact Rect.unit_disjoint 0 (Or.inl (by decide))
theorem R03 : Disjoint (R0) (R3) := by
  rw [R0_eq, R3_eq]; exact Rect.unit_disjoint 0 (Or.inl (by decide))
theorem R12 : Disjoint (R1) (R2) := by
  rw [R1_eq, R2_eq]; exact Rect.unit_disjoint 0 (Or.inl (by decide))
theorem R13 : Disjoint (R1) (R3) := by
  rw [R1_eq, R3_eq]; exact Rect.unit_disjoint 0 (Or.inl (by decide))
theorem R23 : Disjoint (R2) (R3) := by
  rw [R2_eq, R3_eq]; exact Rect.unit_disjoint 0 (Or.inl (by decide))
/-- Taking rows 1, 2 and 3 off the whole array leaves row 0. -/
theorem R_rest : ((Finset.univ \ R1) \ R2) \ R3 = R0 := by
  rw [R0_eq, R1_eq, R2_eq, R3_eq]
  refine Finset.ext fun (i : S4x1x1024.Idx) => ?_
  have h0 : (i 0 : ℕ) < 4 := (i 0).isLt
  have e0 := mem_rowk (inb := inb_S4x1x1024_S1x1x1024_0_0_0) i
  have e1 := mem_rowk (inb := inb_S4x1x1024_S1x1x1024_1_0_0) i
  have e2 := mem_rowk (inb := inb_S4x1x1024_S1x1x1024_2_0_0) i
  have e3 := mem_rowk (inb := inb_S4x1x1024_S1x1x1024_3_0_0) i
  simp only [Finset.mem_sdiff, Finset.mem_univ, true_and]
  constructor
  · rintro ⟨⟨n1, n2⟩, n3⟩
    have := mt e1.mpr n1; have := mt e2.mpr n2; have := mt e3.mpr n3
    exact e0.mpr (by omega)
  · intro h
    have := e0.mp h
    exact ⟨⟨fun h' => by have := e1.mp h'; omega, fun h' => by have := e2.mp h'; omega⟩, fun h' => by have := e3.mp h'; omega⟩

/-! ## A load or store of a row touches only that row -/

theorem load_row0 : (aM : Memref sig .tc .vmem S4x1x1024 .f32).view.setOn row0.toLoadRect.set ⊆ R0 := by
  rw [R0_eq]; exact (Finset.map_refl (s := row0.toLoadRect.set)).le
theorem load_row1 : (aM : Memref sig .tc .vmem S4x1x1024 .f32).view.setOn row1.toLoadRect.set ⊆ R1 := by
  rw [R1_eq]; exact (Finset.map_refl (s := row1.toLoadRect.set)).le
theorem load_row2 : (aM : Memref sig .tc .vmem S4x1x1024 .f32).view.setOn row2.toLoadRect.set ⊆ R2 := by
  rw [R2_eq]; exact (Finset.map_refl (s := row2.toLoadRect.set)).le
theorem load_row3 : (aM : Memref sig .tc .vmem S4x1x1024 .f32).view.setOn row3.toLoadRect.set ⊆ R3 := by
  rw [R3_eq]; exact (Finset.map_refl (s := row3.toLoadRect.set)).le
theorem store_row0 : ((aM : Memref sig .tc .vmem S4x1x1024 .f32).access row0).setOn Finset.univ ⊆ R0 := by
  rw [R0_eq]; exact (View.set_slice_whole cc0_scratch0 row0).le

/-! ## Contents -/

section Reshape
variable {κ : Kind} {sp : Space} {s s' : Shape} {e : EltTy} {Val : EltTy → Type}

/-- Reading a view back after a write through a re-indexing of it gives the payload, re-indexed. -/
theorem read_write_reshape (v : View sig κ sp s e) (h : s'.numel = s.numel) (f : v.ty.Contents Val)
    (w : s'.Idx → Val e) :
    v.read Val ((v.reshape s' h).write Val f w Finset.univ) = fun x => w ((Shape.reshapeEquiv h).symm x) := by
  funext x
  have hx : v.emb x = (v.reshape s' h).emb ((Shape.reshapeEquiv h).symm x) := by
    simp only [View.emb_reshape, Function.Embedding.trans_apply, Equiv.coe_toEmbedding, Equiv.apply_symm_apply]
  rw [View.read_apply, hx, View.write_emb_of_mem _ _ (Finset.mem_univ _), cast_cast, cast_eq]

/-- A re-indexed view reads what the view reads at the matched index. -/
theorem read_reshape (v : View sig κ sp s e) (h : s'.numel = s.numel) (f : v.ty.Contents Val) (y : s'.Idx) :
    (v.reshape s' h).read Val f y = v.read Val f (Shape.reshapeEquiv h y) := rfl

end Reshape

/-- Row 0 of the array a device has stored its partial sums in reads back as those sums. -/
theorem read_scr0 (c : Dev nD) :
    (aM : Memref sig .tc .vmem S4x1x1024 .f32).view.readAt (Elt F) row0.toLoadRect (scr0 m c) = acc m c := by
  unfold scr0
  exact View.read_write_univ (v := (aM : Memref sig .tc .vmem S4x1x1024 .f32).access row0) _ _

/-- On row 0 the stored array does not depend on what the array held before. -/
theorem store_scr0 (c : Dev nD) (f0 : Buf (Elt F) ((c : Thread nD τ).loc cc0_scratch0)) :
    ∀ i ∈ R0, ((aM : Memref sig .tc .vmem S4x1x1024 .f32).access row0).write (Elt F) f0 (acc m c) Finset.univ i = scr0 m c i := by
  intro i hi
  have hi' : i ∈ ((aM : Memref sig .tc .vmem S4x1x1024 .f32).access row0).setOn Finset.univ := by
    rw [R0_eq, ← View.set_slice_whole cc0_scratch0 row0] at hi; exact hi
  unfold scr0
  exact View.write_congr (fun _ _ _ => rfl) (fun hn => absurd hi' hn)

/-- A copy of row 0 of `fs` onto row `k` of `fd`: row `k` of the result reads as row 0 of `fs` read. -/
theorem land1 (c c' : Dev nD) (fd : Buf (Elt F) ((c' : Thread nD τ).loc cc0_scratch0)) (fs : Buf (Elt F) ((c : Thread nD τ).loc cc0_scratch0)) :
    (aM : Memref sig .tc .vmem S4x1x1024 .f32).view.readAt (Elt F) row1.toLoadRect
        ((rowM1 : Memref sig .tc .vmem S1x1024 .f32).view.write (Elt F) fd ((rowM0 : Memref sig .tc .vmem S1x1024 .f32).view.read (Elt F) fs) Finset.univ)
      = (aM : Memref sig .tc .vmem S4x1x1024 .f32).view.readAt (Elt F) row0.toLoadRect fs := by
  refine (read_write_reshape (Val := Elt F) ((aM : Memref sig .tc .vmem S4x1x1024 .f32).view.slice row1)
    squeezes_S1x1x1024_S1x1024.numel_eq fd ((rowM0 : Memref sig .tc .vmem S1x1024 .f32).view.read (Elt F) fs)).trans ?_
  funext x
  exact (read_reshape ((aM : Memref sig .tc .vmem S4x1x1024 .f32).view.slice row0) squeezes_S1x1x1024_S1x1024.numel_eq fs _).trans
    (congrArg _ (Equiv.apply_symm_apply _ x))
theorem land2 (c c' : Dev nD) (fd : Buf (Elt F) ((c' : Thread nD τ).loc cc0_scratch0)) (fs : Buf (Elt F) ((c : Thread nD τ).loc cc0_scratch0)) :
    (aM : Memref sig .tc .vmem S4x1x1024 .f32).view.readAt (Elt F) row2.toLoadRect
        ((rowM2 : Memref sig .tc .vmem S1x1024 .f32).view.write (Elt F) fd ((rowM0 : Memref sig .tc .vmem S1x1024 .f32).view.read (Elt F) fs) Finset.univ)
      = (aM : Memref sig .tc .vmem S4x1x1024 .f32).view.readAt (Elt F) row0.toLoadRect fs := by
  refine (read_write_reshape (Val := Elt F) ((aM : Memref sig .tc .vmem S4x1x1024 .f32).view.slice row2)
    squeezes_S1x1x1024_S1x1024.numel_eq fd ((rowM0 : Memref sig .tc .vmem S1x1024 .f32).view.read (Elt F) fs)).trans ?_
  funext x
  exact (read_reshape ((aM : Memref sig .tc .vmem S4x1x1024 .f32).view.slice row0) squeezes_S1x1x1024_S1x1024.numel_eq fs _).trans
    (congrArg _ (Equiv.apply_symm_apply _ x))
theorem land3 (c c' : Dev nD) (fd : Buf (Elt F) ((c' : Thread nD τ).loc cc0_scratch0)) (fs : Buf (Elt F) ((c : Thread nD τ).loc cc0_scratch0)) :
    (aM : Memref sig .tc .vmem S4x1x1024 .f32).view.readAt (Elt F) row3.toLoadRect
        ((rowM3 : Memref sig .tc .vmem S1x1024 .f32).view.write (Elt F) fd ((rowM0 : Memref sig .tc .vmem S1x1024 .f32).view.read (Elt F) fs) Finset.univ)
      = (aM : Memref sig .tc .vmem S4x1x1024 .f32).view.readAt (Elt F) row0.toLoadRect fs := by
  refine (read_write_reshape (Val := Elt F) ((aM : Memref sig .tc .vmem S4x1x1024 .f32).view.slice row3)
    squeezes_S1x1x1024_S1x1024.numel_eq fd ((rowM0 : Memref sig .tc .vmem S1x1024 .f32).view.read (Elt F) fs)).trans ?_
  funext x
  exact (read_reshape ((aM : Memref sig .tc .vmem S4x1x1024 .f32).view.slice row0) squeezes_S1x1x1024_S1x1024.numel_eq fs _).trans
    (congrArg _ (Equiv.apply_symm_apply _ x))

end Cert.Kernel.Coll

end
-- ==== Proof.BodyK.lean ====
/-
  One device's body, operation by operation.  The scratch array is cut into its four rows: rows 1, 2 and 3 go to the three
  peers with the barrier signals, as the landing rows of their copies; row 0 receives the device's partial sums, is lent
  in three quarter shares to the three copies out, and is read at the fourth.  After the barrier wait the device holds a
  landing row on each peer, the copies hand those rows on to their owners' receive cells, and each receive wait returns a
  row holding a peer's partial sums.  At the end the shares and rows are put together again and the cells are closed.
-/
import proofs.«900951_g7700000000000952_dist_mean_ax0_shard0_i_m4096_n1024_v7x_i4_bf16_1_alg».proof.Proof.CommonK
import proofs.«900951_g7700000000000952_dist_mean_ax0_shard0_i_m4096_n1024_v7x_i4_bf16_1_alg».proof.Proof.SchedK
import proofs.«900951_g7700000000000952_dist_mean_ax0_shard0_i_m4096_n1024_v7x_i4_bf16_1_alg».proof.Proof.ViewsK

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 7 → ℕ)

/-- What device `c` still owes after each of its first five payments. -/
def O₅ (c : Dev nD) : CellTallies nD τ sig Unit :=
  tallyAt (cellAt (fwd 3 c) 4) () N + tallyAt (cellAt (fwd 1 c) 6) () N + tallyAt (cellAt (fwd 2 c) 5) () N
    + tallyAt (barCell (fwd 3 c)) () 1 + tallyAt (barCell (fwd 2 c)) () 1
def O₄ (c : Dev nD) : CellTallies nD τ sig Unit :=
  tallyAt (cellAt (fwd 3 c) 4) () N + tallyAt (cellAt (fwd 1 c) 6) () N + tallyAt (cellAt (fwd 2 c) 5) () N
    + tallyAt (barCell (fwd 3 c)) () 1
def O₂ (c : Dev nD) : CellTallies nD τ sig Unit := tallyAt (cellAt (fwd 3 c) 4) () N + tallyAt (cellAt (fwd 1 c) 6) () N
def O₁ (c : Dev nD) : CellTallies nD τ sig Unit := tallyAt (cellAt (fwd 3 c) 4) () N

def bodyPreK (c : Dev nD) : sProp 𝕄 :=
  iprop((ghost m K c ∗ cred (tallyAt (cellAt c 0) () 3) ∗ cred (tallyAt (cellAt c 4) () N) ∗ cred (tallyAt (cellAt c 5) () N)
      ∗ cred (tallyAt (cellAt c 6) () N) ∗ levAts L lv ∗ semVal (idleCell c) 0
      ∗ ∃ f : Buf (Elt F) ((c : Thread nD τ).loc cc0_scratch0), ((c : Thread nD τ).loc cc0_scratch0) ↦{fullShare} f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

theorem fetch_0 (t : Fin cfg0.N) : (cfg0.win (0 : Fin 2)).fetch t = true := by rw [fin_N t]; rfl

abbrev rx : Rect S4096x1024 := Rect.unit (s := S4096x1024) ![0, 0] S4096x1024.size inb_S4096x1024_S4096x1024_0_0
abbrev ro : Rect S1x1024 := Rect.unit (s := S1x1024) ![0, 0] S1x1024.size inb_S1x1024_S1x1024_0_0

theorem hz2 : (![0, 0] : Fin 2 → Nat) = fun _ => 0 := funext fun a => by fin_cases a <;> rfl
theorem read_x (f : (cc0_stg0_0 : Ref sig .tc).ty.Contents (Elt F)) : (xM : Memref sig .tc .vmem S4096x1024 .f32).view.readAt (Elt F) rx.toLoadRect f = f :=
  Memref.readAt_unit_zero (Elt F) cc0_stg0_0 hz2 _ f
theorem write_out (f w : (cc0_stg1_0 : Ref sig .tc).ty.Contents (Elt F)) :
    ((oM : Memref sig .tc .vmem S1x1024 .f32).access ro : View sig .tc _ _ _).write (Elt F) f w Finset.univ = w :=
  Memref.write_access_unit_zero_univ (Elt F) cc0_stg1_0 hz2 _ f w

theorem R2_sub : R2 ⊆ Finset.univ \ R1 := Finset.subset_sdiff.mpr ⟨Finset.subset_univ _, R12.symm⟩
theorem R3_sub : R3 ⊆ (Finset.univ \ R1) \ R2 :=
  Finset.subset_sdiff.mpr ⟨Finset.subset_sdiff.mpr ⟨Finset.subset_univ _, R13.symm⟩, R23.symm⟩

/-! ## The payloads at the cells this device pays and owns -/

theorem pay_bar1 (c : Dev nD) : (sched (F := F) m).payload (cellAt (fwd 1 c) 0) 0 2 = iprop((∃ f, scrOn c R1 fullShare f) ∗ reached ER (cellAt c 4) 0) := by
  rw [payload_at]
  show iprop((∃ f, scrOn (fwd 3 (fwd 1 c)) R1 fullShare f) ∗ reached ER (cellAt (fwd 3 (fwd 1 c)) 4) 0) = _
  rw [fwd31]
theorem pay_bar2 (c : Dev nD) : (sched (F := F) m).payload (cellAt (fwd 2 c) 0) 0 1 = iprop((∃ f, scrOn c R2 fullShare f) ∗ reached ER (cellAt c 5) 0) := by
  rw [payload_at]
  show iprop((∃ f, scrOn (fwd 2 (fwd 2 c)) R2 fullShare f) ∗ reached ER (cellAt (fwd 2 (fwd 2 c)) 5) 0) = _
  rw [fwd22]
theorem pay_bar3 (c : Dev nD) : (sched (F := F) m).payload (cellAt (fwd 3 c) 0) 0 0 = iprop((∃ f, scrOn c R3 fullShare f) ∗ reached ER (cellAt c 6) 0) := by
  rw [payload_at]
  show iprop((∃ f, scrOn (fwd 1 (fwd 3 c)) R3 fullShare f) ∗ reached ER (cellAt (fwd 1 (fwd 3 c)) 6) 0) = _
  rw [fwd13]
theorem pay_sendA (c : Dev nD) : (sched (F := F) m).payload (cellAt c 1) 0 0 = scrOn c R0 qA (scr0 m c) := by rw [payload_at]; rfl
theorem pay_sendB (c : Dev nD) : (sched (F := F) m).payload (cellAt c 2) 0 0 = scrOn c R0 qB (scr0 m c) := by rw [payload_at]; rfl
theorem pay_sendC (c : Dev nD) : (sched (F := F) m).payload (cellAt c 3) 0 0 = scrOn c R0 qC (scr0 m c) := by rw [payload_at]; rfl
theorem pay_recv1 (c : Dev nD) : (sched (F := F) m).payload (cellAt (fwd 3 c) 4) 0 0 = landed1 m (fwd 3 c) c := by
  rw [payload_at]; show landed1 m (fwd 3 c) (fwd 1 (fwd 3 c)) = _; rw [fwd13]
theorem pay_recv2 (c : Dev nD) : (sched (F := F) m).payload (cellAt (fwd 2 c) 5) 0 0 = landed2 m (fwd 2 c) c := by
  rw [payload_at]; show landed2 m (fwd 2 c) (fwd 2 (fwd 2 c)) = _; rw [fwd22]
theorem pay_recv3 (c : Dev nD) : (sched (F := F) m).payload (cellAt (fwd 1 c) 6) 0 0 = landed3 m (fwd 1 c) c := by
  rw [payload_at]; show landed3 m (fwd 1 c) (fwd 3 (fwd 1 c)) = _; rw [fwd31]

/-! ## The three copies -/

theorem amtB : (rowM2 : Memref sig .tc .vmem S1x1024 .f32).view.amount (.dma rv2) = N := rfl
theorem hOB (c : Dev nD) : O₃ c = O₂ c + tallyAt (cellAt (fwd 2 c) 5) () N := rfl
theorem paySrcB (c : Dev nD) :
    ((rowM0 : Memref sig .tc .vmem S1x1024 .f32).view.loc (c : Thread nD τ) ↦[(rowM0 : Memref sig .tc .vmem S1x1024 .f32).view.set]{qB} scr0 m c : sProp 𝕄)
      ⊢ (sched m).payload (cellAt c 2) 0 0 := Entails.of_eq (pay_sendB m c).symm
theorem payDstB (c : Dev nD) (fd : Buf (Elt F) ((rowM2 : Memref sig .tc .vmem S1x1024 .f32).view.loc (Dev.tc (fwd 2 c) : Thread nD τ))) :
    ((rowM2 : Memref sig .tc .vmem S1x1024 .f32).view.loc (Dev.tc (fwd 2 c) : Thread nD τ) ↦[(rowM2 : Memref sig .tc .vmem S1x1024 .f32).view.set]{fullShare}
        ((rowM2 : Memref sig .tc .vmem S1x1024 .f32).view.write (Elt F) fd ((rowM0 : Memref sig .tc .vmem S1x1024 .f32).view.read (Elt F) (scr0 m c)) Finset.univ) : sProp 𝕄)
      ⊢ (sched m).payload (cellAt (fwd 2 c) 5) 0 0 := by
  refine BIBase.Entails.trans ?_ (Entails.of_eq (pay_recv2 m c).symm)
  unfold landed2 scrOn
  iintro H; iexists _
  isplitr; · ipureintro; rw [land2 c (fwd 2 c) fd (scr0 m c), read_scr0]
  iexact H

/-- The copy of row 0 to the device 2 places on, into its row 2: the rule for an addressed copy at this program's cells. -/
theorem wp_sendB (c : Dev nD)
    {hsc : (rowM2 : Memref sig (Dev.tc (fwd 2 c) : Thread nD τ).2.kind .vmem S1x1024 .f32).view.ref.isScScratch = false}
    {hsrc : (rowM0 : Memref sig .tc .vmem S1x1024 .f32).view.WordExact} {hdst : (rowM2 : Memref sig .tc .vmem S1x1024 .f32).view.WordExact}
    {hsem : DmaTarget.Typed .vmem (.dma rv2) (.remote (Dev.tc (fwd 2 c) : Thread nD τ) (rowM2 : Memref sig .tc .vmem S1x1024 .f32) (.dma sd1) hsc)}
    {α : Type} {Q : α → sProp 𝕄} {k : PUnit → Prog (TpuEff nD τ sig (Elt F) Λ₀ .tc) α}
    (fd : Buf (Elt F) ((rowM2 : Memref sig .tc .vmem S1x1024 .f32).view.loc (Dev.tc (fwd 2 c) : Thread nD τ))) (W : Waits sig Unit) :
    iprop(cellInv ER (sched m) (K (c, 2)) (cellAt c 2) ∗ cellInv ER (sched m) (K (fwd 2 c, 5)) (cellAt (fwd 2 c) 5)
        ∗ ((rowM0 : Memref sig .tc .vmem S1x1024 .f32).view.loc (c : Thread nD τ) ↦[(rowM0 : Memref sig .tc .vmem S1x1024 .f32).view.set]{qB} scr0 m c)
        ∗ ((rowM2 : Memref sig .tc .vmem S1x1024 .f32).view.loc (Dev.tc (fwd 2 c) : Thread nD τ) ↦[(rowM2 : Memref sig .tc .vmem S1x1024 .f32).view.set]{fullShare} fd)
        ∗ owes (c : Thread nD τ) (O₃ c) W
        ∗ dutyTok ER (cellAt c 2) 0 0 ∗ reached ER (cellAt c 2) 0
        ∗ dutyTok ER (cellAt (fwd 2 c) 5) 0 0 ∗ reached ER (cellAt (fwd 2 c) 5) 0)
      ⊢ iprop(((cred (tallyAt (cellAt c 2) () N) ∗ owes (c : Thread nD τ) (O₂ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rowM0 (.remote (Dev.tc (fwd 2 c) : Thread nD τ) rowM2 (.dma sd1) hsc) (.dma rv2) hsrc hdst hsem) k) Q) :=
  Rounds.wp_send_pointsTo 𝒱₀ ER (sched m) (c : Thread nD τ) none (c' := (Dev.tc (fwd 2 c) : Thread nD τ)) (src := rowM0) (dst := rowM2) (hsc := hsc)
    (sS := .dma sd1) (sem := .dma rv2) (hsrc := hsrc) (hdst := hdst) (hsem := hsem) (k := k) (q := qB) (fs := scr0 m c) (fd := fd) (Q := Q)
    (κ₁ := K (c, 2)) (κ₂ := K (fwd 2 c, 5)) (r₁ := 0) (r₂ := 0) (d₁ := 0) (d₂ := 0)
    (by rw [duties_xfer m c 2 (by decide)]; exact Finset.mem_singleton_self _)
    (by rw [duties_xfer m (fwd 2 c) 5 (by decide)]; exact Finset.mem_singleton_self _)
    () () N amtB (amount_xfer m c 2 (by decide) 0) (amount_xfer m (fwd 2 c) 5 (by decide) 0) (O₂ c) (hOB c) (W := W)
    (paySrcB m c) (payDstB m c fd)

theorem amtA : (rowM3 : Memref sig .tc .vmem S1x1024 .f32).view.amount (.dma rv3) = N := rfl
theorem hOA (c : Dev nD) : O₂ c = O₁ c + tallyAt (cellAt (fwd 1 c) 6) () N := rfl
theorem paySrcA (c : Dev nD) :
    ((rowM0 : Memref sig .tc .vmem S1x1024 .f32).view.loc (c : Thread nD τ) ↦[(rowM0 : Memref sig .tc .vmem S1x1024 .f32).view.set]{qA} scr0 m c : sProp 𝕄)
      ⊢ (sched m).payload (cellAt c 1) 0 0 := Entails.of_eq (pay_sendA m c).symm
theorem payDstA (c : Dev nD) (fd : Buf (Elt F) ((rowM3 : Memref sig .tc .vmem S1x1024 .f32).view.loc (Dev.tc (fwd 1 c) : Thread nD τ))) :
    ((rowM3 : Memref sig .tc .vmem S1x1024 .f32).view.loc (Dev.tc (fwd 1 c) : Thread nD τ) ↦[(rowM3 : Memref sig .tc .vmem S1x1024 .f32).view.set]{fullShare}
        ((rowM3 : Memref sig .tc .vmem S1x1024 .f32).view.write (Elt F) fd ((rowM0 : Memref sig .tc .vmem S1x1024 .f32).view.read (Elt F) (scr0 m c)) Finset.univ) : sProp 𝕄)
      ⊢ (sched m).payload (cellAt (fwd 1 c) 6) 0 0 := by
  refine BIBase.Entails.trans ?_ (Entails.of_eq (pay_recv3 m c).symm)
  unfold landed3 scrOn
  iintro H; iexists _
  isplitr; · ipureintro; rw [land3 c (fwd 1 c) fd (scr0 m c), read_scr0]
  iexact H

/-- The copy of row 0 to the device 1 place on, into its row 3: the rule for an addressed copy at this program's cells. -/
theorem wp_sendA (c : Dev nD)
    {hsc : (rowM3 : Memref sig (Dev.tc (fwd 1 c) : Thread nD τ).2.kind .vmem S1x1024 .f32).view.ref.isScScratch = false}
    {hsrc : (rowM0 : Memref sig .tc .vmem S1x1024 .f32).view.WordExact} {hdst : (rowM3 : Memref sig .tc .vmem S1x1024 .f32).view.WordExact}
    {hsem : DmaTarget.Typed .vmem (.dma rv3) (.remote (Dev.tc (fwd 1 c) : Thread nD τ) (rowM3 : Memref sig .tc .vmem S1x1024 .f32) (.dma sd0) hsc)}
    {α : Type} {Q : α → sProp 𝕄} {k : PUnit → Prog (TpuEff nD τ sig (Elt F) Λ₀ .tc) α}
    (fd : Buf (Elt F) ((rowM3 : Memref sig .tc .vmem S1x1024 .f32).view.loc (Dev.tc (fwd 1 c) : Thread nD τ))) (W : Waits sig Unit) :
    iprop(cellInv ER (sched m) (K (c, 1)) (cellAt c 1) ∗ cellInv ER (sched m) (K (fwd 1 c, 6)) (cellAt (fwd 1 c) 6)
        ∗ ((rowM0 : Memref sig .tc .vmem S1x1024 .f32).view.loc (c : Thread nD τ) ↦[(rowM0 : Memref sig .tc .vmem S1x1024 .f32).view.set]{qA} scr0 m c)
        ∗ ((rowM3 : Memref sig .tc .vmem S1x1024 .f32).view.loc (Dev.tc (fwd 1 c) : Thread nD τ) ↦[(rowM3 : Memref sig .tc .vmem S1x1024 .f32).view.set]{fullShare} fd)
        ∗ owes (c : Thread nD τ) (O₂ c) W
        ∗ dutyTok ER (cellAt c 1) 0 0 ∗ reached ER (cellAt c 1) 0
        ∗ dutyTok ER (cellAt (fwd 1 c) 6) 0 0 ∗ reached ER (cellAt (fwd 1 c) 6) 0)
      ⊢ iprop(((cred (tallyAt (cellAt c 1) () N) ∗ owes (c : Thread nD τ) (O₁ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rowM0 (.remote (Dev.tc (fwd 1 c) : Thread nD τ) rowM3 (.dma sd0) hsc) (.dma rv3) hsrc hdst hsem) k) Q) :=
  Rounds.wp_send_pointsTo 𝒱₀ ER (sched m) (c : Thread nD τ) none (c' := (Dev.tc (fwd 1 c) : Thread nD τ)) (src := rowM0) (dst := rowM3) (hsc := hsc)
    (sS := .dma sd0) (sem := .dma rv3) (hsrc := hsrc) (hdst := hdst) (hsem := hsem) (k := k) (q := qA) (fs := scr0 m c) (fd := fd) (Q := Q)
    (κ₁ := K (c, 1)) (κ₂ := K (fwd 1 c, 6)) (r₁ := 0) (r₂ := 0) (d₁ := 0) (d₂ := 0)
    (by rw [duties_xfer m c 1 (by decide)]; exact Finset.mem_singleton_self _)
    (by rw [duties_xfer m (fwd 1 c) 6 (by decide)]; exact Finset.mem_singleton_self _)
    () () N amtA (amount_xfer m c 1 (by decide) 0) (amount_xfer m (fwd 1 c) 6 (by decide) 0) (O₁ c) (hOA c) (W := W)
    (paySrcA m c) (payDstA m c fd)

theorem amtC : (rowM1 : Memref sig .tc .vmem S1x1024 .f32).view.amount (.dma rv1) = N := rfl
theorem hOC (c : Dev nD) : O₁ c = 0 + tallyAt (cellAt (fwd 3 c) 4) () N := by unfold O₁; rw [zero_add]
theorem paySrcC (c : Dev nD) :
    ((rowM0 : Memref sig .tc .vmem S1x1024 .f32).view.loc (c : Thread nD τ) ↦[(rowM0 : Memref sig .tc .vmem S1x1024 .f32).view.set]{qC} scr0 m c : sProp 𝕄)
      ⊢ (sched m).payload (cellAt c 3) 0 0 := Entails.of_eq (pay_sendC m c).symm
theorem payDstC (c : Dev nD) (fd : Buf (Elt F) ((rowM1 : Memref sig .tc .vmem S1x1024 .f32).view.loc (Dev.tc (fwd 3 c) : Thread nD τ))) :
    ((rowM1 : Memref sig .tc .vmem S1x1024 .f32).view.loc (Dev.tc (fwd 3 c) : Thread nD τ) ↦[(rowM1 : Memref sig .tc .vmem S1x1024 .f32).view.set]{fullShare}
        ((rowM1 : Memref sig .tc .vmem S1x1024 .f32).view.write (Elt F) fd ((rowM0 : Memref sig .tc .vmem S1x1024 .f32).view.read (Elt F) (scr0 m c)) Finset.univ) : sProp 𝕄)
      ⊢ (sched m).payload (cellAt (fwd 3 c) 4) 0 0 := by
  refine BIBase.Entails.trans ?_ (Entails.of_eq (pay_recv1 m c).symm)
  unfold landed1 scrOn
  iintro H; iexists _
  isplitr; · ipureintro; rw [land1 c (fwd 3 c) fd (scr0 m c), read_scr0]
  iexact H

/-- The copy of row 0 to the device 3 places on, into its row 1: the rule for an addressed copy at this program's cells. -/
theorem wp_sendC (c : Dev nD)
    {hsc : (rowM1 : Memref sig (Dev.tc (fwd 3 c) : Thread nD τ).2.kind .vmem S1x1024 .f32).view.ref.isScScratch = false}
    {hsrc : (rowM0 : Memref sig .tc .vmem S1x1024 .f32).view.WordExact} {hdst : (rowM1 : Memref sig .tc .vmem S1x1024 .f32).view.WordExact}
    {hsem : DmaTarget.Typed .vmem (.dma rv1) (.remote (Dev.tc (fwd 3 c) : Thread nD τ) (rowM1 : Memref sig .tc .vmem S1x1024 .f32) (.dma sd2) hsc)}
    {α : Type} {Q : α → sProp 𝕄} {k : PUnit → Prog (TpuEff nD τ sig (Elt F) Λ₀ .tc) α}
    (fd : Buf (Elt F) ((rowM1 : Memref sig .tc .vmem S1x1024 .f32).view.loc (Dev.tc (fwd 3 c) : Thread nD τ))) (W : Waits sig Unit) :
    iprop(cellInv ER (sched m) (K (c, 3)) (cellAt c 3) ∗ cellInv ER (sched m) (K (fwd 3 c, 4)) (cellAt (fwd 3 c) 4)
        ∗ ((rowM0 : Memref sig .tc .vmem S1x1024 .f32).view.loc (c : Thread nD τ) ↦[(rowM0 : Memref sig .tc .vmem S1x1024 .f32).view.set]{qC} scr0 m c)
        ∗ ((rowM1 : Memref sig .tc .vmem S1x1024 .f32).view.loc (Dev.tc (fwd 3 c) : Thread nD τ) ↦[(rowM1 : Memref sig .tc .vmem S1x1024 .f32).view.set]{fullShare} fd)
        ∗ owes (c : Thread nD τ) (O₁ c) W
        ∗ dutyTok ER (cellAt c 3) 0 0 ∗ reached ER (cellAt c 3) 0
        ∗ dutyTok ER (cellAt (fwd 3 c) 4) 0 0 ∗ reached ER (cellAt (fwd 3 c) 4) 0)
      ⊢ iprop(((cred (tallyAt (cellAt c 3) () N) ∗ owes (c : Thread nD τ) (0) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rowM0 (.remote (Dev.tc (fwd 3 c) : Thread nD τ) rowM1 (.dma sd2) hsc) (.dma rv1) hsrc hdst hsem) k) Q) :=
  Rounds.wp_send_pointsTo 𝒱₀ ER (sched m) (c : Thread nD τ) none (c' := (Dev.tc (fwd 3 c) : Thread nD τ)) (src := rowM0) (dst := rowM1) (hsc := hsc)
    (sS := .dma sd2) (sem := .dma rv1) (hsrc := hsrc) (hdst := hdst) (hsem := hsem) (k := k) (q := qC) (fs := scr0 m c) (fd := fd) (Q := Q)
    (κ₁ := K (c, 3)) (κ₂ := K (fwd 3 c, 4)) (r₁ := 0) (r₂ := 0) (d₁ := 0) (d₂ := 0)
    (by rw [duties_xfer m c 3 (by decide)]; exact Finset.mem_singleton_self _)
    (by rw [duties_xfer m (fwd 3 c) 4 (by decide)]; exact Finset.mem_singleton_self _)
    () () N amtC (amount_xfer m c 3 (by decide) 0) (amount_xfer m (fwd 3 c) 4 (by decide) 0) (0) (hOC c) (W := W)
    (paySrcC m c) (payDstC m c fd)

/-- The same, the addressed device given by the printed chain that computes it. -/
theorem wp_sendB_at (c n : Dev nD) (hn : n = fwd 2 c)
    {hsc : (rowM2 : Memref sig (Dev.tc n : Thread nD τ).2.kind .vmem S1x1024 .f32).view.ref.isScScratch = false}
    {hsrc : (rowM0 : Memref sig .tc .vmem S1x1024 .f32).view.WordExact} {hdst : (rowM2 : Memref sig .tc .vmem S1x1024 .f32).view.WordExact}
    {hsem : DmaTarget.Typed .vmem (.dma rv2) (.remote (Dev.tc n : Thread nD τ) (rowM2 : Memref sig .tc .vmem S1x1024 .f32) (.dma sd1) hsc)}
    {α : Type} {Q : α → sProp 𝕄} {k : PUnit → Prog (TpuEff nD τ sig (Elt F) Λ₀ .tc) α}
    (fd : Buf (Elt F) ((rowM2 : Memref sig .tc .vmem S1x1024 .f32).view.loc (Dev.tc (fwd 2 c) : Thread nD τ))) (W : Waits sig Unit) :
    iprop(cellInv ER (sched m) (K (c, 2)) (cellAt c 2) ∗ cellInv ER (sched m) (K (fwd 2 c, 5)) (cellAt (fwd 2 c) 5)
        ∗ ((rowM0 : Memref sig .tc .vmem S1x1024 .f32).view.loc (c : Thread nD τ) ↦[(rowM0 : Memref sig .tc .vmem S1x1024 .f32).view.set]{qB} scr0 m c)
        ∗ ((rowM2 : Memref sig .tc .vmem S1x1024 .f32).view.loc (Dev.tc (fwd 2 c) : Thread nD τ) ↦[(rowM2 : Memref sig .tc .vmem S1x1024 .f32).view.set]{fullShare} fd)
        ∗ owes (c : Thread nD τ) (O₃ c) W
        ∗ dutyTok ER (cellAt c 2) 0 0 ∗ reached ER (cellAt c 2) 0
        ∗ dutyTok ER (cellAt (fwd 2 c) 5) 0 0 ∗ reached ER (cellAt (fwd 2 c) 5) 0)
      ⊢ iprop(((cred (tallyAt (cellAt c 2) () N) ∗ owes (c : Thread nD τ) (O₂ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rowM0 (.remote (Dev.tc n : Thread nD τ) rowM2 (.dma sd1) hsc) (.dma rv2) hsrc hdst hsem) k) Q) := by
  subst hn
  exact wp_sendB m K c fd W

/-- The same, the addressed device given by the printed chain that computes it. -/
theorem wp_sendA_at (c n : Dev nD) (hn : n = fwd 1 c)
    {hsc : (rowM3 : Memref sig (Dev.tc n : Thread nD τ).2.kind .vmem S1x1024 .f32).view.ref.isScScratch = false}
    {hsrc : (rowM0 : Memref sig .tc .vmem S1x1024 .f32).view.WordExact} {hdst : (rowM3 : Memref sig .tc .vmem S1x1024 .f32).view.WordExact}
    {hsem : DmaTarget.Typed .vmem (.dma rv3) (.remote (Dev.tc n : Thread nD τ) (rowM3 : Memref sig .tc .vmem S1x1024 .f32) (.dma sd0) hsc)}
    {α : Type} {Q : α → sProp 𝕄} {k : PUnit → Prog (TpuEff nD τ sig (Elt F) Λ₀ .tc) α}
    (fd : Buf (Elt F) ((rowM3 : Memref sig .tc .vmem S1x1024 .f32).view.loc (Dev.tc (fwd 1 c) : Thread nD τ))) (W : Waits sig Unit) :
    iprop(cellInv ER (sched m) (K (c, 1)) (cellAt c 1) ∗ cellInv ER (sched m) (K (fwd 1 c, 6)) (cellAt (fwd 1 c) 6)
        ∗ ((rowM0 : Memref sig .tc .vmem S1x1024 .f32).view.loc (c : Thread nD τ) ↦[(rowM0 : Memref sig .tc .vmem S1x1024 .f32).view.set]{qA} scr0 m c)
        ∗ ((rowM3 : Memref sig .tc .vmem S1x1024 .f32).view.loc (Dev.tc (fwd 1 c) : Thread nD τ) ↦[(rowM3 : Memref sig .tc .vmem S1x1024 .f32).view.set]{fullShare} fd)
        ∗ owes (c : Thread nD τ) (O₂ c) W
        ∗ dutyTok ER (cellAt c 1) 0 0 ∗ reached ER (cellAt c 1) 0
        ∗ dutyTok ER (cellAt (fwd 1 c) 6) 0 0 ∗ reached ER (cellAt (fwd 1 c) 6) 0)
      ⊢ iprop(((cred (tallyAt (cellAt c 1) () N) ∗ owes (c : Thread nD τ) (O₁ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rowM0 (.remote (Dev.tc n : Thread nD τ) rowM3 (.dma sd0) hsc) (.dma rv3) hsrc hdst hsem) k) Q) := by
  subst hn
  exact wp_sendA m K c fd W

/-- The same, the addressed device given by the printed chain that computes it. -/
theorem wp_sendC_at (c n : Dev nD) (hn : n = fwd 3 c)
    {hsc : (rowM1 : Memref sig (Dev.tc n : Thread nD τ).2.kind .vmem S1x1024 .f32).view.ref.isScScratch = false}
    {hsrc : (rowM0 : Memref sig .tc .vmem S1x1024 .f32).view.WordExact} {hdst : (rowM1 : Memref sig .tc .vmem S1x1024 .f32).view.WordExact}
    {hsem : DmaTarget.Typed .vmem (.dma rv1) (.remote (Dev.tc n : Thread nD τ) (rowM1 : Memref sig .tc .vmem S1x1024 .f32) (.dma sd2) hsc)}
    {α : Type} {Q : α → sProp 𝕄} {k : PUnit → Prog (TpuEff nD τ sig (Elt F) Λ₀ .tc) α}
    (fd : Buf (Elt F) ((rowM1 : Memref sig .tc .vmem S1x1024 .f32).view.loc (Dev.tc (fwd 3 c) : Thread nD τ))) (W : Waits sig Unit) :
    iprop(cellInv ER (sched m) (K (c, 3)) (cellAt c 3) ∗ cellInv ER (sched m) (K (fwd 3 c, 4)) (cellAt (fwd 3 c) 4)
        ∗ ((rowM0 : Memref sig .tc .vmem S1x1024 .f32).view.loc (c : Thread nD τ) ↦[(rowM0 : Memref sig .tc .vmem S1x1024 .f32).view.set]{qC} scr0 m c)
        ∗ ((rowM1 : Memref sig .tc .vmem S1x1024 .f32).view.loc (Dev.tc (fwd 3 c) : Thread nD τ) ↦[(rowM1 : Memref sig .tc .vmem S1x1024 .f32).view.set]{fullShare} fd)
        ∗ owes (c : Thread nD τ) (O₁ c) W
        ∗ dutyTok ER (cellAt c 3) 0 0 ∗ reached ER (cellAt c 3) 0
        ∗ dutyTok ER (cellAt (fwd 3 c) 4) 0 0 ∗ reached ER (cellAt (fwd 3 c) 4) 0)
      ⊢ iprop(((cred (tallyAt (cellAt c 3) () N) ∗ owes (c : Thread nD τ) (0) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rowM0 (.remote (Dev.tc n : Thread nD τ) rowM1 (.dma sd2) hsc) (.dma rv1) hsrc hdst hsem) k) Q) := by
  subst hn
  exact wp_sendC m K c fd W

/-! ## The barrier payloads spelt through the rows' views, as the stepping of the signals reads them -/

theorem payV_bar1 (c : Dev nD) : (sched (F := F) m).payload (cellAt (fwd 1 c) 0) 0 2
    = iprop((∃ f, ((rowM1 : Memref sig .tc .vmem S1x1024 .f32).view.loc (c : Thread nD τ) ↦[(rowM1 : Memref sig .tc .vmem S1x1024 .f32).view.set]{fullShare} f : sProp 𝕄)) ∗ reached ER (cellAt c 4) 0) := pay_bar1 m c
theorem payV_bar2 (c : Dev nD) : (sched (F := F) m).payload (cellAt (fwd 2 c) 0) 0 1
    = iprop((∃ f, ((rowM2 : Memref sig .tc .vmem S1x1024 .f32).view.loc (c : Thread nD τ) ↦[(rowM2 : Memref sig .tc .vmem S1x1024 .f32).view.set]{fullShare} f : sProp 𝕄)) ∗ reached ER (cellAt c 5) 0) := pay_bar2 m c
theorem payV_bar3 (c : Dev nD) : (sched (F := F) m).payload (cellAt (fwd 3 c) 0) 0 0
    = iprop((∃ f, ((rowM3 : Memref sig .tc .vmem S1x1024 .f32).view.loc (c : Thread nD τ) ↦[(rowM3 : Memref sig .tc .vmem S1x1024 .f32).view.set]{fullShare} f : sProp 𝕄)) ∗ reached ER (cellAt c 6) 0) := pay_bar3 m c

/-- The barrier cell's whole round as the three peers' payloads. -/
theorem bar_round (c : Dev nD) : bigSep (Finset.univ : Finset (Fin 3)) (fun d => (sched (F := F) m).payload (cellAt c 0) 0 d)
    = iprop(barPay c 0 ∗ barPay c 1 ∗ barPay c 2) := by
  rw [← rest_bar m c, Finset.sdiff_empty, duties_bar]

attribute [local sl_rounds] duties_bar duties_xfer amount_bar amount_xfer expect_bar expect_xfer payV_bar1 payV_bar2 payV_bar3
attribute [local sl_canon] dev1_eq dev2_eq dev3_eq dev4_eq dev5_eq dev6_eq

/-! ## The payloads of the device's own receive and send cells spelt through the rows' views -/

theorem payV_recv1 (c : Dev nD) : (sched (F := F) m).payload (cellAt c 4) 0 0
    = iprop(∃ f, ⌜(aM : Memref sig .tc .vmem S4x1x1024 .f32).view.readAt (Elt F) row1.toLoadRect f = acc m (fwd 1 c)⌝ ∗ ((rowM1 : Memref sig .tc .vmem S1x1024 .f32).view.loc (c : Thread nD τ) ↦[(rowM1 : Memref sig .tc .vmem S1x1024 .f32).view.set]{fullShare} f : sProp 𝕄)) := by
  rw [payload_at]; rfl
theorem payV_recv2 (c : Dev nD) : (sched (F := F) m).payload (cellAt c 5) 0 0
    = iprop(∃ f, ⌜(aM : Memref sig .tc .vmem S4x1x1024 .f32).view.readAt (Elt F) row2.toLoadRect f = acc m (fwd 2 c)⌝ ∗ ((rowM2 : Memref sig .tc .vmem S1x1024 .f32).view.loc (c : Thread nD τ) ↦[(rowM2 : Memref sig .tc .vmem S1x1024 .f32).view.set]{fullShare} f : sProp 𝕄)) := by
  rw [payload_at]; rfl
theorem payV_recv3 (c : Dev nD) : (sched (F := F) m).payload (cellAt c 6) 0 0
    = iprop(∃ f, ⌜(aM : Memref sig .tc .vmem S4x1x1024 .f32).view.readAt (Elt F) row3.toLoadRect f = acc m (fwd 3 c)⌝ ∗ ((rowM3 : Memref sig .tc .vmem S1x1024 .f32).view.loc (c : Thread nD τ) ↦[(rowM3 : Memref sig .tc .vmem S1x1024 .f32).view.set]{fullShare} f : sProp 𝕄)) := by
  rw [payload_at]; rfl
theorem payV_sendA (c : Dev nD) : (sched (F := F) m).payload (cellAt c 1) 0 0
    = ((rowM0 : Memref sig .tc .vmem S1x1024 .f32).view.loc (c : Thread nD τ) ↦[(rowM0 : Memref sig .tc .vmem S1x1024 .f32).view.set]{qA} scr0 m c : sProp 𝕄) := pay_sendA m c
theorem payV_sendB (c : Dev nD) : (sched (F := F) m).payload (cellAt c 2) 0 0
    = ((rowM0 : Memref sig .tc .vmem S1x1024 .f32).view.loc (c : Thread nD τ) ↦[(rowM0 : Memref sig .tc .vmem S1x1024 .f32).view.set]{qB} scr0 m c : sProp 𝕄) := pay_sendB m c
theorem payV_sendC (c : Dev nD) : (sched (F := F) m).payload (cellAt c 3) 0 0
    = ((rowM0 : Memref sig .tc .vmem S1x1024 .f32).view.loc (c : Thread nD τ) ↦[(rowM0 : Memref sig .tc .vmem S1x1024 .f32).view.set]{qC} scr0 m c : sProp 𝕄) := pay_sendC m c

attribute [local sl_rounds] payV_recv1 payV_recv2 payV_recv3 payV_sendA payV_sendB payV_sendC

set_option maxHeartbeats 1600000 in
set_option maxRecDepth 65536 in
theorem sound_body (c : Dev nD) (Kt : PUnit → sProp 𝕄) :
    iprop(bodyPreK m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPreK ghost invs poss rchs toks
  iintro ⟨⟨⟨⟨⟨#I0, #I1, #I2, #I3, #I4, #I5, #I6, #IB1, #IB2, #IB3, #IR1, #IR2, #IR3⟩, ⟨P0, P1, P2, P3, P4, P5, P6⟩,
      ⟨#r1, #r2, #r3, #r4, #r5, #r6, #rB1, #rB2, #rB3, #rR1, #rR2, #rR3⟩, tB1, tB2, tB3, tR1, tR2, tR3, tS1, tS2, tS3⟩,
      HcB, Hc4, Hc5, Hc6, #Hlev, Hidle, ⟨%f0, Hscr⟩⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  simp only [dev1_eq c, dev2_eq c, dev3_eq c, dev4_eq c, dev5_eq c, dev6_eq c]
  -- the scratch array cut into its rows
  ihave H1 := (pointsTo_split_subset (I := R1) (Finset.subset_univ _)).1 $$ Hscr
  icases H1 with ⟨Hr1, Hrest⟩
  ihave H2 := (pointsTo_split_subset (I := R2) R2_sub).1 $$ Hrest
  icases H2 with ⟨Hr2, Hrest⟩
  ihave H3 := (pointsTo_split_subset (I := R3) R3_sub).1 $$ Hrest
  icases H3 with ⟨Hr3, Hr0⟩
  rw [R_rest]
  -- the buffers restated through their memrefs' views
  ihave Hr1 := (Entails.of_eq (show ((((c : Thread nD τ).loc cc0_scratch0) ↦[R1]{fullShare} f0 : sProp 𝕄)) = ((rowM1 : Memref sig .tc .vmem S1x1024 .f32).view.loc (c : Thread nD τ) ↦[(rowM1 : Memref sig .tc .vmem S1x1024 .f32).view.set]{fullShare} f0) from rfl)) $$ Hr1
  ihave Hr2 := (Entails.of_eq (show ((((c : Thread nD τ).loc cc0_scratch0) ↦[R2]{fullShare} f0 : sProp 𝕄)) = ((rowM2 : Memref sig .tc .vmem S1x1024 .f32).view.loc (c : Thread nD τ) ↦[(rowM2 : Memref sig .tc .vmem S1x1024 .f32).view.set]{fullShare} f0) from rfl)) $$ Hr2
  ihave Hr3 := (Entails.of_eq (show ((((c : Thread nD τ).loc cc0_scratch0) ↦[R3]{fullShare} f0 : sProp 𝕄)) = ((rowM3 : Memref sig .tc .vmem S1x1024 .f32).view.loc (c : Thread nD τ) ↦[(rowM3 : Memref sig .tc .vmem S1x1024 .f32).view.set]{fullShare} f0) from rfl)) $$ Hr3
  ihave Hr0 := (Entails.of_eq (show ((((c : Thread nD τ).loc cc0_scratch0) ↦[R0]{fullShare} f0 : sProp 𝕄)) = ((rowM0 : Memref sig .tc .vmem S1x1024 .f32).view.loc (c : Thread nD τ) ↦[(rowM0 : Memref sig .tc .vmem S1x1024 .f32).view.set]{fullShare} f0) from rfl)) $$ Hr0
  ihave Hx := (Entails.of_eq (show ((((c : Thread nD τ).loc cc0_stg0_0) ↦{fullShare} xstg m c : sProp 𝕄)) = ((xM : Memref sig .tc .vmem S4096x1024 .f32).view.loc (c : Thread nD τ) ↦{fullShare} xstg m c) from rfl)) $$ Hx
  ihave Hout := (Entails.of_eq (show ((((c : Thread nD τ).loc cc0_stg1_0) ↦{fullShare} g1 : sProp 𝕄)) = ((oM : Memref sig .tc .vmem S1x1024 .f32).view.loc (c : Thread nD τ) ↦{fullShare} g1) from rfl)) $$ Hout
  unfold O₀
  have hMW := mayWait_bar (F := F) c
  -- the three words to the peers (rows 1, 2, 3 go with them), the block of rows read and its column sums stored in row 0,
  -- and the wait for the three peers' words
  sl_exec
  -- row 0 holds the stored sums whatever it held before
  have hw0 : ∀ i ∈ R0, sound_body.sl.Hr0_w1 m c f0 i = scr0 m c i := by
    intro i hi
    have hn : sound_body.sl.Hr0_w1 m c f0 = ((aM : Memref sig .tc .vmem S4x1x1024 .f32).access row0).write (Elt F) f0 (acc m c) Finset.univ := by
      unfold sound_body.sl.Hr0_w1; rw [read_x]; rfl
    rw [hn]; exact store_scr0 m c f0 i hi
  ihave Hr0 := (Entails.of_eq (pointsTo_congr hw0)) $$ Hr0
  -- row 0 in quarter shares
  ihave HLR := (pointsTo_share (PosShare.mem_left_op_right fullShare)).1 $$ Hr0
  icases HLR with ⟨HL, HR⟩
  ihave HAB := (pointsTo_share (PosShare.mem_left_op_right fullShare.left)).1 $$ HL
  icases HAB with ⟨HqA, HqB⟩
  ihave HCD := (pointsTo_share (PosShare.mem_left_op_right fullShare.right)).1 $$ HR
  icases HCD with ⟨HqC, HqD⟩
  -- with the three words came the landing rows on the peers
  ihave Hp := (Entails.of_eq (bar_round m c)) $$ P0_pay1
  unfold barPay scrOn
  icases Hp with ⟨⟨⟨%fa, Ha⟩, -⟩, ⟨⟨%fb, Hb⟩, -⟩, ⟨%fc, Hc⟩, -⟩
  -- the three copies of row 0: two places on into row 2, one place on into row 3, three places on into row 1
  iapply (wp_sendB_at m K c _ (dev4_eq c) fb (insert (csem 0, ()) W)) $$ [HqB Hb HO tS2 tR2]
  · isplitr; · iexact I2
    isplitr; · iexact IR2
    isplitl [HqB]; · iexact HqB
    isplitl [Hb]; · iexact Hb
    isplitl [HO]; · iexact HO
    isplitl [tS2]; · iexact tS2
    isplitr; · iexact r2
    isplitl [tR2]; · iexact tR2
    iexact rR2
  iintro ⟨HcS2, HO⟩
  iapply (wp_sendA_at m K c _ (dev5_eq c) fa (insert (csem 0, ()) W)) $$ [HqA Ha HO tS1 tR1]
  · isplitr; · iexact I1
    isplitr; · iexact IR1
    isplitl [HqA]; · iexact HqA
    isplitl [Ha]; · iexact Ha
    isplitl [HO]; · iexact HO
    isplitl [tS1]; · iexact tS1
    isplitr; · iexact r1
    isplitl [tR1]; · iexact tR1
    iexact rR1
  iintro ⟨HcS1, HO⟩
  iapply (wp_sendC_at m K c _ (dev6_eq c) fc (insert (csem 0, ()) W)) $$ [HqC Hc HO tS3 tR3]
  · isplitr; · iexact I3
    isplitr; · iexact IR3
    isplitl [HqC]; · iexact HqC
    isplitl [Hc]; · iexact Hc
    isplitl [HO]; · iexact HO
    isplitl [tS3]; · iexact tS3
    isplitr; · iexact r3
    isplitl [tR3]; · iexact tR3
    iexact rR3
  iintro ⟨HcS3, HO⟩
  -- row 1 lands (the partial sums of the device one place on) and rows 0 and 1 are read; row 3 lands and is read; row 2
  -- lands and is read; the four rows are added and scaled and stored as the result row; the three copies out are done and
  -- the quarter shares of row 0 come back
  sl_exec
  icases P4_pay1 with ⟨%hf1, Hl1⟩
  sl_exec
  icases P6_pay1 with ⟨%hf3, Hl3⟩
  sl_exec
  icases P5_pay1 with ⟨%hf2, Hl2⟩
  sl_exec
  irename P1_pay1 => HqA
  irename P2_pay1 => HqB
  irename P3_pay1 => HqC
  have hout : (oM : Memref sig .tc .vmem S1x1024 .f32).view.writes (Elt F) g1 [⟨ro, outAt m c⟩] = outAt m c := by
    rw [View.writes_singleton]; exact write_out g1 (outAt m c)
  -- the six cells of the copies are done with: their counters are at zero again
  imod (Rounds.cell_close ER (sched m) (Set.mem_univ (K (c, 1))) (fun h => h) (R := 0 + 1) (duties_later m (cellAt c 1))) $$ [P1] with Hz1
  · isplitr; · iexact I1
    iexact P1
  imod (Rounds.cell_close ER (sched m) (Set.mem_univ (K (c, 2))) (fun h => h) (R := 0 + 1) (duties_later m (cellAt c 2))) $$ [P2] with Hz2
  · isplitr; · iexact I2
    iexact P2
  imod (Rounds.cell_close ER (sched m) (Set.mem_univ (K (c, 3))) (fun h => h) (R := 0 + 1) (duties_later m (cellAt c 3))) $$ [P3] with Hz3
  · isplitr; · iexact I3
    iexact P3
  imod (Rounds.cell_close ER (sched m) (Set.mem_univ (K (c, 4))) (fun h => h) (R := 0 + 1) (duties_later m (cellAt c 4))) $$ [P4] with Hz4
  · isplitr; · iexact I4
    iexact P4
  imod (Rounds.cell_close ER (sched m) (Set.mem_univ (K (c, 5))) (fun h => h) (R := 0 + 1) (duties_later m (cellAt c 5))) $$ [P5] with Hz5
  · isplitr; · iexact I5
    iexact P5
  imod (Rounds.cell_close ER (sched m) (Set.mem_univ (K (c, 6))) (fun h => h) (R := 0 + 1) (duties_later m (cellAt c 6))) $$ [P6] with Hz6
  · isplitr; · iexact I6
    iexact P6
  -- row 0 whole again, then the four rows the whole array again
  ihave HL := (pointsTo_share (ℓ := (c : Thread nD τ).loc cc0_scratch0) (I := R0) (f := scr0 m c) (PosShare.mem_left_op_right fullShare.left)).2 $$ [HqA HqB]
  · isplitl [HqA]; · iexact HqA
    iexact HqB
  ihave HR := (pointsTo_share (ℓ := (c : Thread nD τ).loc cc0_scratch0) (I := R0) (f := scr0 m c) (PosShare.mem_left_op_right fullShare.right)).2 $$ [HqC HqD]
  · isplitl [HqC]; · iexact HqC
    iexact HqD
  ihave Hr0 := (pointsTo_share (ℓ := (c : Thread nD τ).loc cc0_scratch0) (I := R0) (f := scr0 m c) (PosShare.mem_left_op_right fullShare)).2 $$ [HL HR]
  · isplitl [HL]; · iexact HL
    iexact HR
  ihave Hr0 := (Entails.of_eq (congrArg (fun S => ((((c : Thread nD τ).loc cc0_scratch0) ↦[S]{fullShare} scr0 m c : sProp 𝕄))) (R_rest).symm)) $$ Hr0
  ihave H3 := (pointsTo_join_subset (ℓ := (c : Thread nD τ).loc cc0_scratch0) (q := fullShare) (g := P6_pay1_v) (f := scr0 m c) R3_sub) $$ [Hl3 Hr0]
  · isplitl [Hl3]; · iexact Hl3
    iexact Hr0
  ihave H2 := (pointsTo_join_subset (ℓ := (c : Thread nD τ).loc cc0_scratch0) (q := fullShare) (g := P5_pay1_v) (f := (R3).piecewise P6_pay1_v (scr0 m c)) R2_sub) $$ [Hl2 H3]
  · isplitl [Hl2]; · iexact Hl2
    iexact H3
  ihave H1 := (pointsTo_join_subset (ℓ := (c : Thread nD τ).loc cc0_scratch0) (q := fullShare) (g := P4_pay1_v) (f := (R2).piecewise P5_pay1_v ((R3).piecewise P6_pay1_v (scr0 m c))) (Finset.subset_univ (R1))) $$ [Hl1 H2]
  · isplitl [Hl1]; · iexact Hl1
    iexact H2
  rw [wp_ret]; imodintro
  iapply Hk
  unfold bodyPost Φ₁ Dat.owesAt Pipeline.owesWithin
  rw [show (dats m 0 c).owed t₀.succ = 0 from rfl]
  isplitl [H1 Hz1 Hz2 Hz3 Hidle Hz4 Hz5 Hz6]
  · isplitl [H1]; · iexists _; iexact H1
    isplitl [Hz1]; · iexact Hz1
    isplitl [Hz2]; · iexact Hz2
    isplitl [Hz3]; · iexact Hz3
    isplitl [Hidle]; · iexact Hidle
    isplitl [Hz4]; · iexact Hz4
    isplitl [Hz5]; · iexact Hz5
    iexact Hz6
  isplitl [HO]
  · iexists (insert (csem 3, ()) (insert (csem 1, ()) (insert (csem 2, ()) (insert (csem 5, ()) (insert (csem 6, ()) (insert (csem 4, ()) (insert (csem 0, ()) W)))))))
    isplitr; · ipureintro; exact fun _ _ => Or.inl trivial
    iexact HO
  isplitl [Hx]
  · iexists _; isplitr; · (ipureintro; rfl)
    iexact Hx
  iexists _; isplitr; · (ipureintro; exact hout)
  iexact Hout

/-! ## The body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 8000 in
/-- Device `c`'s body takes what the pipeline enters it with to what the pipeline expects after it. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre Φ₀ start
  iintro ⟨⟨⟨⟨%K, Hg⟩, Hrest⟩, Hscr⟩, Ho, Hx, Hout⟩
  iapply (sound_body m K c fun _ => bodyPost m c)
  unfold bodyPreK
  isplitr []
  · isplitl [Hg Hrest Hscr]
    · isplitl [Hg]; · iexact Hg
      icases Hrest with ⟨H1, H2, H3, H4, H5, H6⟩
      isplitl [H1]; · iexact H1
      isplitl [H2]; · iexact H2
      isplitl [H3]; · iexact H3
      isplitl [H4]; · iexact H4
      isplitl [H5]; · iexact H5
      isplitl [H6]; · iexact H6
      iexact Hscr
    isplitl [Ho]; · iexact Ho
    isplitl [Hx] <;> iassumption
  · iintro H; iexact H

/-- info: 'Cert.Kernel.Coll.body_obligation' depends on axioms: [propext, Classical.choice, Quot.sound] -/
#guard_msgs in #print axioms body_obligation

end Cert.Kernel.Coll

end
-- ==== Proof.LaunchK.lean ====
/-
  The launch: the cells' ghost state is made for all devices at once, every device is dealt the tokens of the duties it
  pays and the credit its peers owe it, and from each device's body the whole mesh's run follows: it ends, the blocks of
  rows unchanged, every device's result array holding its result row.
-/
import proofs.«900951_g7700000000000952_dist_mean_ax0_shard0_i_m4096_n1024_v7x_i4_bf16_1_alg».proof.Proof.CommonK
import proofs.«900951_g7700000000000952_dist_mean_ax0_shard0_i_m4096_n1024_v7x_i4_bf16_1_alg».proof.Proof.SchedK

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The layout facts -/

theorem ownSemFacts : Pipeline.OwnSemFacts cfg0.spec osem := by decide

theorem share_eq (c : Dev nD) (w : Fin cfg0.W) : (dats (F := F) m 0 c).share w = fullShare := by unfold Dat.share; split <;> rfl

theorem csem_injective : Function.Injective csem := by
  intro k k' h
  fin_cases k <;> fin_cases k' <;> first | rfl | exact absurd h (by decide)

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The cells of the protocol: seven a device. -/
def ringCells : Finset (GSem nD τ sig) := Finset.univ.map ⟨kcell, kcell_injective⟩

/-- The nine duties of a device's own cells: the barrier cell's three, then the one of each send and receive cell. -/
abbrev tokK : Fin 9 → Fin 7 × Fin 3 := fun
  | 0 => (0, 0) | 1 => (0, 1) | 2 => (0, 2) | 3 => (1, 0) | 4 => (2, 0) | 5 => (3, 0) | 6 => (4, 0) | 7 => (5, 0) | 8 => (6, 0)
theorem tokK_injective : Function.Injective tokK := by decide
abbrev tokOf (cj : Dev nD × Fin 9) : GSem nD τ sig × ℕ × Fin 3 := (kcell (cj.1, (tokK cj.2).1), 0, (tokK cj.2).2)
theorem tokOf_injective : Function.Injective (tokOf : Dev nD × Fin 9 → GSem nD τ sig × ℕ × Fin 3) := by
  rintro ⟨c, j⟩ ⟨c', j'⟩ h
  have h1 := kcell_injective (congrArg (fun x : GSem nD τ sig × ℕ × Fin 3 => x.1) h)
  have h2 : (tokK j).2 = (tokK j').2 := congrArg (fun x : GSem nD τ sig × ℕ × Fin 3 => x.2.2) h
  have h3 : c = c' := congrArg Prod.fst h1
  have h4 : (tokK j).1 = (tokK j').1 := congrArg Prod.snd h1
  have h5 : j = j' := tokK_injective (Prod.ext h4 h2)
  rw [h3, h5]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device c's own cells, as made. -/
def minted (c : Dev nD) : sProp 𝕄 :=
  iprop(dutyTok ER (cellAt c 0) 0 0 ∗ dutyTok ER (cellAt c 0) 0 1 ∗ dutyTok ER (cellAt c 0) 0 2
    ∗ dutyTok ER (cellAt c 1) 0 0 ∗ dutyTok ER (cellAt c 2) 0 0 ∗ dutyTok ER (cellAt c 3) 0 0
    ∗ dutyTok ER (cellAt c 4) 0 0 ∗ dutyTok ER (cellAt c 5) 0 0 ∗ dutyTok ER (cellAt c 6) 0 0)

/-- What the launch element deals device c. -/
def G (c : Dev nD) : sProp 𝕄 :=
  iprop((bigSep Finset.univ fun k : Fin 7 => roundState ER (sched m) (kcell (c, k)) 0)
    ∗ (bigSep Finset.univ fun k : Fin 7 => iprop(atPos ER (kcell (c, k)) 0 ∅ 0 ∗ reached ER (kcell (c, k)) 0)) ∗ minted c)

/-- What the global step makes of it. -/
def G' (c : Dev nD) : sProp 𝕄 := iprop((∃ K, ghost m K c) ∗ semVal (idleCell c) 0)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => minted c := by
    unfold ringToks; rw [bigSep_map, bigSep_univ_prod]
    exact bigSep_congr fun c _ => by unfold minted; rw [bigSep_fin9]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own seven semaphores, listed; -/
theorem ownSems0_eq (c : Dev nD) : (Pipeline.ownSems0 (Ix := Unit) (Name := ℕ) (U := UU) (Lvl := ℕ) (Val := Elt F) (τ := τ) osem c : sProp 𝕄)
    = iprop(semVal (cellAt c 1) 0 ∗ semVal (cellAt c 2) 0 ∗ semVal (cellAt c 3) 0 ∗ semVal (idleCell c) 0
        ∗ semVal (cellAt c 4) 0 ∗ semVal (cellAt c 5) 0 ∗ semVal (cellAt c 6) 0) := by
  rw [Pipeline.ownSems0_eq_of_list c osem [0, 1, 2, 3, 4, 5, 6] (by decide) (by decide)]; rfl
/-- the barrier semaphore the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 7 => semVal (kcell (c, k)) 0) ∗ semVal (idleCell c) 0 : sProp 𝕄) := by
  rw [ownSems0_eq, unscopedSems0_eq, bigSep_fin7]
  iintro ⟨⟨H1, H2, H3, Hz, H4, H5, H6⟩, HB⟩
  isplitr [Hz]
  · isplitl [HB]; · iexact HB
    isplitl [H1]; · iexact H1
    isplitl [H2]; · iexact H2
    isplitl [H3]; · iexact H3
    isplitl [H4]; · iexact H4
    isplitl [H5]; · iexact H5
    iexact H6
  · iexact Hz

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Fin 7 => iprop(atPos ER (kcell (c, k)) 0 ∅ 0 ∗ reached ER (kcell (c, k)) 0)) ∗ minted c ∗ semVal (idleCell c) 0) := by
  unfold G
  iintro ⟨Hos, Hus, Hst, Hat, Htok⟩
  ihave Hv := (sems0_eq (F := F) c) $$ [Hos Hus]
  · isplitl [Hos] <;> iassumption
  icases Hv with ⟨Hv, Hz⟩
  imod (show iprop((bigSep Finset.univ fun k : Fin 7 => semVal (kcell (c, k)) 0) ∗ bigSep Finset.univ fun k : Fin 7 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hz

def records (K : Dev nD × Fin 7 → ℕ) : sProp 𝕄 :=
  iprop((bigSep Finset.univ fun ck : Dev nD × Fin 7 => cellInv ER (sched m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (sched m) (K ck) (kcell ck) : sProp 𝕄)) ⊢ cellInv ER (sched m) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device c: its positions, the tokens of the duties it pays, and its idle semaphore. -/
def linear (c : Dev nD) : sProp 𝕄 := iprop(poss c ∗ toks c ∗ semVal (idleCell c) 0)

theorem ghost_intro (K : Dev nD × Fin 7 → ℕ) (c : Dev nD) : iprop(records m K ∗ linear c) ⊢ G' m c := by
  unfold records linear G' ghost invs rchs
  iintro ⟨⟨#HI, #HR⟩, Hp, Ht, Hz⟩
  isplitr [Hz]
  · iexists K
    isplitr
    · isplitr; · iapply (inv_at m K (c, 0)); iexact HI
      isplitr; · iapply (inv_at m K (c, 1)); iexact HI
      isplitr; · iapply (inv_at m K (c, 2)); iexact HI
      isplitr; · iapply (inv_at m K (c, 3)); iexact HI
      isplitr; · iapply (inv_at m K (c, 4)); iexact HI
      isplitr; · iapply (inv_at m K (c, 5)); iexact HI
      isplitr; · iapply (inv_at m K (c, 6)); iexact HI
      isplitr; · iapply (inv_at m K (fwd 1 c, 0)); iexact HI
      isplitr; · iapply (inv_at m K (fwd 2 c, 0)); iexact HI
      isplitr; · iapply (inv_at m K (fwd 3 c, 0)); iexact HI
      isplitr; · iapply (inv_at m K (fwd 1 c, 6)); iexact HI
      isplitr; · iapply (inv_at m K (fwd 2 c, 5)); iexact HI
      iapply (inv_at m K (fwd 3 c, 4)); iexact HI
    isplitl [Hp]; · iexact Hp
    isplitr
    · isplitr; · iapply (reached_at (F := F) (c, 1)); iexact HR
      isplitr; · iapply (reached_at (F := F) (c, 2)); iexact HR
      isplitr; · iapply (reached_at (F := F) (c, 3)); iexact HR
      isplitr; · iapply (reached_at (F := F) (c, 4)); iexact HR
      isplitr; · iapply (reached_at (F := F) (c, 5)); iexact HR
      isplitr; · iapply (reached_at (F := F) (c, 6)); iexact HR
      isplitr; · iapply (reached_at (F := F) (fwd 1 c, 0)); iexact HR
      isplitr; · iapply (reached_at (F := F) (fwd 2 c, 0)); iexact HR
      isplitr; · iapply (reached_at (F := F) (fwd 3 c, 0)); iexact HR
      isplitr; · iapply (reached_at (F := F) (fwd 1 c, 6)); iexact HR
      isplitr; · iapply (reached_at (F := F) (fwd 2 c, 5)); iexact HR
      iapply (reached_at (F := F) (fwd 3 c, 4)); iexact HR
    iexact Ht
  · iexact Hz

/-- The three rotations of the circle. -/
def rot1 : Dev nD ≃ Dev nD := ⟨fwd 1, fwd 3, fwd31, fwd13⟩
def rot2 : Dev nD ≃ Dev nD := ⟨fwd 2, fwd 2, fwd22, fwd22⟩
def rot3 : Dev nD ≃ Dev nD := ⟨fwd 3, fwd 1, fwd13, fwd31⟩

/-- The tokens dealt round the circle: each device gets, of the device k places on, the barrier token of the duty it
    pays there and the token of its landing row's receive cell; its own send cells' tokens stay. -/
theorem toks_around : (bigSep Finset.univ fun c : Dev nD => (minted c : sProp 𝕄)) ⊢ bigSep Finset.univ fun c : Dev nD => toks c := by
  unfold minted toks
  rw [bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep',
    bigSep_univ_equiv rot3 (fun c : Dev nD => (dutyTok ER (cellAt c 0) 0 0 : sProp 𝕄)),
    bigSep_univ_equiv rot2 (fun c : Dev nD => (dutyTok ER (cellAt c 0) 0 1 : sProp 𝕄)),
    bigSep_univ_equiv rot1 (fun c : Dev nD => (dutyTok ER (cellAt c 0) 0 2 : sProp 𝕄)),
    bigSep_univ_equiv rot3 (fun c : Dev nD => (dutyTok ER (cellAt c 4) 0 0 : sProp 𝕄)),
    bigSep_univ_equiv rot2 (fun c : Dev nD => (dutyTok ER (cellAt c 5) 0 0 : sProp 𝕄)),
    bigSep_univ_equiv rot1 (fun c : Dev nD => (dutyTok ER (cellAt c 6) 0 0 : sProp 𝕄))]
  iintro ⟨Hb0, Hb1, Hb2, Hs1, Hs2, Hs3, Hr4, Hr5, Hr6⟩
  isplitl [Hb2]; · iexact Hb2
  isplitl [Hb1]; · iexact Hb1
  isplitl [Hb0]; · iexact Hb0
  isplitl [Hr6]; · iexact Hr6
  isplitl [Hr5]; · iexact Hr5
  isplitl [Hr4]; · iexact Hr4
  isplitl [Hs1]; · iexact Hs1
  isplitl [Hs2]; · iexact Hs2
  iexact Hs3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k : Fin 7 => iprop(atPos ER (kcell (c, k)) 0 ∅ 0 ∗ reached ER (kcell (c, k)) 0)) ∗ minted c ∗ semVal (idleCell c) 0) : sProp 𝕄)
      ⊢ bigSep Finset.univ (G' m) := by
  rw [bigSep_sep', bigSep_sep', bigSep_sep', ← bigSep_univ_prod (fun ck : Dev nD × Fin 7 => iprop(∃ κ : ℕ, cellInv ER (sched m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hz⟩
  ihave HK := (BI.bigSep_exists_pi Finset.univ (fun (ck : Dev nD × Fin 7) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · unfold linear
    rw [bigSep_sep', bigSep_sep']
    isplitl [Hat]
    · iapply (Entails.of_eq (bigSep_congr (s := Finset.univ) fun (c : Dev nD) _ => show (bigSep Finset.univ fun k : Fin 7 => (atPos ER (kcell (c, k)) 0 ∅ 0 : sProp 𝕄)) = poss c from by unfold poss; rw [bigSep_fin7]))
      iexact Hat
    isplitl [Htk]; · iexact Htk
    iexact Hz

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar3 (c : Dev nD) : iprop(cred (tallyAt (cellAt c 0) () 1) ∗ cred (tallyAt (cellAt c 0) () 1) ∗ cred (tallyAt (cellAt c 0) () 1))
    ⊢ (cred (tallyAt (cellAt c 0) () 3) : sProp 𝕄) := by
  rw [show (tallyAt (cellAt c 0) () 3 : CellTallies nD τ sig Unit) = tallyAt (cellAt c 0) () 1 + (tallyAt (cellAt c 0) () 1 + tallyAt (cellAt c 0) () 1) from by
    rw [tallyAt_add, tallyAt_add]]
  exact (sep_mono_right (cred_add _ _).2).trans (cred_add _ _).2

/-- The credit device c starts with: its three peers each owe its barrier cell a unit, and the device k places back owes
    the receive cell of the row it lands in one copy's credit. -/
theorem creds (c : Dev nD) :
    (Pipeline.launchCred O₀ c : sProp 𝕄) ⊢ iprop(cred (tallyAt (cellAt c 0) () 3) ∗ cred (tallyAt (cellAt c 4) () N) ∗ cred (tallyAt (cellAt c 5) () N)
      ∗ cred (tallyAt (cellAt c 6) () N)) := by
  rw [show (O₀ : Dev nD → CellTallies nD τ sig Unit) = fun d => tallyAt (cellAt (fwd 3 d) 4) () N + tallyAt (cellAt (fwd 1 d) 6) () N + tallyAt (cellAt (fwd 2 d) 5) () N
      + tallyAt (barCell (fwd 3 d)) () 1 + tallyAt (barCell (fwd 2 d)) () 1 + tallyAt (barCell (fwd 1 d)) () 1 from rfl,
    Pipeline.launchCred_add, Pipeline.launchCred_add, Pipeline.launchCred_add, Pipeline.launchCred_add, Pipeline.launchCred_add]
  iintro ⟨⟨⟨⟨⟨H4, H6⟩, H5⟩, Hb3⟩, Hb2⟩, Hb1⟩
  ihave C4 := (Pipeline.launchCred_tallyAt (csem 4) (fwd 3) (fwd 1) fwd31 fwd13 () N c) $$ H4
  ihave C6 := (Pipeline.launchCred_tallyAt (csem 6) (fwd 1) (fwd 3) fwd13 fwd31 () N c) $$ H6
  ihave C5 := (Pipeline.launchCred_tallyAt (csem 5) (fwd 2) (fwd 2) fwd22 fwd22 () N c) $$ H5
  ihave B3 := (Pipeline.launchCred_tallyAt (csem 0) (fwd 3) (fwd 1) fwd31 fwd13 () 1 c) $$ Hb3
  ihave B2 := (Pipeline.launchCred_tallyAt (csem 0) (fwd 2) (fwd 2) fwd22 fwd22 () 1 c) $$ Hb2
  ihave B1 := (Pipeline.launchCred_tallyAt (csem 0) (fwd 1) (fwd 3) fwd13 fwd31 () 1 c) $$ Hb1
  isplitl [B1 B2 B3]
  · iapply (bar3 (F := F) c)
    isplitl [B1]; · iexact B1
    isplitl [B2] <;> iassumption
  isplitl [C4]; · iexact C4
  isplitl [C5] <;> iassumption

/-! ## The theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H0, H4, H5, H6⟩
  imodintro
  unfold start G'
  icases HG with ⟨HG, Hz⟩
  isplitl
  · isplitl [HG]; · iexact HG
    isplitl [H0]; · iexact H0
    isplitl [H4]; · iexact H4
    isplitl [H5]; · iexact H5
    isplitl [H6]; · iexact H6
    isplitl [Hlev]; · iexact Hlev
    iexact Hz
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨Hr, Hz⟩
  isplitr; · iempintro
  isplitl [Hz]; · iexact Hz
  iexact Hr

/-! ## The levels: staging cells below everything a device owes -/

theorem L_of_ne (g : GSem nD τ sig) (h : g.1.2 ≠ .tc) : L g = ∅ := if_neg h
theorem L_tc (c : Dev nD) (sm : SemLoc sig) : L ((c : Thread nD τ), sm) = {()} := if_pos rfl

theorem lv_r4 (d : Dev nD) (u : Unit) : lv (cellAt d 4) u = 2 := by
  unfold lv; rw [if_neg (show csem 4 ≠ csem 0 from by decide), if_pos (Or.inl rfl)]
theorem lv_r5 (d : Dev nD) (u : Unit) : lv (cellAt d 5) u = 2 := by
  unfold lv; rw [if_neg (show csem 5 ≠ csem 0 from by decide), if_pos (Or.inr (Or.inl rfl))]
theorem lv_r6 (d : Dev nD) (u : Unit) : lv (cellAt d 6) u = 2 := by
  unfold lv; rw [if_neg (show csem 6 ≠ csem 0 from by decide), if_pos (Or.inr (Or.inr rfl))]

theorem O₀_pos {c : Dev nD} {g : GSem nD τ sig} {u : Unit} (h : 0 < O₀ c g u) :
    g = cellAt (fwd 3 c) 4 ∨ g = cellAt (fwd 1 c) 6 ∨ g = cellAt (fwd 2 c) 5 ∨ g = barCell (fwd 3 c) ∨ g = barCell (fwd 2 c) ∨ g = barCell (fwd 1 c) := by
  unfold O₀ at h
  rcases Pipeline.add_pos_cases h with h | h
  · rcases Pipeline.add_pos_cases h with h | h
    · rcases Pipeline.add_pos_cases h with h | h
      · rcases Pipeline.add_pos_cases h with h | h
        · rcases Pipeline.add_pos_cases h with h | h
          · exact Or.inl (Pipeline.tallyAt_pos h).1
          · exact Or.inr (Or.inl (Pipeline.tallyAt_pos h).1)
        · exact Or.inr (Or.inr (Or.inl (Pipeline.tallyAt_pos h).1))
      · exact Or.inr (Or.inr (Or.inr (Or.inl (Pipeline.tallyAt_pos h).1)))
    · exact Or.inr (Or.inr (Or.inr (Or.inr (Or.inl (Pipeline.tallyAt_pos h).1))))
  · exact Or.inr (Or.inr (Or.inr (Or.inr (Or.inr (Pipeline.tallyAt_pos h).1))))

theorem mayWait_stage (c : Dev nD) (q : DmaSem sig) (hq : SemLoc.dma q ≠ csem 4 ∧ SemLoc.dma q ≠ csem 5 ∧ SemLoc.dma q ≠ csem 6)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl | rfl | rfl <;> exact Finset.mem_singleton_self _)
      (fun p hp => by
        rw [Finset.mem_singleton.mp hp]; dsimp only [lv]
        rw [if_neg (fun h => by cases h), if_neg (fun h => by rcases h with h | h | h; exacts [hq.1 h, hq.2.1 h, hq.2.2 h])])
      (fun g u hg => by
        rcases O₀_pos hg with rfl | rfl | rfl | rfl | rfl | rfl
        · rw [lv_r4]; decide
        · rw [lv_r6]; decide
        · rw [lv_r5]; decide
        · rw [lv_bar]; decide
        · rw [lv_bar]; decide
        · rw [lv_bar]; decide)
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The arrays after the run -/

/-- The block of rows is never written back. -/
theorem final_arg0 (c : Dev nD) : (dats (F := F) m 0 c).arrAt (0 : Fin 2) cfg0.N = m ((c : Thread nD τ).loc main_arg0) :=
  (dats (F := F) m 0 c).arrAt_in (0 : Fin 2) rfl _

/-- The result array holds what the body left in its staging buffer at the one point: the result row. -/
theorem final_v1 (c : Dev nD) : (dats (F := F) m 0 c).arrAt (1 : Fin 2) cfg0.N = outAt m c := by
  have h1 : ((cfg0.win (1 : Fin 2)).blk t₀).view.read (Elt F) ((dats (F := F) m 0 c).arrAt (1 : Fin 2) cfg0.N)
      = (dats (F := F) m 0 c).flushed (1 : Fin 2) t₀ := by
    rw [show cfg0.N = (t₀ : Fin cfg0.N).val + 1 from rfl, (dats (F := F) m 0 c).arrAt_succ (1 : Fin 2) t₀]
    rw [flush0_1 t₀, if_pos rfl]
    exact View.read_write_univ _ _
  have hz : (fun a => (win0_1.index t₀) a * main_v1.ty.shape.size a) = fun _ => 0 := funext fun a => by fin_cases a <;> decide
  have hr := fun f => Memref.read_access_unit_zero (Elt F) main_v1 hz (fun a => by fin_cases a <;> decide) f
  rw [hr] at h1
  rw [h1]
  rfl

set_option maxRecDepth 8000 in
/-- From every device's body: the run of the mesh. -/
theorem run_main (ρ : Dev nD → PrngReg) (hbody : ∀ c, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 1).trans (final_v1 m c), ((h c).1 0).trans (final_arg0 m c)⟩)

/-- info: 'Cert.Kernel.Coll.run_main' depends on axioms: [propext, Classical.choice, Quot.sound] -/
#guard_msgs in #print axioms run_main

end Cert.Kernel.Coll

end
-- ==== Proof.lean ====
/-
  The mean over the rows of a 16384 × 1024 array, computed on four devices that each hold 4096 rows: every device sums the
  columns of its rows, the four exchange their partial sums by remote copies behind an entry handshake on the barrier
  semaphore, and each adds the four rows and scales by 2^-14.  The reference sums the columns of the whole array on one
  device and divides by 16384.  The three frames: the reference's is its straight-line run; the kernel's, at the word
  level and over the extended reals, is the launch theorem for cores that owe units at launch applied to one device's
  body (Proof/Body, Proof/Launch and their word-level twins).  The kernel's idealization rewrote nothing.  Over the
  extended reals the two results agree: the four partial sums added in any order are the column sums of the whole array,
  and scaling by 2^-14 is dividing by 16384 (Proof/Value).
-/
import proofs.«900951_g7700000000000952_dist_mean_ax0_shard0_i_m4096_n1024_v7x_i4_bf16_1_alg».proof.Defs
import proofs.«900951_g7700000000000952_dist_mean_ax0_shard0_i_m4096_n1024_v7x_i4_bf16_1_alg».proof.Proof.Gen.Kernel
import proofs.«900951_g7700000000000952_dist_mean_ax0_shard0_i_m4096_n1024_v7x_i4_bf16_1_alg».proof.Proof.Gen.Kernel.Skeleton
import proofs.«900951_g7700000000000952_dist_mean_ax0_shard0_i_m4096_n1024_v7x_i4_bf16_1_alg».proof.Proof.Gen.Kernel.Launch
import proofs.«900951_g7700000000000952_dist_mean_ax0_shard0_i_m4096_n1024_v7x_i4_bf16_1_alg».proof.Proof.Gen.Kernel.Points
import proofs.«900951_g7700000000000952_dist_mean_ax0_shard0_i_m4096_n1024_v7x_i4_bf16_1_alg».proof.Proof.Gen.Kernel.Frame
import proofs.«900951_g7700000000000952_dist_mean_ax0_shard0_i_m4096_n1024_v7x_i4_bf16_1_alg».proof.Proof.Gen.KernelIdeal
import proofs.«900951_g7700000000000952_dist_mean_ax0_shard0_i_m4096_n1024_v7x_i4_bf16_1_alg».proof.Proof.Gen.KernelIdeal.Skeleton
import proofs.«900951_g7700000000000952_dist_mean_ax0_shard0_i_m4096_n1024_v7x_i4_bf16_1_alg».proof.Proof.Gen.KernelIdeal.Launch
import proofs.«900951_g7700000000000952_dist_mean_ax0_shard0_i_m4096_n1024_v7x_i4_bf16_1_alg».proof.Proof.Gen.KernelIdeal.Points
import proofs.«900951_g7700000000000952_dist_mean_ax0_shard0_i_m4096_n1024_v7x_i4_bf16_1_alg».proof.Proof.Gen.KernelIdeal.Frame
import proofs.«900951_g7700000000000952_dist_mean_ax0_shard0_i_m4096_n1024_v7x_i4_bf16_1_alg».proof.Proof.Gen.ReferenceIdeal
import proofs.«900951_g7700000000000952_dist_mean_ax0_shard0_i_m4096_n1024_v7x_i4_bf16_1_alg».proof.Proof.Gen.ReferenceIdeal.Run
import proofs.«900951_g7700000000000952_dist_mean_ax0_shard0_i_m4096_n1024_v7x_i4_bf16_1_alg».proof.Proof.Gen.ReferenceIdeal.Read
import proofs.«900951_g7700000000000952_dist_mean_ax0_shard0_i_m4096_n1024_v7x_i4_bf16_1_alg».proof.Proof.Gen.Pre_finite_inputs_Kernel
import proofs.«900951_g7700000000000952_dist_mean_ax0_shard0_i_m4096_n1024_v7x_i4_bf16_1_alg».proof.Proof.Gen.Pre_finite_inputs_ReferenceIdeal
import proofs.«900951_g7700000000000952_dist_mean_ax0_shard0_i_m4096_n1024_v7x_i4_bf16_1_alg».proof.Proof.Body
import proofs.«900951_g7700000000000952_dist_mean_ax0_shard0_i_m4096_n1024_v7x_i4_bf16_1_alg».proof.Proof.Launch
import proofs.«900951_g7700000000000952_dist_mean_ax0_shard0_i_m4096_n1024_v7x_i4_bf16_1_alg».proof.Proof.Value
import proofs.«900951_g7700000000000952_dist_mean_ax0_shard0_i_m4096_n1024_v7x_i4_bf16_1_alg».proof.Proof.BodyK
import proofs.«900951_g7700000000000952_dist_mean_ax0_shard0_i_m4096_n1024_v7x_i4_bf16_1_alg».proof.Proof.LaunchK
import Idealize.ShloMosaic.Adequacy
import Idealize.ShloMosaic.Init

noncomputable section

namespace Cert.Proof

open Idealize.ShloMosaic Idealize.SL.Sem

/-- The word-level kernel runs and leaves every device's block of rows as it was. -/
theorem frame_k : Cert.frame_Kernel := fun m ρ _ =>
  (θ_run Cert.Kernel.defs _ _).mono (fun _ h c => (h c).2)
    (Cert.Kernel.Coll.run_main (F := Bits) m ρ (Cert.Kernel.Coll.body_obligation (F := Bits) m))

/-- So does the kernel over the extended reals. -/
theorem frame_ki : Cert.frame_KernelIdeal := fun m ρ _ =>
  (θ_run Cert.KernelIdeal.defs _ _).mono (fun _ h c => (h c).2)
    (Cert.KernelIdeal.Coll.run_main (F := Ideal) m ρ (Cert.KernelIdeal.Coll.body_obligation (F := Ideal) m))

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Every device ends with the reference's row of column means. -/
theorem algebraic : Cert.algebraic_KernelIdeal_ReferenceIdeal := by
  intro m ρ m' ρ' _ hagree
  refine ⟨Cert.KernelIdeal.Coll.refVal (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c).1.trans (Cert.KernelIdeal.Coll.outAt_eq_ref m _ hagree c), (h c).2⟩)
      (Cert.KernelIdeal.Coll.run_main (F := Ideal) m ρ (Cert.KernelIdeal.Coll.body_obligation (F := Ideal) m))
  · exact (θ_run Cert.ReferenceIdeal.defs _ _).mono (fun _ h => ⟨(h 0).1, (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
